-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x9 : Shape := ⟨2, ![1000000, 9]⟩
abbrev S12x9 : Shape := ⟨2, ![12, 9]⟩
abbrev S12 : Shape := ⟨1, ![12]⟩
abbrev S12x12 : Shape := ⟨2, ![12, 12]⟩
abbrev S2x12 : Shape := ⟨2, ![2, 12]⟩
abbrev S2 : Shape := ⟨1, ![2]⟩
abbrev S1000000x12 : Shape := ⟨2, ![1000000, 12]⟩
abbrev S_ : Shape := ⟨0, ![]⟩

class Facts : Prop where
  bcast_S_S1000000x9 : S_.BroadcastsInDim S1000000x9 (![] : Fin 0 → Fin S1000000x9.rank)
  reducesTo_S1000000x9_S_d0_1 : S1000000x9.ReducesTo [0, 1] S_
  h_S_ : 0 < S_.numel
  bcast_S_S12x9 : S_.BroadcastsInDim S12x9 (![] : Fin 0 → Fin S12x9.rank)
  reducesTo_S12x9_S_d0_1 : S12x9.ReducesTo [0, 1] S_
  bcast_S_S12 : S_.BroadcastsInDim S12 (![] : Fin 0 → Fin S12.rank)
  reducesTo_S12_S_d0 : S12.ReducesTo [0] S_
  bcast_S_S12x12 : S_.BroadcastsInDim S12x12 (![] : Fin 0 → Fin S12x12.rank)
  reducesTo_S12x12_S_d0_1 : S12x12.ReducesTo [0, 1] S_
  bcast_S_S2x12 : S_.BroadcastsInDim S2x12 (![] : Fin 0 → Fin S2x12.rank)
  reducesTo_S2x12_S_d0_1 : S2x12.ReducesTo [0, 1] S_
  bcast_S_S2 : S_.BroadcastsInDim S2 (![] : Fin 0 → Fin S2.rank)
  reducesTo_S2_S_d0 : S2.ReducesTo [0] S_
  bcast_S_S1000000x12 : S_.BroadcastsInDim S1000000x12 (![] : Fin 0 → Fin S1000000x12.rank)
  reducesTo_S1000000x12_S_d0_1 : S1000000x12.ReducesTo [0, 1] S_

variable [Facts]

def fn_part5 {F : FTy → Type} [FloatOps F] (main_v83 : IVec S_ 1) (main_v84 : FVec F S1000000x12 .f32) (main_cst_32 : FVec F S_ .f32) : IVec S_ 1 :=
  let main_v85 : FVec F S1000000x12 .f32 := broadcastInDim S1000000x12 ![] bcast_S_S1000000x12 main_cst_32
  let main_v86 : IVec S1000000x12 1 := cmpf .olt main_v84 main_v85
  let main_c_33 : IVec S_ 1 := constantI S_ 1 1#1
  let main_v87 : IVec S_ 1 := (fun x v => Host.reduce IntOp.andi x v reducesTo_S1000000x12_S_d0_1 h_S_) main_v86 main_c_33
  let main_v88 : IVec S_ 1 := andi main_v83 main_v87
  main_v88

def fn_part4 {F : FTy → Type} [FloatOps F] (main_arg14 : FVec F S2 .f32) (main_arg15 : FVec F S1000000x12 .f32) (main_arg16 : FVec F S1000000x12 .f32) (main_arg17 : FVec F S1000000x12 .f32) (main_v63 : IVec S_ 1) (main_v67 : IVec S_ 1) : IVec S_ 1 :=
  let main_v68 : IVec S_ 1 := andi main_v63 main_v67
  let main_v69 : FVec F S2 .f32 := Host.absf main_arg14
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  let main_v74 : FVec F S1000000x12 .f32 := Host.absf main_arg15
  let main_cst_28 : FVec F S_ .f32 := constant S_ .f32 0x7F800000#32
  let main_v75 : FVec F S1000000x12 .f32 := broadcastInDim S1000000x12 ![] bcast_S_S1000000x12 main_cst_28
  let main_v76 : IVec S1000000x12 1 := cmpf .olt main_v74 main_v75
  let main_c_29 : IVec S_ 1 := constantI S_ 1 1#1
  let main_v77 : IVec S_ 1 := (fun x v => Host.reduce IntOp.andi x v reducesTo_S1000000x12_S_d0_1 h_S_) main_v76 main_c_29
  let main_v78 : IVec S_ 1 := andi main_v73 main_v77
  let main_v79 : FVec F S1000000x12 .f32 := Host.absf main_arg16
  let main_cst_30 : FVec F S_ .f32 := constant S_ .f32 0x7F800000#32
  let main_v80 : FVec F S1000000x12 .f32 := broadcastInDim S1000000x12 ![] bcast_S_S1000000x12 main_cst_30
  let main_v81 : IVec S1000000x12 1 := cmpf .olt main_v79 main_v80
  let main_c_31 : IVec S_ 1 := constantI S_ 1 1#1
  let main_v82 : IVec S_ 1 := (fun x v => Host.reduce IntOp.andi x v reducesTo_S1000000x12_S_d0_1 h_S_) main_v81 main_c_31
  let main_v83 : IVec S_ 1 := andi main_v78 main_v82
  let main_v84 : FVec F S1000000x12 .f32 := Host.absf main_arg17
  let main_cst_32 : FVec F S_ .f32 := constant S_ .f32 0x7F800000#32
  fn_part5 (F := F) main_v83 main_v84 main_cst_32

def fn_part3 {F : FTy → Type} [FloatOps F] (main_arg11 : FVec F S12x12 .f32) (main_arg12 : FVec F S12 .f32) (main_arg13 : FVec F S2x12 .f32) (main_arg14 : FVec F S2 .f32) (main_arg15 : FVec F S1000000x12 .f32) (main_arg16 : FVec F S1000000x12 .f32) (main_arg17 : FVec F S1000000x12 .f32) (main_v48 : IVec S_ 1) (main_v49 : FVec F S12 .f32) (main_v50 : FVec F S12 .f32) : IVec S_ 1 :=
  let main_v51 : IVec S12 1 := cmpf .olt main_v49 main_v50
  let main_c_19 : IVec S_ 1 := constantI S_ 1 1#1
  let main_v52 : IVec S_ 1 := (fun x v => Host.reduce IntOp.andi x v reducesTo_S12_S_d0 h_S_) main_v51 main_c_19
  let main_v53 : IVec S_ 1 := andi main_v48 main_v52
  let main_v54 : FVec F S12x12 .f32 := Host.absf main_arg11
  let main_cst_20 : FVec F S_ .f32 := constant S_ .f32 0x7F800000#32
  let main_v55 : FVec F S12x12 .f32 := broadcastInDim S12x12 ![] bcast_S_S12x12 main_cst_20
  let main_v56 : IVec S12x12 1 := cmpf .olt main_v54 main_v55
  let main_c_21 : IVec S_ 1 := constantI S_ 1 1#1
  let main_v57 : IVec S_ 1 := (fun x v => Host.reduce IntOp.andi x v reducesTo_S12x12_S_d0_1 h_S_) main_v56 main_c_21
  let main_v58 : IVec S_ 1 := andi main_v53 main_v57
  let main_v59 : FVec F S12 .f32 := Host.absf main_arg12
  let main_cst_22 : FVec F S_ .f32 := constant S_ .f32 0x7F800000#32
  let main_v60 : FVec F S12 .f32 := broadcastInDim S12 ![] bcast_S_S12 main_cst_22
  let main_v61 : IVec S12 1 := cmpf .olt main_v59 main_v60
  let main_c_23 : IVec S_ 1 := constantI S_ 1 1#1
  let main_v62 : IVec S_ 1 := (fun x v => Host.reduce IntOp.andi x v reducesTo_S12_S_d0 h_S_) main_v61 main_c_23
  let main_v63 : IVec S_ 1 := andi main_v58 main_v62
  let main_v64 : FVec F S2x12 .f32 := Host.absf main_arg13
  let main_cst_24 : FVec F S_ .f32 := constant S_ .f32 0x7F800000#32
  let main_v65 : FVec F S2x12 .f32 := broadcastInDim S2x12 ![] bcast_S_S2x12 main_cst_24
  let main_v66 : IVec S2x12 1 := cmpf .olt main_v64 main_v65
  let main_c_25 : IVec S_ 1 := constantI S_ 1 1#1
  let main_v67 : IVec S_ 1 := (fun x v => Host.reduce IntOp.andi x v reducesTo_S2x12_S_d0_1 h_S_) main_v66 main_c_25
  fn_part4 (F := F) main_arg14 main_arg15 main_arg16 main_arg17 main_v63 main_v67

def fn_part2 {F : FTy → Type} [FloatOps F] (main_arg7 : FVec F S12x12 .f32) (main_arg8 : FVec F S12 .f32) (main_arg9 : FVec F S12x12 .f32) (main_arg10 : FVec F S12 .f32) (main_arg11 : FVec F S12x12 .f32) (main_arg12 : FVec F S12 .f32) (main_arg13 : FVec F S2x12 .f32) (main_arg14 : FVec F S2 .f32) (main_arg15 : FVec F S1000000x12 .f32) (main_arg16 : FVec F S1000000x12 .f32) (main_arg17 : FVec F S1000000x12 .f32) (main_v33 : IVec S_ 1) : IVec S_ 1 :=
  let main_v34 : FVec F S12x12 .f32 := Host.absf main_arg7
  let main_cst_12 : FVec F S_ .f32 := constant S_ .f32 0x7F800000#32
  let main_v35 : FVec F S12x12 .f32 := broadcastInDim S12x12 ![] bcast_S_S12x12 main_cst_12
  let main_v36 : IVec S12x12 1 := cmpf .olt main_v34 main_v35
  let main_c_13 : IVec S_ 1 := constantI S_ 1 1#1
  let main_v37 : IVec S_ 1 := (fun x v => Host.reduce IntOp.andi x v reducesTo_S12x12_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  let main_v44 : FVec F S12x12 .f32 := Host.absf main_arg9
  let main_cst_16 : FVec F S_ .f32 := constant S_ .f32 0x7F800000#32
  let main_v45 : FVec F S12x12 .f32 := broadcastInDim S12x12 ![] bcast_S_S12x12 main_cst_16
  let main_v46 : IVec S12x12 1 := cmpf .olt main_v44 main_v45
  let main_c_17 : IVec S_ 1 := constantI S_ 1 1#1
  let main_v47 : IVec S_ 1 := (fun x v => Host.reduce IntOp.andi x v reducesTo_S12x12_S_d0_1 h_S_) main_v46 main_c_17
  let main_v48 : IVec S_ 1 := andi main_v43 main_v47
  let main_v49 : FVec F S12 .f32 := Host.absf main_arg10
  let main_cst_18 : FVec F S_ .f32 := constant S_ .f32 0x7F800000#32
  let main_v50 : FVec F S12 .f32 := broadcastInDim S12 ![] bcast_S_S12 main_cst_18
  fn_part3 (F := F) main_arg11 main_arg12 main_arg13 main_arg14 main_arg15 main_arg16 main_arg17 main_v48 main_v49 main_v50

def fn_part1 {F : FTy → Type} [FloatOps F] (main_arg4 : FVec F S12 .f32) (main_arg5 : FVec F S12x12 .f32) (main_arg6 : FVec F S12 .f32) (main_arg7 : FVec F S12x12 .f32) (main_arg8 : FVec F S12 .f32) (main_arg9 : FVec F S12x12 .f32) (main_arg10 : FVec F S12 .f32) (main_arg11 : FVec F S12x12 .f32) (main_arg12 : FVec F S12 .f32) (main_arg13 : FVec F S2x12 .f32) (main_arg14 : FVec F S2 .f32) (main_arg15 : FVec F S1000000x12 .f32) (main_arg16 : FVec F S1000000x12 .f32) (main_arg17 : FVec F S1000000x12 .f32) (main_v13 : IVec S_ 1) (main_v16 : IVec S12x12 1) : IVec S_ 1 :=
  let main_c_5 : IVec S_ 1 := constantI S_ 1 1#1
  let main_v17 : IVec S_ 1 := (fun x v => Host.reduce IntOp.andi x v reducesTo_S12x12_S_d0_1 h_S_) main_v16 main_c_5
  let main_v18 : IVec S_ 1 := andi main_v13 main_v17
  let main_v19 : FVec F S12 .f32 := Host.absf main_arg4
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S12x12 .f32 := Host.absf main_arg5
  let main_cst_8 : FVec F S_ .f32 := constant S_ .f32 0x7F800000#32
  let main_v25 : FVec F S12x12 .f32 := broadcastInDim S12x12 ![] bcast_S_S12x12 main_cst_8
  let main_v26 : IVec S12x12 1 := cmpf .olt main_v24 main_v25
  let main_c_9 : IVec S_ 1 := constantI S_ 1 1#1
  let main_v27 : IVec S_ 1 := (fun x v => Host.reduce IntOp.andi x v reducesTo_S12x12_S_d0_1 h_S_) main_v26 main_c_9
  let main_v28 : IVec S_ 1 := andi main_v23 main_v27
  let main_v29 : FVec F S12 .f32 := Host.absf main_arg6
  let main_cst_10 : FVec F S_ .f32 := constant S_ .f32 0x7F800000#32
  let main_v30 : FVec F S12 .f32 := broadcastInDim S12 ![] bcast_S_S12 main_cst_10
  let main_v31 : IVec S12 1 := cmpf .olt main_v29 main_v30
  let main_c_11 : IVec S_ 1 := constantI S_ 1 1#1
  let main_v32 : IVec S_ 1 := (fun x v => Host.reduce IntOp.andi x v reducesTo_S12_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S1000000x9 .f32) (main_arg1 : FVec F S12x9 .f32) (main_arg2 : FVec F S12 .f32) (main_arg3 : FVec F S12x12 .f32) (main_arg4 : FVec F S12 .f32) (main_arg5 : FVec F S12x12 .f32) (main_arg6 : FVec F S12 .f32) (main_arg7 : FVec F S12x12 .f32) (main_arg8 : FVec F S12 .f32) (main_arg9 : FVec F S12x12 .f32) (main_arg10 : FVec F S12 .f32) (main_arg11 : FVec F S12x12 .f32) (main_arg12 : FVec F S12 .f32) (main_arg13 : FVec F S2x12 .f32) (main_arg14 : FVec F S2 .f32) (main_arg15 : FVec F S1000000x12 .f32) (main_arg16 : FVec F S1000000x12 .f32) (main_arg17 : FVec F S1000000x12 .f32) : IVec S_ 1 :=
  let main_v0 : FVec F S1000000x9 .f32 := Host.absf main_arg0
  let main_cst : FVec F S_ .f32 := constant S_ .f32 0x7F800000#32
  let main_v1 : FVec F S1000000x9 .f32 := broadcastInDim S1000000x9 ![] bcast_S_S1000000x9 main_cst
  let main_v2 : IVec S1000000x9 1 := cmpf .olt main_v0 main_v1
  let main_c : IVec S_ 1 := constantI S_ 1 1#1
  let main_v3 : IVec S_ 1 := (fun x v => Host.reduce IntOp.andi x v reducesTo_S1000000x9_S_d0_1 h_S_) main_v2 main_c
  let main_v4 : FVec F S12x9 .f32 := Host.absf main_arg1
  let main_cst_0 : FVec F S_ .f32 := constant S_ .f32 0x7F800000#32
  let main_v5 : FVec F S12x9 .f32 := broadcastInDim S12x9 ![] bcast_S_S12x9 main_cst_0
  let main_v6 : IVec S12x9 1 := cmpf .olt main_v4 main_v5
  let main_c_1 : IVec S_ 1 := constantI S_ 1 1#1
  let main_v7 : IVec S_ 1 := (fun x v => Host.reduce IntOp.andi x v reducesTo_S12x9_S_d0_1 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S12x12 .f32 := Host.absf main_arg3
  let main_cst_4 : FVec F S_ .f32 := constant S_ .f32 0x7F800000#32
  let main_v15 : FVec F S12x12 .f32 := broadcastInDim S12x12 ![] bcast_S_S12x12 main_cst_4
  let main_v16 : IVec S12x12 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S1000000x9 : Shape := ⟨2, ![1000000, 9]⟩
abbrev S12x9 : Shape := ⟨2, ![12, 9]⟩
abbrev S12 : Shape := ⟨1, ![12]⟩
abbrev S12x12 : Shape := ⟨2, ![12, 12]⟩
abbrev S2x12 : Shape := ⟨2, ![2, 12]⟩
abbrev S2 : Shape := ⟨1, ![2]⟩
abbrev S1000000x12 : Shape := ⟨2, ![1000000, 12]⟩
abbrev S9x12 : Shape := ⟨2, ![9, 12]⟩
abbrev S12x2 : Shape := ⟨2, ![12, 2]⟩
abbrev S1000000x2 : Shape := ⟨2, ![1000000, 2]⟩
abbrev S4096x9 : Shape := ⟨2, ![4096, 9]⟩
abbrev S4096x12 : Shape := ⟨2, ![4096, 12]⟩
abbrev S4096x2 : Shape := ⟨2, ![4096, 2]⟩
abbrev S1x12 : Shape := ⟨2, ![1, 12]⟩
abbrev S1x2 : Shape := ⟨2, ![1, 2]⟩
abbrev S4096 : Shape := ⟨1, ![4096]⟩
abbrev S4096x1 : Shape := ⟨2, ![4096, 1]⟩

abbrev nBuf : Space → Nat
  | .hbm => 33
  | .vmem => 24
  | .smem => 0
  | _ => 0

abbrev bufTy : (tb : Table) → Fin (tcTables nBuf tb) → BufTy
  | .hbm, ⟨0, _⟩ => ⟨S1000000x9, .f32⟩
  | .hbm, ⟨1, _⟩ => ⟨S12x9, .f32⟩
  | .hbm, ⟨2, _⟩ => ⟨S12, .f32⟩
  | .hbm, ⟨3, _⟩ => ⟨S12x12, .f32⟩
  | .hbm, ⟨4, _⟩ => ⟨S12, .f32⟩
  | .hbm, ⟨5, _⟩ => ⟨S12x12, .f32⟩
  | .hbm, ⟨6, _⟩ => ⟨S12, .f32⟩
  | .hbm, ⟨7, _⟩ => ⟨S12x12, .f32⟩
  | .hbm, ⟨8, _⟩ => ⟨S12, .f32⟩
  | .hbm, ⟨9, _⟩ => ⟨S12x12, .f32⟩
  | .hbm, ⟨10, _⟩ => ⟨S12, .f32⟩
  | .hbm, ⟨11, _⟩ => ⟨S12x12, .f32⟩
  | .hbm, ⟨12, _⟩ => ⟨S12, .f32⟩
  | .hbm, ⟨13, _⟩ => ⟨S2x12, .f32⟩
  | .hbm, ⟨14, _⟩ => ⟨S2, .f32⟩
  | .hbm, ⟨15, _⟩ => ⟨S1000000x12, .f32⟩
  | .hbm, ⟨16, _⟩ => ⟨S1000000x12, .f32⟩
  | .hbm, ⟨17, _⟩ => ⟨S1000000x12, .f32⟩
  | .hbm, ⟨18, _⟩ => ⟨S9x12, .f32⟩
  | .hbm, ⟨19, _⟩ => ⟨S9x12, .bf16⟩
  | .hbm, ⟨20, _⟩ => ⟨S12x12, .f32⟩
  | .hbm, ⟨21, _⟩ => ⟨S12x12, .bf16⟩
  | .hbm, ⟨22, _⟩ => ⟨S12x12, .f32⟩
  | .hbm, ⟨23, _⟩ => ⟨S12x12, .bf16⟩
  | .hbm, ⟨24, _⟩ => ⟨S12x12, .f32⟩
  | .hbm, ⟨25, _⟩ => ⟨S12x12, .bf16⟩
  | .hbm, ⟨26, _⟩ => ⟨S12x12, .f32⟩
  | .hbm, ⟨27, _⟩ => ⟨S12x12, .bf16⟩
  | .hbm, ⟨28, _⟩ => ⟨S12x12, .f32⟩
  | .hbm, ⟨29, _⟩ => ⟨S12x12, .bf16⟩
  | .hbm, ⟨30, _⟩ => ⟨S12x2, .f32⟩
  | .hbm, ⟨31, _⟩ => ⟨S12x2, .bf16⟩
  | .hbm, ⟨32, _⟩ => ⟨S1000000x2, .f32⟩
  | .local _ .vmem, ⟨0, _⟩ => ⟨S4096x9, .f32⟩
  | .local _ .vmem, ⟨1, _⟩ => ⟨S4096x9, .f32⟩
  | .local _ .vmem, ⟨2, _⟩ => ⟨S9x12, .bf16⟩
  | .local _ .vmem, ⟨3, _⟩ => ⟨S12, .f32⟩
  | .local _ .vmem, ⟨4, _⟩ => ⟨S12x12, .bf16⟩
  | .local _ .vmem, ⟨5, _⟩ => ⟨S12, .f32⟩
  | .local _ .vmem, ⟨6, _⟩ => ⟨S12x12, .bf16⟩
  | .local _ .vmem, ⟨7, _⟩ => ⟨S12, .f32⟩
  | .local _ .vmem, ⟨8, _⟩ => ⟨S12x12, .bf16⟩
  | .local _ .vmem, ⟨9, _⟩ => ⟨S12, .f32⟩
  | .local _ .vmem, ⟨10, _⟩ => ⟨S12x12, .bf16⟩
  | .local _ .vmem, ⟨11, _⟩ => ⟨S12, .f32⟩
  | .local _ .vmem, ⟨12, _⟩ => ⟨S12x12, .bf16⟩
  | .local _ .vmem, ⟨13, _⟩ => ⟨S12, .f32⟩
  | .local _ .vmem, ⟨14, _⟩ => ⟨S12x2, .bf16⟩
  | .local _ .vmem, ⟨15, _⟩ => ⟨S2, .f32⟩
  | .local _ .vmem, ⟨16, _⟩ => ⟨S4096x12, .f32⟩
  | .local _ .vmem, ⟨17, _⟩ => ⟨S4096x12, .f32⟩
  | .local _ .vmem, ⟨18, _⟩ => ⟨S4096x12, .f32⟩
  | .local _ .vmem, ⟨19, _⟩ => ⟨S4096x12, .f32⟩
  | .local _ .vmem, ⟨20, _⟩ => ⟨S4096x12, .f32⟩
  | .local _ .vmem, ⟨21, _⟩ => ⟨S4096x12, .f32⟩
  | .local _ .vmem, ⟨22, _⟩ => ⟨S4096x2, .f32⟩
  | .local _ .vmem, ⟨23, _⟩ => ⟨S4096x2, .f32⟩
  | _, _ => ⟨S1000000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x12 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x12 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x12 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x12 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S12x12 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S12x12 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S12 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S12x2 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4096x12 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4096x12 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4096x12 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4096x2 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  transposes_S12x9_S9x12_1_0 : S12x9.Transposes [1, 0] S9x12
  bitsLt_bf16_f32 : FTy.bits .bf16 < FTy.bits .f32
  transposes_S12x12_S12x12_1_0 : S12x12.Transposes [1, 0] S12x12
  transposes_S2x12_S12x2_1_0 : S2x12.Transposes [1, 0] S12x2
  inb_S4096x9_S4096x9_0_0 : ∀ a, (![0, 0] : Fin 2 → Nat) a + S4096x9.size a ≤ S4096x9.size a
  h_S4096x9 : 0 < S4096x9.numel
  inb_S9x12_S9x12_0_0 : ∀ a, (![0, 0] : Fin 2 → Nat) a + S9x12.size a ≤ S9x12.size a
  h_S9x12 : 0 < S9x12.numel
  shapeCasts_S9x12_S9x12 : S9x12.ShapeCasts S9x12
  inb_S12_S12_0 : ∀ a, (![0] : Fin 1 → Nat) a + S12.size a ≤ S12.size a
  h_S12 : 0 < S12.numel
  shapeCasts_S12_S1x12 : S12.ShapeCasts S1x12
  broadcasts_S1x12_S4096x12 : S1x12.Broadcasts S4096x12
  inb_S12x12_S12x12_0_0 : ∀ a, (![0, 0] : Fin 2 → Nat) a + S12x12.size a ≤ S12x12.size a
  h_S12x12 : 0 < S12x12.numel
  shapeCasts_S12x12_S12x12 : S12x12.ShapeCasts S12x12
  inb_S4096x12_S4096x12_0_0 : ∀ a, (![0, 0] : Fin 2 → Nat) a + S4096x12.size a ≤ S4096x12.size a
  h_S4096x12 : 0 < S4096x12.numel
  inb_S12x2_S12x2_0_0 : ∀ a, (![0, 0] : Fin 2 → Nat) a + S12x2.size a ≤ S12x2.size a
  h_S12x2 : 0 < S12x2.numel
  shapeCasts_S12x2_S12x2 : S12x2.ShapeCasts S12x2
  inb_S2_S2_0 : ∀ a, (![0] : Fin 1 → Nat) a + S2.size a ≤ S2.size a
  h_S2 : 0 < S2.numel
  shapeCasts_S2_S1x2 : S2.ShapeCasts S1x2
  broadcasts_S1x2_S4096x2 : S1x2.Broadcasts S4096x2
  reduces_S4096x2_S4096 : S4096x2.Reduces [1] S4096
  shapeCasts_S4096_S4096x1 : S4096.ShapeCasts S4096x1
  broadcasts_S4096x1_S4096x2 : S4096x1.Broadcasts S4096x2
  inb_S4096x2_S4096x2_0_0 : ∀ a, (![0, 0] : Fin 2 → Nat) a + S4096x2.size a ≤ S4096x2.size a
  h_S4096x2 : 0 < S4096x2.numel
  dot_S4096x9_S9x12_S4096x12_1_0_0_1_n_n_wf : DotDims.WF S4096x9 S9x12 S4096x12 [1] [0] [0] [1] [] []
  dot_S4096x12_S12x12_S4096x12_1_0_0_1_n_n_wf : DotDims.WF S4096x12 S12x12 S4096x12 [1] [0] [0] [1] [] []
  dot_S4096x12_S12x2_S4096x2_1_0_0_1_n_n_wf : DotDims.WF S4096x12 S12x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x9.size a < S1000000x9.size a
  hwx0_0 : ∀ i : grid0.Coords, EltTy.bits .f32 = 32 ∨ (Rect.unit (s := S1000000x9) (fun a => cc0_transform_0 i a * S4096x9.size a) (fun a => (Pipeline.Clip.of (cc0_transform_0 i a) (S4096x9.size a) (S1000000x9.size a)).extent (S4096x9.size a)) fun a => Pipeline.Clip.inb (Pipeline.Clip.ok_of (hstart0_0 i a))).WholeWords (EltTy.packing .f32)
  hwxs0_0 : ∀ i : grid0.Coords, EltTy.bits .f32 = 32 ∨ (Rect.unit (s := S4096x9) (fun _ => 0) (fun a => (Pipeline.Clip.of (cc0_transform_0 i a) (S4096x9.size a) (S1000000x9.size a)).extent (S4096x9.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x12.size a ≤ S9x12.size a
  hwx0_1 : ∀ i : grid0.Coords, EltTy.bits .bf16 = 32 ∨ (Rect.block (s := S9x12) S9x12.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12.size a ≤ S12.size a
  hwx0_2 : ∀ i : grid0.Coords, EltTy.bits .f32 = 32 ∨ (Rect.block (s := S12) S12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x12.size a ≤ S12x12.size a
  hwx0_3 : ∀ i : grid0.Coords, EltTy.bits .bf16 = 32 ∨ (Rect.block (s := S12x12) S12x12.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12.size a ≤ S12.size a
  hwx0_4 : ∀ i : grid0.Coords, EltTy.bits .f32 = 32 ∨ (Rect.block (s := S12) S12.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12x12.size a ≤ S12x12.size a
  hwx0_5 : ∀ i : grid0.Coords, EltTy.bits .bf16 = 32 ∨ (Rect.block (s := S12x12) S12x12.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S12.size a ≤ S12.size a
  hwx0_6 : ∀ i : grid0.Coords, EltTy.bits .f32 = 32 ∨ (Rect.block (s := S12) S12.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S12x12.size a ≤ S12x12.size a
  hwx0_7 : ∀ i : grid0.Coords, EltTy.bits .bf16 = 32 ∨ (Rect.block (s := S12x12) S12x12.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S12.size a ≤ S12.size a
  hwx0_8 : ∀ i : grid0.Coords, EltTy.bits .f32 = 32 ∨ (Rect.block (s := S12) S12.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S12x12.size a ≤ S12x12.size a
  hwx0_9 : ∀ i : grid0.Coords, EltTy.bits .bf16 = 32 ∨ (Rect.block (s := S12x12) S12x12.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S12.size a ≤ S12.size a
  hwx0_10 : ∀ i : grid0.Coords, EltTy.bits .f32 = 32 ∨ (Rect.block (s := S12) S12.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S12x12.size a ≤ S12x12.size a
  hwx0_11 : ∀ i : grid0.Coords, EltTy.bits .bf16 = 32 ∨ (Rect.block (s := S12x12) S12x12.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S12.size a ≤ S12.size a
  hwx0_12 : ∀ i : grid0.Coords, EltTy.bits .f32 = 32 ∨ (Rect.block (s := S12) S12.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S12x2.size a ≤ S12x2.size a
  hwx0_13 : ∀ i : grid0.Coords, EltTy.bits .bf16 = 32 ∨ (Rect.block (s := S12x2) S12x2.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2.size a ≤ S2.size a
  hwx0_14 : ∀ i : grid0.Coords, EltTy.bits .f32 = 32 ∨ (Rect.block (s := S2) S2.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hstart0_15 : ∀ (i : grid0.Coords) a, cc0_transform_15 i a * S4096x12.size a < S1000000x12.size a
  hwx0_15 : ∀ i : grid0.Coords, EltTy.bits .f32 = 32 ∨ (Rect.unit (s := S1000000x12) (fun a => cc0_transform_15 i a * S4096x12.size a) (fun a => (Pipeline.Clip.of (cc0_transform_15 i a) (S4096x12.size a) (S1000000x12.size a)).extent (S4096x12.size a)) fun a => Pipeline.Clip.inb (Pipeline.Clip.ok_of (hstart0_15 i a))).WholeWords (EltTy.packing .f32)
  hwxs0_15 : ∀ i : grid0.Coords, EltTy.bits .f32 = 32 ∨ (Rect.unit (s := S4096x12) (fun _ => 0) (fun a => (Pipeline.Clip.of (cc0_transform_15 i a) (S4096x12.size a) (S1000000x12.size a)).extent (S4096x12.size a)) fun a => (Nat.zero_add _).trans_le (Pipeline.Clip.extent_le (Pipeline.Clip.ok_of (hstart0_15 i a)))).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hstart0_16 : ∀ (i : grid0.Coords) a, cc0_transform_16 i a * S4096x12.size a < S1000000x12.size a
  hwx0_16 : ∀ i : grid0.Coords, EltTy.bits .f32 = 32 ∨ (Rect.unit (s := S1000000x12) (fun a => cc0_transform_16 i a * S4096x12.size a) (fun a => (Pipeline.Clip.of (cc0_transform_16 i a) (S4096x12.size a) (S1000000x12.size a)).extent (S4096x12.size a)) fun a => Pipeline.Clip.inb (Pipeline.Clip.ok_of (hstart0_16 i a))).WholeWords (EltTy.packing .f32)
  hwxs0_16 : ∀ i : grid0.Coords, EltTy.bits .f32 = 32 ∨ (Rect.unit (s := S4096x12) (fun _ => 0) (fun a => (Pipeline.Clip.of (cc0_transform_16 i a) (S4096x12.size a) (S1000000x12.size a)).extent (S4096x12.size a)) fun a => (Nat.zero_add _).trans_le (Pipeline.Clip.extent_le (Pipeline.Clip.ok_of (hstart0_16 i a)))).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hstart0_17 : ∀ (i : grid0.Coords) a, cc0_transform_17 i a * S4096x12.size a < S1000000x12.size a
  hwx0_17 : ∀ i : grid0.Coords, EltTy.bits .f32 = 32 ∨ (Rect.unit (s := S1000000x12) (fun a => cc0_transform_17 i a * S4096x12.size a) (fun a => (Pipeline.Clip.of (cc0_transform_17 i a) (S4096x12.size a) (S1000000x12.size a)).extent (S4096x12.size a)) fun a => Pipeline.Clip.inb (Pipeline.Clip.ok_of (hstart0_17 i a))).WholeWords (EltTy.packing .f32)
  hwxs0_17 : ∀ i : grid0.Coords, EltTy.bits .f32 = 32 ∨ (Rect.unit (s := S4096x12) (fun _ => 0) (fun a => (Pipeline.Clip.of (cc0_transform_17 i a) (S4096x12.size a) (S1000000x12.size a)).extent (S4096x12.size a)) fun a => (Nat.zero_add _).trans_le (Pipeline.Clip.extent_le (Pipeline.Clip.ok_of (hstart0_17 i a)))).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hstart0_18 : ∀ (i : grid0.Coords) a, cc0_transform_18 i a * S4096x2.size a < S1000000x2.size a
  hwx0_18 : ∀ i : grid0.Coords, EltTy.bits .f32 = 32 ∨ (Rect.unit (s := S1000000x2) (fun a => cc0_transform_18 i a * S4096x2.size a) (fun a => (Pipeline.Clip.of (cc0_transform_18 i a) (S4096x2.size a) (S1000000x2.size a)).extent (S4096x2.size a)) fun a => Pipeline.Clip.inb (Pipeline.Clip.ok_of (hstart0_18 i a))).WholeWords (EltTy.packing .f32)
  hwxs0_18 : ∀ i : grid0.Coords, EltTy.bits .f32 = 32 ∨ (Rect.unit (s := S4096x2) (fun _ => 0) (fun a => (Pipeline.Clip.of (cc0_transform_18 i a) (S4096x2.size a) (S1000000x2.size a)).extent (S4096x2.size a)) fun a => (Nat.zero_add _).trans_le (Pipeline.Clip.extent_le (Pipeline.Clip.ok_of (hstart0_18 i a)))).WholeWords (EltTy.packing .f32)

variable [Facts₀]

def dot_S4096x9_S9x12_S4096x12_1_0_0_1_n_n : DotDims S4096x9 S9x12 S4096x12 where
  lhsContracting := [1]
  rhsContracting := [0]
  lhsNonContracting := [0]
  rhsNonContracting := [1]
  lhsBatch := []
  rhsBatch := []
  wf := dot_S4096x9_S9x12_S4096x12_1_0_0_1_n_n_wf
def dot_S4096x12_S12x12_S4096x12_1_0_0_1_n_n : DotDims S4096x12 S12x12 S4096x12 where
  lhsContracting := [1]
  rhsContracting := [0]
  lhsNonContracting := [0]
  rhsNonContracting := [1]
  lhsBatch := []
  rhsBatch := []
  wf := dot_S4096x12_S12x12_S4096x12_1_0_0_1_n_n_wf
def dot_S4096x12_S12x2_S4096x2_1_0_0_1_n_n : DotDims S4096x12 S12x2 S4096x2 where
  lhsContracting := [1]
  rhsContracting := [0]
  lhsNonContracting := [0]
  rhsNonContracting := [1]
  lhsBatch := []
  rhsBatch := []
  wf := dot_S4096x12_S12x2_S4096x2_1_0_0_1_n_n_wf

abbrev win0_0 : Pipeline.Window sig grid0 :=
  Pipeline.Window.ofSpecClip (Memref.whole main_arg0) S4096x9.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S9x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S12x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S12x12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S12.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S12x12.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S12.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S12x12.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S12.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S12x12.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S12.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S12x2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S2.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpecClip (Memref.whole main_arg15) S4096x12.size cc0_transform_15 reads0_15 false false 2 stage0_15 sem0_15
    hrank0 hreads0_15 hstart0_15 nbuf0_15 (Memref.isWhole_whole _) hwx0_15 hwxs0_15 hstage0_15

abbrev win0_16 : Pipeline.Window sig grid0 :=
  Pipeline.Window.ofSpecClip (Memref.whole main_arg16) S4096x12.size cc0_transform_16 reads0_16 false false 2 stage0_16 sem0_16
    hrank0 hreads0_16 hstart0_16 nbuf0_16 (Memref.isWhole_whole _) hwx0_16 hwxs0_16 hstage0_16

abbrev win0_17 : Pipeline.Window sig grid0 :=
  Pipeline.Window.ofSpecClip (Memref.whole main_arg17) S4096x12.size cc0_transform_17 reads0_17 false false 2 stage0_17 sem0_17
    hrank0 hreads0_17 hstart0_17 nbuf0_17 (Memref.isWhole_whole _) hwx0_17 hwxs0_17 hstage0_17

abbrev win0_18 : Pipeline.Window sig grid0 :=
  Pipeline.Window.ofSpecClip (Memref.whole main_v14) S4096x2.size cc0_transform_18 reads0_18 true false 2 stage0_18 sem0_18
    hrank0 hreads0_18 hstart0_18 nbuf0_18 (Memref.isWhole_whole _) hwx0_18 hwxs0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S1000000x9 : Shape := ⟨2, ![1000000, 9]⟩
abbrev S12x9 : Shape := ⟨2, ![12, 9]⟩
abbrev S12 : Shape := ⟨1, ![12]⟩
abbrev S12x12 : Shape := ⟨2, ![12, 12]⟩
abbrev S2x12 : Shape := ⟨2, ![2, 12]⟩
abbrev S2 : Shape := ⟨1, ![2]⟩
abbrev S1000000x12 : Shape := ⟨2, ![1000000, 12]⟩
abbrev S9x12 : Shape := ⟨2, ![9, 12]⟩
abbrev S1x12 : Shape := ⟨2, ![1, 12]⟩
abbrev S_ : Shape := ⟨0, ![]⟩
abbrev S12x2 : Shape := ⟨2, ![12, 2]⟩
abbrev S1000000x2 : Shape := ⟨2, ![1000000, 2]⟩
abbrev S1x2 : Shape := ⟨2, ![1, 2]⟩
abbrev S1000000 : Shape := ⟨1, ![1000000]⟩
abbrev S1000000x1 : Shape := ⟨2, ![1000000, 1]⟩

abbrev nBuf : Space → Nat
  | .hbm => 88
  | .vmem => 0
  | .smem => 0
  | _ => 0

abbrev bufTy : (tb : Table) → Fin (tcTables nBuf tb) → BufTy
  | .hbm, ⟨0, _⟩ => ⟨S1000000x9, .f32⟩
  | .hbm, ⟨1, _⟩ => ⟨S12x9, .f32⟩
  | .hbm, ⟨2, _⟩ => ⟨S12, .f32⟩
  | .hbm, ⟨3, _⟩ => ⟨S12x12, .f32⟩
  | .hbm, ⟨4, _⟩ => ⟨S12, .f32⟩
  | .hbm, ⟨5, _⟩ => ⟨S12x12, .f32⟩
  | .hbm, ⟨6, _⟩ => ⟨S12, .f32⟩
  | .hbm, ⟨7, _⟩ => ⟨S12x12, .f32⟩
  | .hbm, ⟨8, _⟩ => ⟨S12, .f32⟩
  | .hbm, ⟨9, _⟩ => ⟨S12x12, .f32⟩
  | .hbm, ⟨10, _⟩ => ⟨S12, .f32⟩
  | .hbm, ⟨11, _⟩ => ⟨S12x12, .f32⟩
  | .hbm, ⟨12, _⟩ => ⟨S12, .f32⟩
  | .hbm, ⟨13, _⟩ => ⟨S2x12, .f32⟩
  | .hbm, ⟨14, _⟩ => ⟨S2, .f32⟩
  | .hbm, ⟨15, _⟩ => ⟨S1000000x12, .f32⟩
  | .hbm, ⟨16, _⟩ => ⟨S1000000x12, .f32⟩
  | .hbm, ⟨17, _⟩ => ⟨S1000000x12, .f32⟩
  | .hbm, ⟨18, _⟩ => ⟨S9x12, .f32⟩
  | .hbm, ⟨19, _⟩ => ⟨S1000000x12, .f32⟩
  | .hbm, ⟨20, _⟩ => ⟨S1x12, .f32⟩
  | .hbm, ⟨21, _⟩ => ⟨S1000000x12, .f32⟩
  | .hbm, ⟨22, _⟩ => ⟨S1000000x12, .f32⟩
  | .hbm, ⟨23, _⟩ => ⟨S_, .f32⟩
  | .hbm, ⟨24, _⟩ => ⟨S1000000x12, .f32⟩
  | .hbm, ⟨25, _⟩ => ⟨S1000000x12, .f32⟩
  | .hbm, ⟨26, _⟩ => ⟨S12x12, .f32⟩
  | .hbm, ⟨27, _⟩ => ⟨S1000000x12, .f32⟩
  | .hbm, ⟨28, _⟩ => ⟨S1x12, .f32⟩
  | .hbm, ⟨29, _⟩ => ⟨S1000000x12, .f32⟩
  | .hbm, ⟨30, _⟩ => ⟨S1000000x12, .f32⟩
  | .hbm, ⟨31, _⟩ => ⟨S_, .f32⟩
  | .hbm, ⟨32, _⟩ => ⟨S1000000x12, .f32⟩
  | .hbm, ⟨33, _⟩ => ⟨S1000000x12, .f32⟩
  | .hbm, ⟨34, _⟩ => ⟨S1000000x12, .f32⟩
  | .hbm, ⟨35, _⟩ => ⟨S12x12, .f32⟩
  | .hbm, ⟨36, _⟩ => ⟨S1000000x12, .f32⟩
  | .hbm, ⟨37, _⟩ => ⟨S1x12, .f32⟩
  | .hbm, ⟨38, _⟩ => ⟨S1000000x12, .f32⟩
  | .hbm, ⟨39, _⟩ => ⟨S1000000x12, .f32⟩
  | .hbm, ⟨40, _⟩ => ⟨S_, .f32⟩
  | .hbm, ⟨41, _⟩ => ⟨S1000000x12, .f32⟩
  | .hbm, ⟨42, _⟩ => ⟨S1000000x12, .f32⟩
  | .hbm, ⟨43, _⟩ => ⟨S12x12, .f32⟩
  | .hbm, ⟨44, _⟩ => ⟨S1000000x12, .f32⟩
  | .hbm, ⟨45, _⟩ => ⟨S1x12, .f32⟩
  | .hbm, ⟨46, _⟩ => ⟨S1000000x12, .f32⟩
  | .hbm, ⟨47, _⟩ => ⟨S1000000x12, .f32⟩
  | .hbm, ⟨48, _⟩ => ⟨S_, .f32⟩
  | .hbm, ⟨49, _⟩ => ⟨S1000000x12, .f32⟩
  | .hbm, ⟨50, _⟩ => ⟨S1000000x12, .f32⟩
  | .hbm, ⟨51, _⟩ => ⟨S1000000x12, .f32⟩
  | .hbm, ⟨52, _⟩ => ⟨S12x12, .f32⟩
  | .hbm, ⟨53, _⟩ => ⟨S1000000x12, .f32⟩
  | .hbm, ⟨54, _⟩ => ⟨S1x12, .f32⟩
  | .hbm, ⟨55, _⟩ => ⟨S1000000x12, .f32⟩
  | .hbm, ⟨56, _⟩ => ⟨S1000000x12, .f32⟩
  | .hbm, ⟨57, _⟩ => ⟨S_, .f32⟩
  | .hbm, ⟨58, _⟩ => ⟨S1000000x12, .f32⟩
  | .hbm, ⟨59, _⟩ => ⟨S1000000x12, .f32⟩
  | .hbm, ⟨60, _⟩ => ⟨S1000000x12, .f32⟩
  | .hbm, ⟨61, _⟩ => ⟨S12x12, .f32⟩
  | .hbm, ⟨62, _⟩ => ⟨S1000000x12, .f32⟩
  | .hbm, ⟨63, _⟩ => ⟨S1x12, .f32⟩
  | .hbm, ⟨64, _⟩ => ⟨S1000000x12, .f32⟩
  | .hbm, ⟨65, _⟩ => ⟨S1000000x12, .f32⟩
  | .hbm, ⟨66, _⟩ => ⟨S_, .f32⟩
  | .hbm, ⟨67, _⟩ => ⟨S1000000x12, .f32⟩
  | .hbm, ⟨68, _⟩ => ⟨S1000000x12, .f32⟩
  | .hbm, ⟨69, _⟩ => ⟨S12x2, .f32⟩
  | .hbm, ⟨70, _⟩ => ⟨S1000000x2, .f32⟩
  | .hbm, ⟨71, _⟩ => ⟨S1x2, .f32⟩
  | .hbm, ⟨72, _⟩ => ⟨S1000000x2, .f32⟩
  | .hbm, ⟨73, _⟩ => ⟨S1000000x2, .f32⟩
  | .hbm, ⟨74, _⟩ => ⟨S_, .f32⟩
  | .hbm, ⟨75, _⟩ => ⟨S1000000, .f32⟩
  | .hbm, ⟨76, _⟩ => ⟨S_, .f32⟩
  | .hbm, ⟨77, _⟩ => ⟨S1000000, .f32⟩
  | .hbm, ⟨78, _⟩ => ⟨S1000000, .f32⟩
  | .hbm, ⟨79, _⟩ => ⟨S1000000x1, .f32⟩
  | .hbm, ⟨80, _⟩ => ⟨S1000000x2, .f32⟩
  | .hbm, ⟨81, _⟩ => ⟨S1000000x2, .f32⟩
  | .hbm, ⟨82, _⟩ => ⟨S1000000x2, .f32⟩
  | .hbm, ⟨83, _⟩ => ⟨S_, .f32⟩
  | .hbm, ⟨84, _⟩ => ⟨S1000000, .f32⟩
  | .hbm, ⟨85, _⟩ => ⟨S1000000x1, .f32⟩
  | .hbm, ⟨86, _⟩ => ⟨S1000000x2, .f32⟩
  | .hbm, ⟨87, _⟩ => ⟨S1000000x2, .f32⟩
  | _, _ => ⟨S1000000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_cst : Ref sig .tc := ⟨.hbm, 23, rfl⟩
abbrev main_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call1_cst : Ref sig .tc := ⟨.hbm, 31, rfl⟩
abbrev main_call1_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_call2_cst : Ref sig .tc := ⟨.hbm, 40, rfl⟩
abbrev main_call2_v0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call3_cst : Ref sig .tc := ⟨.hbm, 48, rfl⟩
abbrev main_call3_v0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call4_cst : Ref sig .tc := ⟨.hbm, 57, rfl⟩
abbrev main_call4_v0 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call5_cst : Ref sig .tc := ⟨.hbm, 66, rfl⟩
abbrev main_call5_v0 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst : Ref sig .tc := ⟨.hbm, 74, rfl⟩
abbrev main_v44 : Ref sig .tc := ⟨.hbm, 75, rfl⟩
abbrev main_cst_0 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_1 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]

class Facts₀ : Prop where
  transposes_S12x9_S9x12_1_0 : S12x9.Transposes [1, 0] S9x12
  bcast_S12_S1x12_1 : S12.BroadcastsInDim S1x12 (![1] : Fin 1 → Fin S1x12.rank)
  bcast_S1x12_S1000000x12_0_1 : S1x12.BroadcastsInDim S1000000x12 (![0, 1] : Fin 2 → Fin S1000000x12.rank)
  bcast_S_S1000000x12 : S_.BroadcastsInDim S1000000x12 (![] : Fin 0 → Fin S1000000x12.rank)
  transposes_S12x12_S12x12_1_0 : S12x12.Transposes [1, 0] S12x12
  transposes_S2x12_S12x2_1_0 : S2x12.Transposes [1, 0] S12x2
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  reducesTo_S1000000x2_S1000000_d1 : S1000000x2.ReducesTo [1] S1000000
  h_S_ : 0 < S_.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x2_0_1 : S1000000x1.BroadcastsInDim S1000000x2 (![0, 1] : Fin 2 → Fin S1000000x2.rank)
  dot_S1000000x9_S9x12_S1000000x12_1_0_0_1_n_n_wf : DotDims.WF S1000000x9 S9x12 S1000000x12 [1] [0] [0] [1] [] []
  dot_S1000000x12_S12x12_S1000000x12_1_0_0_1_n_n_wf : DotDims.WF S1000000x12 S12x12 S1000000x12 [1] [0] [0] [1] [] []
  dot_S1000000x12_S12x2_S1000000x2_1_0_0_1_n_n_wf : DotDims.WF S1000000x12 S12x2 S1000000x2 [1] [0] [0] [1] [] []

variable [Facts₀]

def dot_S1000000x9_S9x12_S1000000x12_1_0_0_1_n_n : DotDims S1000000x9 S9x12 S1000000x12 where
  lhsContracting := [1]
  rhsContracting := [0]
  lhsNonContracting := [0]
  rhsNonContracting := [1]
  lhsBatch := []
  rhsBatch := []
  wf := dot_S1000000x9_S9x12_S1000000x12_1_0_0_1_n_n_wf
def dot_S1000000x12_S12x12_S1000000x12_1_0_0_1_n_n : DotDims S1000000x12 S12x12 S1000000x12 where
  lhsContracting := [1]
  rhsContracting := [0]
  lhsNonContracting := [0]
  rhsNonContracting := [1]
  lhsBatch := []
  rhsBatch := []
  wf := dot_S1000000x12_S12x12_S1000000x12_1_0_0_1_n_n_wf
def dot_S1000000x12_S12x2_S1000000x2_1_0_0_1_n_n : DotDims S1000000x12 S12x2 S1000000x2 where
  lhsContracting := [1]
  rhsContracting := [0]
  lhsNonContracting := [0]
  rhsNonContracting := [1]
  lhsBatch := []
  rhsBatch := []
  wf := dot_S1000000x12_S12x2_S1000000x2_1_0_0_1_n_n_wf

class Facts : Prop extends Facts₀ where

variable [Facts]
-- ==== Proof.Spec.lean ====
/-
  One row of the batch, as both programs compute it on the extended reals.

  A row `x : Fin 9 → EReal` passes through six hidden layers `h ↦ max (h · Wᵀ + b) 0` of width 12, the outputs of
  layers 2, 4 and 5 multiplied entry by entry by the row's three masks, then through the output layer
  `h ↦ h · W₇ᵀ + b₇` of width 2, and the two logits `z` through the softmax
  `exp (z q - M) / (exp (z 0 - M) + exp (z 1 - M))`, `M` the larger of `-∞` and the logits' maximum.
  Every sum is a finite sum over the contracted feature index, every product and quotient the extended reals';
  nothing here mentions a second row: a row of the result depends on that row of the batch and of the masks only.
  The two float words the programs spell (`0.0` and `-∞`) are kept as the words they are.
-/
import Idealize.ShloMosaic.PureOps.Ideal

noncomputable section

namespace Cert.Spec

open Idealize.ShloMosaic

/-- The value of the f32 word `0x00000000`: the threshold of every hidden layer. -/
abbrev zeroW : EReal := Ideal.ofBits .f32 0x00000000#32
/-- The value of the f32 word `0xFF800000`: where the row maximum starts. -/
abbrev negInfW : EReal := Ideal.ofBits .f32 0xFF800000#32

/-- An affine layer at output feature `j`: the sum over the input features `k` of `h k * W j k`, plus the bias. -/
def dense {K N : Nat} (h : Fin K → EReal) (W : Fin N → Fin K → EReal) (b : Fin N → EReal) (j : Fin N) : EReal :=
  (∑ k : Fin K, h k * W j k) + b j

/-- A hidden layer: the affine layer cut off below at the zero word. -/
def hidden {K N : Nat} (h : Fin K → EReal) (W : Fin N → Fin K → EReal) (b : Fin N → EReal) (j : Fin N) : EReal :=
  max (dense h W b j) zeroW

/-- The seven layers' weights, `W j k` the weight from input feature `k` to output feature `j`, and biases. -/
structure Params where
  W1 : Fin 12 → Fin 9 → EReal
  b1 : Fin 12 → EReal
  W2 : Fin 12 → Fin 12 → EReal
  b2 : Fin 12 → EReal
  W3 : Fin 12 → Fin 12 → EReal
  b3 : Fin 12 → EReal
  W4 : Fin 12 → Fin 12 → EReal
  b4 : Fin 12 → EReal
  W5 : Fin 12 → Fin 12 → EReal
  b5 : Fin 12 → EReal
  W6 : Fin 12 → Fin 12 → EReal
  b6 : Fin 12 → EReal
  W7 : Fin 2 → Fin 12 → EReal
  b7 : Fin 2 → EReal

/-- The two logits of a row `x` with mask rows `m1`, `m2`, `m3`. -/
def logits (P : Params) (x : Fin 9 → EReal) (m1 m2 m3 : Fin 12 → EReal) : Fin 2 → EReal :=
  dense (hidden (fun j => hidden (fun j => hidden (hidden (fun j => hidden (hidden x P.W1 P.b1) P.W2 P.b2 j * m1 j)
    P.W3 P.b3) P.W4 P.b4 j * m2 j) P.W5 P.b5 j * m3 j) P.W6 P.b6) P.W7 P.b7

/-- The larger of `-∞` and the two logits' maximum (itself a fold of `max` from `-∞`). -/
def rowMax (z : Fin 2 → EReal) : EReal := max negInfW ((Finset.univ : Finset (Fin 2)).fold max negInfW z)

/-- The softmax of two logits at `q`. -/
def softmax (z : Fin 2 → EReal) (q : Fin 2) : EReal :=
  Ideal.div (Ideal.exp (z q - rowMax z)) (∑ k : Fin 2, Ideal.exp (z k - rowMax z))

/-- The result's row: the softmax of the row's logits. -/
def rowG (P : Params) (x : Fin 9 → EReal) (m1 m2 m3 : Fin 12 → EReal) (q : Fin 2) : EReal :=
  softmax (logits P x m1 m2 m3) q

end Cert.Spec

end
-- ==== Proof.K.Stored.lean ====
/-
  What the kernel's one store writes, as ONE term of the eighteen values the body loads.

  The body loads the batch block, the seven transposed weight blocks and bias vectors and the three mask blocks,
  and stores into the result's block the softmax of the seventh layer's logits. `stored` is that stored value
  over the loaded values in the order of the kernel's operands: the first part's matrix-product chain feeding the
  second part's logits and row maximum, those feeding the final normalisation. `params` reads the seven layers'
  weights off the blocks as the kernel holds them: a weight block is the layer's matrix TRANSPOSED, so the weight
  from input feature `k` to output feature `j` sits at `(k, j)`.
-/
import proofs.«129686_j45792941310687_1_alg».proof.Proof.Gen.Kernel.Skeleton
import proofs.«129686_j45792941310687_1_alg».proof.Proof.Spec
import Idealize.ShloMosaic.Lib.ValueIdx

noncomputable section

namespace Cert.Kernel.Hand

open Cert.Kernel Cert.Kernel.Gen
open Idealize.ShloMosaic Idealize.ShloMosaic.ValueIdx

variable {F : FTy → Type} [FloatOps F]

/-- The value the body stores into the result's block, from the loaded batch block `x`, weight blocks `w1 … w7`,
    biases `b1 … b7` and mask blocks `m1 m2 m3`. -/
def stored (x : Vec F S4096x9 .f32) (w1 : Vec F S9x12 .bf16) (b1 : Vec F S12 .f32) (w2 : Vec F S12x12 .bf16) (b2 : Vec F S12 .f32)
    (w3 : Vec F S12x12 .bf16) (b3 : Vec F S12 .f32) (w4 : Vec F S12x12 .bf16) (b4 : Vec F S12 .f32)
    (w5 : Vec F S12x12 .bf16) (b5 : Vec F S12 .f32) (w6 : Vec F S12x12 .bf16) (b6 : Vec F S12 .f32)
    (w7 : Vec F S12x2 .bf16) (b7 : Vec F S2 .f32) (m1 m2 m3 : Vec F S4096x12 .f32) : FVec F S4096x2 .f32 :=
  k0_pay1 (k0_pay3 (k0_pay2 x w1 b1 w2 b2 m1 w3 b3 w4) b4 m2 w5 b5 m3 w6 b6 w7 b7)
    (k0_pay4 (k0_pay2 x w1 b1 w2 b2 m1 w3 b3 w4) b4 m2 w5 b5 m3 w6 b6 w7 b7)

/-- The layers' weights and biases as the extended reals the kernel's blocks hold: weight `(j, k)` of a layer at
    `(k, j)` of its transposed block. -/
def params (w1 : Vec Ideal S9x12 .bf16) (b1 : Vec Ideal S12 .f32) (w2 : Vec Ideal S12x12 .bf16) (b2 : Vec Ideal S12 .f32)
    (w3 : Vec Ideal S12x12 .bf16) (b3 : Vec Ideal S12 .f32) (w4 : Vec Ideal S12x12 .bf16) (b4 : Vec Ideal S12 .f32)
    (w5 : Vec Ideal S12x12 .bf16) (b5 : Vec Ideal S12 .f32) (w6 : Vec Ideal S12x12 .bf16) (b6 : Vec Ideal S12 .f32)
    (w7 : Vec Ideal S12x2 .bf16) (b7 : Vec Ideal S2 .f32) : Cert.Spec.Params where
  W1 j k := w1 (ix2 k j)
  b1 j := b1 (ix1 j)
  W2 j k := w2 (ix2 k j)
  b2 j := b2 (ix1 j)
  W3 j k := w3 (ix2 k j)
  b3 j := b3 (ix1 j)
  W4 j k := w4 (ix2 k j)
  b4 j := b4 (ix1 j)
  W5 j k := w5 (ix2 k j)
  b5 j := b5 (ix1 j)
  W6 j k := w6 (ix2 k j)
  b6 j := b6 (ix1 j)
  W7 j k := w7 (ix2 k j)
  b7 j := b7 (ix1 j)

end Cert.Kernel.Hand

end
-- ==== Proof.K.Triple.lean ====
/-
  The body's triple, for every instance of the float operations.

  Handed the eighteen input staging memrefs whole at contents `x1 … x18` and the result's memref at anything, the
  kernel body runs without a fault to the end, leaves every input memref at what it held and the result's at
  `stored x1 … x18`: the body only loads its inputs whole, computes, and stores the result whole, once.
-/
import proofs.«129686_j45792941310687_1_alg».proof.Proof.Gen.Kernel.Skeleton
import proofs.«129686_j45792941310687_1_alg».proof.Proof.K.Stored
import Idealize.ShloMosaic.Lib.Pipeline.FrameBody
import Idealize.ShloMosaic.Lib.Pipeline.Kit
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole-buffer rectangle's offsets are zero, at rank two and at rank one. -/
theorem off2 : (![0, 0] : Fin 2 → ℕ) = fun _ => 0 := funext fun a => by fin_cases a <;> rfl
theorem off1 : (![0] : Fin 1 → ℕ) = fun _ => 0 := funext fun a => by fin_cases a; rfl

/-- The result's whole-block rectangle. -/
abbrev rOut : Rect S4096x2 := Rect.unit (s := S4096x2) ![0, 0] S4096x2.size inb_S4096x2_S4096x2_0_0

/-- The one store through the whole-block rectangle covers every index of the result's block. -/
theorem cover_out (p0 : Vec F S4096x2 .f32) (y : S4096x2.Idx) :
    ∃ pc ∈ ([⟨rOut, p0⟩] : List (View.Piece (Elt F) S4096x2 .f32)), y ∈ pc.1.set :=
  View.cover_of_tiled [⟨rOut, p0⟩] S4096x2.size (by rfl) y

/-- The body on whole staging memrefs: the inputs at read contents `x1 … x18`, the result's at anything, to the
    continuation holding the inputs as they were and the result's at `stored x1 … x18`. The loads read the
    whole buffers, the one store writes the whole result buffer, so the buffer reads back as the stored value. -/
theorem sound_kernel (c : Dev nD) (E : Set ℕ) (i : grid0.Coords) (a1 : Memref sig .tc .vmem S4096x9 .f32) (h1 : a1.IsWhole) (a2 : Memref sig .tc .vmem S9x12 .bf16) (h2 : a2.IsWhole) (a3 : Memref sig .tc .vmem S12 .f32) (h3 : a3.IsWhole) (a4 : Memref sig .tc .vmem S12x12 .bf16) (h4 : a4.IsWhole) (a5 : Memref sig .tc .vmem S12 .f32) (h5 : a5.IsWhole) (a6 : Memref sig .tc .vmem S12x12 .bf16) (h6 : a6.IsWhole) (a7 : Memref sig .tc .vmem S12 .f32) (h7 : a7.IsWhole) (a8 : Memref sig .tc .vmem S12x12 .bf16) (h8 : a8.IsWhole) (a9 : Memref sig .tc .vmem S12 .f32) (h9 : a9.IsWhole) (a10 : Memref sig .tc .vmem S12x12 .bf16) (h10 : a10.IsWhole) (a11 : Memref sig .tc .vmem S12 .f32) (h11 : a11.IsWhole) (a12 : Memref sig .tc .vmem S12x12 .bf16) (h12 : a12.IsWhole) (a13 : Memref sig .tc .vmem S12 .f32) (h13 : a13.IsWhole) (a14 : Memref sig .tc .vmem S12x2 .bf16) (h14 : a14.IsWhole) (a15 : Memref sig .tc .vmem S2 .f32) (h15 : a15.IsWhole) (a16 : Memref sig .tc .vmem S4096x12 .f32) (h16 : a16.IsWhole) (a17 : Memref sig .tc .vmem S4096x12 .f32) (h17 : a17.IsWhole) (a18 : Memref sig .tc .vmem S4096x12 .f32) (h18 : a18.IsWhole) (a19 : Memref sig .tc .vmem S4096x2 .f32) (h19 : a19.IsWhole)
    (x1 : Vec F S4096x9 .f32) (x2 : Vec F S9x12 .bf16) (x3 : Vec F S12 .f32) (x4 : Vec F S12x12 .bf16) (x5 : Vec F S12 .f32) (x6 : Vec F S12x12 .bf16) (x7 : Vec F S12 .f32) (x8 : Vec F S12x12 .bf16) (x9 : Vec F S12 .f32) (x10 : Vec F S12x12 .bf16) (x11 : Vec F S12 .f32) (x12 : Vec F S12x12 .bf16) (x13 : Vec F S12 .f32) (x14 : Vec F S12x2 .bf16) (x15 : Vec F S2 .f32) (x16 : Vec F S4096x12 .f32) (x17 : Vec F S4096x12 .f32) (x18 : Vec F S4096x12 .f32) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ (∃ d, owns (c : Thread nD τ) a19 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare (stored x1 x2 x3 x4 x5 x6 x7 x8 x9 x10 x11 x12 x13 x14 x15 x16 x17 x18)) -∗ K ⟨⟩))
      ⊢ wp frame (wpE (defs₀ (F := F)) Variants.none c none) E (cc0__mlp_kernel i a1 h1 a2 h2 a3 h3 a4 h4 a5 h5 a6 h6 a7 h7 a8 h8 a9 h9 a10 h10 a11 h11 a12 h12 a13 h13 a14 h14 a15 h15 a16 h16 a17 h17 a18 h18 a19 h19) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, Hk⟩
  subst hf1 hf2 hf3 hf4 hf5 hf6 hf7 hf8 hf9 hf10 hf11 hf12 hf13 hf14 hf15 hf16 hf17 hf18
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  iexists _; isplitr
  swap; · iexact H19
  ipureintro
  rw [View.read_writes_eq_canon _ _ _ (cover_out _)]
  sl_unfold_words
  rw [View.canon_unit_zero off2]
  simp only [View.readAt_eq_ld, View.ld_unit_zero (S := S4096x9) off2, View.ld_unit_zero (S := S9x12) off2,
    View.ld_unit_zero (S := S12) off1, View.ld_unit_zero (S := S12x12) off2, View.ld_unit_zero (S := S12x2) off2,
    View.ld_unit_zero (S := S2) off1, View.ld_unit_zero (S := S4096x12) off2]
  rfl

end Cert.Kernel.Hand

end
-- ==== Proof.K.FrameAny.lean ====
/-
  The frame: the program runs to the end without a fault and leaves its argument arrays as they were, for every
  instance of the float operations.

  Nothing is said here of what any staging buffer holds: the body needs nothing of its inputs' values to run (it
  takes no branch, address or count from them), and a claim about the ARGUMENTS reads no buffer. So the proof data
  relate what the body finds in a buffer to what it leaves there by the relation that always holds, the body
  obligation is the body's triple with the contents forgotten, and the arrays the pipeline only reads end, by the
  pipeline rule, at their contents at the region's entry, which no host operation before it had touched.
-/
import proofs.«129686_j45792941310687_1_alg».proof.Proof.Gen.Kernel.Frame
import proofs.«129686_j45792941310687_1_alg».proof.Proof.K.Triple

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data that say nothing of the buffers: the arrays as the region finds them, every window's relation
    the one that always holds, the invariant the scoped rest and the generator register, nothing owed, full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at any point, whatever the buffers hold: the triple, each buffer handed back at what it then holds. -/
theorem body_any (c : Dev nD) : (rdat (F := F) m c).BodyObligation (defs₀ (F := F)) Variants.none () Set.univ := fun t Y _ => by
  rw [bigSep_W0, bigSep_W0]
  show _ ⊢ wp frame (wpE (defs₀ (F := F)) Variants.none c none) Set.univ (bodyAt0 t) _
  rw [show (rdat m c).Φ t.succ = (rdat m c).Φ t.castSucc from rfl,
    show (rdat m c).owesAt () t.succ = (rdat m c).owesAt () t.castSucc from rfl]
  iintro ⟨HΦ, Ho, H0, H1, H2, H3, H4, H5, H6, H7, H8, H9, H10, H11, H12, H13, H14, H15, H16, H17, H18⟩
  iapply (sound_kernel c Set.univ (grid0.coords t) _ _ _ _ _ _ _ _ _ _ _ _ _ _ _ _ _ _ _ _ _ _ _ _ _ _ _ _ _ _ _ _ _ _ _ _ _ _
    (Y 0) (Y 1) (Y 2) (Y 3) (Y 4) (Y 5) (Y 6) (Y 7) (Y 8) (Y 9) (Y 10) (Y 11) (Y 12) (Y 13) (Y 14) (Y 15) (Y 16) (Y 17) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists (Y 18); iexact H18
  iintro ⟨H0, H1, H2, H3, H4, H5, H6, H7, H8, H9, H10, H11, H12, H13, H14, H15, H16, H17, H18⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  isplitl [H5]
  · iexists (Y 5); isplitr; · ipureintro; trivial
    iexact H5
  isplitl [H6]
  · iexists (Y 6); isplitr; · ipureintro; trivial
    iexact H6
  isplitl [H7]
  · iexists (Y 7); isplitr; · ipureintro; trivial
    iexact H7
  isplitl [H8]
  · iexists (Y 8); isplitr; · ipureintro; trivial
    iexact H8
  isplitl [H9]
  · iexists (Y 9); isplitr; · ipureintro; trivial
    iexact H9
  isplitl [H10]
  · iexists (Y 10); isplitr; · ipureintro; trivial
    iexact H10
  isplitl [H11]
  · iexists (Y 11); isplitr; · ipureintro; trivial
    iexact H11
  isplitl [H12]
  · iexists (Y 12); isplitr; · ipureintro; trivial
    iexact H12
  isplitl [H13]
  · iexists (Y 13); isplitr; · ipureintro; trivial
    iexact H13
  isplitl [H14]
  · iexists (Y 14); isplitr; · ipureintro; trivial
    iexact H14
  isplitl [H15]
  · iexists (Y 15); isplitr; · ipureintro; trivial
    iexact H15
  isplitl [H16]
  · iexists (Y 16); isplitr; · ipureintro; trivial
    iexact H16
  isplitl [H17]
  · iexists (Y 17); isplitr; · ipureintro; trivial
    iexact H17
  iexists (stored (Y 0) (Y 1) (Y 2) (Y 3) (Y 4) (Y 5) (Y 6) (Y 7) (Y 8) (Y 9) (Y 10) (Y 11) (Y 12) (Y 13) (Y 14) (Y 15) (Y 16) (Y 17)); isplitr; · ipureintro; trivial
  iexact H18

-- the frame run's implicit arguments are found by unifying its conclusion with this one, which takes unfolding plain
-- definitions in a metavariable's type
set_option backward.isDefEq.respectTransparency.types false in
/-- Every weakly fair execution terminates, every array of the pipeline at SOME contents it may hold after the
    write-backs and every other unscoped buffer as the region found it. -/
theorem run_any : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_any m) (hshare := fun c w => by unfold Pipeline.RDat.share; exact ite_self _)
    (howed := fun _ _ => rfl) (V := V m) (hmain := hmain m Variants.none) (hA := fun _ _ => rfl) (hΦ := fun _ _ => rfl)

/-- THE FRAME: an argument a window stages is an input of the pipeline, never written, so it ends at its entry
    contents; an argument no window stages bypasses the region; either way those are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((congrFun ((rdat m c).ArrAt_in 0 rfl cfg0.N) _).mp ((h c).1 0)).trans (V_main_arg0 m c),
      ((h c).2 main_arg1 (Pipeline.mem_restRefs_of main_arg1 (by decide) (by decide))).trans (V_main_arg1 m c),
      ((congrFun ((rdat m c).ArrAt_in 2 rfl cfg0.N) _).mp ((h c).1 2)).trans (V_main_arg2 m c),
      ((h c).2 main_arg3 (Pipeline.mem_restRefs_of main_arg3 (by decide) (by decide))).trans (V_main_arg3 m c),
      ((congrFun ((rdat m c).ArrAt_in 4 rfl cfg0.N) _).mp ((h c).1 4)).trans (V_main_arg4 m c),
      ((h c).2 main_arg5 (Pipeline.mem_restRefs_of main_arg5 (by decide) (by decide))).trans (V_main_arg5 m c),
      ((congrFun ((rdat m c).ArrAt_in 6 rfl cfg0.N) _).mp ((h c).1 6)).trans (V_main_arg6 m c),
      ((h c).2 main_arg7 (Pipeline.mem_restRefs_of main_arg7 (by decide) (by decide))).trans (V_main_arg7 m c),
      ((congrFun ((rdat m c).ArrAt_in 8 rfl cfg0.N) _).mp ((h c).1 8)).trans (V_main_arg8 m c),
      ((h c).2 main_arg9 (Pipeline.mem_restRefs_of main_arg9 (by decide) (by decide))).trans (V_main_arg9 m c),
      ((congrFun ((rdat m c).ArrAt_in 10 rfl cfg0.N) _).mp ((h c).1 10)).trans (V_main_arg10 m c),
      ((h c).2 main_arg11 (Pipeline.mem_restRefs_of main_arg11 (by decide) (by decide))).trans (V_main_arg11 m c),
      ((congrFun ((rdat m c).ArrAt_in 12 rfl cfg0.N) _).mp ((h c).1 12)).trans (V_main_arg12 m c),
      ((h c).2 main_arg13 (Pipeline.mem_restRefs_of main_arg13 (by decide) (by decide))).trans (V_main_arg13 m c),
      ((congrFun ((rdat m c).ArrAt_in 14 rfl cfg0.N) _).mp ((h c).1 14)).trans (V_main_arg14 m c),
      ((congrFun ((rdat m c).ArrAt_in 15 rfl cfg0.N) _).mp ((h c).1 15)).trans (V_main_arg15 m c),
      ((congrFun ((rdat m c).ArrAt_in 16 rfl cfg0.N) _).mp ((h c).1 16)).trans (V_main_arg16 m c),
      ((congrFun ((rdat m c).ArrAt_in 17 rfl cfg0.N) _).mp ((h c).1 17)).trans (V_main_arg17 m c)⟩) (run_any m ρ)

end Cert.Kernel.Hand

end
-- ==== Proof.KI.Stored.lean ====
/-
  What the kernel's one store writes, as ONE term of the eighteen values the body loads.

  The body loads the batch block, the seven transposed weight blocks and bias vectors and the three mask blocks,
  and stores into the result's block the softmax of the seventh layer's logits. `stored` is that stored value
  over the loaded values in the order of the kernel's operands: the first part's matrix-product chain feeding the
  second part's logits and row maximum, those feeding the final normalisation. `params` reads the seven layers'
  weights off the blocks as the kernel holds them: a weight block is the layer's matrix TRANSPOSED, so the weight
  from input feature `k` to output feature `j` sits at `(k, j)`.
-/
import proofs.«129686_j45792941310687_1_alg».proof.Proof.Gen.KernelIdeal.Skeleton
import proofs.«129686_j45792941310687_1_alg».proof.Proof.Spec
import Idealize.ShloMosaic.Lib.ValueIdx

noncomputable section

namespace Cert.KernelIdeal.Hand

open Cert.KernelIdeal Cert.KernelIdeal.Gen
open Idealize.ShloMosaic Idealize.ShloMosaic.ValueIdx

variable {F : FTy → Type} [FloatOps F]

/-- The value the body stores into the result's block, from the loaded batch block `x`, weight blocks `w1 … w7`,
    biases `b1 … b7` and mask blocks `m1 m2 m3`. -/
def stored (x : Vec F S4096x9 .f32) (w1 : Vec F S9x12 .bf16) (b1 : Vec F S12 .f32) (w2 : Vec F S12x12 .bf16) (b2 : Vec F S12 .f32)
    (w3 : Vec F S12x12 .bf16) (b3 : Vec F S12 .f32) (w4 : Vec F S12x12 .bf16) (b4 : Vec F S12 .f32)
    (w5 : Vec F S12x12 .bf16) (b5 : Vec F S12 .f32) (w6 : Vec F S12x12 .bf16) (b6 : Vec F S12 .f32)
    (w7 : Vec F S12x2 .bf16) (b7 : Vec F S2 .f32) (m1 m2 m3 : Vec F S4096x12 .f32) : FVec F S4096x2 .f32 :=
  k0_pay1 (k0_pay3 (k0_pay2 x w1 b1 w2 b2 m1 w3 b3 w4) b4 m2 w5 b5 m3 w6 b6 w7 b7)
    (k0_pay4 (k0_pay2 x w1 b1 w2 b2 m1 w3 b3 w4) b4 m2 w5 b5 m3 w6 b6 w7 b7)

/-- The layers' weights and biases as the extended reals the kernel's blocks hold: weight `(j, k)` of a layer at
    `(k, j)` of its transposed block. -/
def params (w1 : Vec Ideal S9x12 .bf16) (b1 : Vec Ideal S12 .f32) (w2 : Vec Ideal S12x12 .bf16) (b2 : Vec Ideal S12 .f32)
    (w3 : Vec Ideal S12x12 .bf16) (b3 : Vec Ideal S12 .f32) (w4 : Vec Ideal S12x12 .bf16) (b4 : Vec Ideal S12 .f32)
    (w5 : Vec Ideal S12x12 .bf16) (b5 : Vec Ideal S12 .f32) (w6 : Vec Ideal S12x12 .bf16) (b6 : Vec Ideal S12 .f32)
    (w7 : Vec Ideal S12x2 .bf16) (b7 : Vec Ideal S2 .f32) : Cert.Spec.Params where
  W1 j k := w1 (ix2 k j)
  b1 j := b1 (ix1 j)
  W2 j k := w2 (ix2 k j)
  b2 j := b2 (ix1 j)
  W3 j k := w3 (ix2 k j)
  b3 j := b3 (ix1 j)
  W4 j k := w4 (ix2 k j)
  b4 j := b4 (ix1 j)
  W5 j k := w5 (ix2 k j)
  b5 j := b5 (ix1 j)
  W6 j k := w6 (ix2 k j)
  b6 j := b6 (ix1 j)
  W7 j k := w7 (ix2 k j)
  b7 j := b7 (ix1 j)

end Cert.KernelIdeal.Hand

end
-- ==== Proof.KI.Triple.lean ====
/-
  The body's triple, for every instance of the float operations.

  Handed the eighteen input staging memrefs whole at contents `x1 … x18` and the result's memref at anything, the
  kernel body runs without a fault to the end, leaves every input memref at what it held and the result's at
  `stored x1 … x18`: the body only loads its inputs whole, computes, and stores the result whole, once.
-/
import proofs.«129686_j45792941310687_1_alg».proof.Proof.Gen.KernelIdeal.Skeleton
import proofs.«129686_j45792941310687_1_alg».proof.Proof.KI.Stored
import Idealize.ShloMosaic.Lib.Pipeline.FrameBody
import Idealize.ShloMosaic.Lib.Pipeline.Kit
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole-buffer rectangle's offsets are zero, at rank two and at rank one. -/
theorem off2 : (![0, 0] : Fin 2 → ℕ) = fun _ => 0 := funext fun a => by fin_cases a <;> rfl
theorem off1 : (![0] : Fin 1 → ℕ) = fun _ => 0 := funext fun a => by fin_cases a; rfl

/-- The result's whole-block rectangle. -/
abbrev rOut : Rect S4096x2 := Rect.unit (s := S4096x2) ![0, 0] S4096x2.size inb_S4096x2_S4096x2_0_0

/-- The one store through the whole-block rectangle covers every index of the result's block. -/
theorem cover_out (p0 : Vec F S4096x2 .f32) (y : S4096x2.Idx) :
    ∃ pc ∈ ([⟨rOut, p0⟩] : List (View.Piece (Elt F) S4096x2 .f32)), y ∈ pc.1.set :=
  View.cover_of_tiled [⟨rOut, p0⟩] S4096x2.size (by rfl) y

/-- The body on whole staging memrefs: the inputs at read contents `x1 … x18`, the result's at anything, to the
    continuation holding the inputs as they were and the result's at `stored x1 … x18`. The loads read the
    whole buffers, the one store writes the whole result buffer, so the buffer reads back as the stored value. -/
theorem sound_kernel (c : Dev nD) (E : Set ℕ) (i : grid0.Coords) (a1 : Memref sig .tc .vmem S4096x9 .f32) (h1 : a1.IsWhole) (a2 : Memref sig .tc .vmem S9x12 .bf16) (h2 : a2.IsWhole) (a3 : Memref sig .tc .vmem S12 .f32) (h3 : a3.IsWhole) (a4 : Memref sig .tc .vmem S12x12 .bf16) (h4 : a4.IsWhole) (a5 : Memref sig .tc .vmem S12 .f32) (h5 : a5.IsWhole) (a6 : Memref sig .tc .vmem S12x12 .bf16) (h6 : a6.IsWhole) (a7 : Memref sig .tc .vmem S12 .f32) (h7 : a7.IsWhole) (a8 : Memref sig .tc .vmem S12x12 .bf16) (h8 : a8.IsWhole) (a9 : Memref sig .tc .vmem S12 .f32) (h9 : a9.IsWhole) (a10 : Memref sig .tc .vmem S12x12 .bf16) (h10 : a10.IsWhole) (a11 : Memref sig .tc .vmem S12 .f32) (h11 : a11.IsWhole) (a12 : Memref sig .tc .vmem S12x12 .bf16) (h12 : a12.IsWhole) (a13 : Memref sig .tc .vmem S12 .f32) (h13 : a13.IsWhole) (a14 : Memref sig .tc .vmem S12x2 .bf16) (h14 : a14.IsWhole) (a15 : Memref sig .tc .vmem S2 .f32) (h15 : a15.IsWhole) (a16 : Memref sig .tc .vmem S4096x12 .f32) (h16 : a16.IsWhole) (a17 : Memref sig .tc .vmem S4096x12 .f32) (h17 : a17.IsWhole) (a18 : Memref sig .tc .vmem S4096x12 .f32) (h18 : a18.IsWhole) (a19 : Memref sig .tc .vmem S4096x2 .f32) (h19 : a19.IsWhole)
    (x1 : Vec F S4096x9 .f32) (x2 : Vec F S9x12 .bf16) (x3 : Vec F S12 .f32) (x4 : Vec F S12x12 .bf16) (x5 : Vec F S12 .f32) (x6 : Vec F S12x12 .bf16) (x7 : Vec F S12 .f32) (x8 : Vec F S12x12 .bf16) (x9 : Vec F S12 .f32) (x10 : Vec F S12x12 .bf16) (x11 : Vec F S12 .f32) (x12 : Vec F S12x12 .bf16) (x13 : Vec F S12 .f32) (x14 : Vec F S12x2 .bf16) (x15 : Vec F S2 .f32) (x16 : Vec F S4096x12 .f32) (x17 : Vec F S4096x12 .f32) (x18 : Vec F S4096x12 .f32) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ (∃ d, owns (c : Thread nD τ) a19 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare (stored x1 x2 x3 x4 x5 x6 x7 x8 x9 x10 x11 x12 x13 x14 x15 x16 x17 x18)) -∗ K ⟨⟩))
      ⊢ wp frame (wpE (defs₀ (F := F)) Variants.none c none) E (cc0__mlp_kernel i a1 h1 a2 h2 a3 h3 a4 h4 a5 h5 a6 h6 a7 h7 a8 h8 a9 h9 a10 h10 a11 h11 a12 h12 a13 h13 a14 h14 a15 h15 a16 h16 a17 h17 a18 h18 a19 h19) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, Hk⟩
  subst hf1 hf2 hf3 hf4 hf5 hf6 hf7 hf8 hf9 hf10 hf11 hf12 hf13 hf14 hf15 hf16 hf17 hf18
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  iexists _; isplitr
  swap; · iexact H19
  ipureintro
  rw [View.read_writes_eq_canon _ _ _ (cover_out _)]
  sl_unfold_words
  rw [View.canon_unit_zero off2]
  simp only [View.readAt_eq_ld, View.ld_unit_zero (S := S4096x9) off2, View.ld_unit_zero (S := S9x12) off2,
    View.ld_unit_zero (S := S12) off1, View.ld_unit_zero (S := S12x12) off2, View.ld_unit_zero (S := S12x2) off2,
    View.ld_unit_zero (S := S2) off1, View.ld_unit_zero (S := S4096x12) off2]
  rfl

end Cert.KernelIdeal.Hand

end
-- ==== Proof.KI.FrameAny.lean ====
/-
  The frame: the program runs to the end without a fault and leaves its argument arrays as they were, for every
  instance of the float operations.

  Nothing is said here of what any staging buffer holds: the body needs nothing of its inputs' values to run (it
  takes no branch, address or count from them), and a claim about the ARGUMENTS reads no buffer. So the proof data
  relate what the body finds in a buffer to what it leaves there by the relation that always holds, the body
  obligation is the body's triple with the contents forgotten, and the arrays the pipeline only reads end, by the
  pipeline rule, at their contents at the region's entry, which no host operation before it had touched.
-/
import proofs.«129686_j45792941310687_1_alg».proof.Proof.Gen.KernelIdeal.Frame
import proofs.«129686_j45792941310687_1_alg».proof.Proof.KI.Triple

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data that say nothing of the buffers: the arrays as the region finds them, every window's relation
    the one that always holds, the invariant the scoped rest and the generator register, nothing owed, full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at any point, whatever the buffers hold: the triple, each buffer handed back at what it then holds. -/
theorem body_any (c : Dev nD) : (rdat (F := F) m c).BodyObligation (defs₀ (F := F)) Variants.none () Set.univ := fun t Y _ => by
  rw [bigSep_W0, bigSep_W0]
  show _ ⊢ wp frame (wpE (defs₀ (F := F)) Variants.none c none) Set.univ (bodyAt0 t) _
  rw [show (rdat m c).Φ t.succ = (rdat m c).Φ t.castSucc from rfl,
    show (rdat m c).owesAt () t.succ = (rdat m c).owesAt () t.castSucc from rfl]
  iintro ⟨HΦ, Ho, H0, H1, H2, H3, H4, H5, H6, H7, H8, H9, H10, H11, H12, H13, H14, H15, H16, H17, H18⟩
  iapply (sound_kernel c Set.univ (grid0.coords t) _ _ _ _ _ _ _ _ _ _ _ _ _ _ _ _ _ _ _ _ _ _ _ _ _ _ _ _ _ _ _ _ _ _ _ _ _ _
    (Y 0) (Y 1) (Y 2) (Y 3) (Y 4) (Y 5) (Y 6) (Y 7) (Y 8) (Y 9) (Y 10) (Y 11) (Y 12) (Y 13) (Y 14) (Y 15) (Y 16) (Y 17) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists (Y 18); iexact H18
  iintro ⟨H0, H1, H2, H3, H4, H5, H6, H7, H8, H9, H10, H11, H12, H13, H14, H15, H16, H17, H18⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  isplitl [H5]
  · iexists (Y 5); isplitr; · ipureintro; trivial
    iexact H5
  isplitl [H6]
  · iexists (Y 6); isplitr; · ipureintro; trivial
    iexact H6
  isplitl [H7]
  · iexists (Y 7); isplitr; · ipureintro; trivial
    iexact H7
  isplitl [H8]
  · iexists (Y 8); isplitr; · ipureintro; trivial
    iexact H8
  isplitl [H9]
  · iexists (Y 9); isplitr; · ipureintro; trivial
    iexact H9
  isplitl [H10]
  · iexists (Y 10); isplitr; · ipureintro; trivial
    iexact H10
  isplitl [H11]
  · iexists (Y 11); isplitr; · ipureintro; trivial
    iexact H11
  isplitl [H12]
  · iexists (Y 12); isplitr; · ipureintro; trivial
    iexact H12
  isplitl [H13]
  · iexists (Y 13); isplitr; · ipureintro; trivial
    iexact H13
  isplitl [H14]
  · iexists (Y 14); isplitr; · ipureintro; trivial
    iexact H14
  isplitl [H15]
  · iexists (Y 15); isplitr; · ipureintro; trivial
    iexact H15
  isplitl [H16]
  · iexists (Y 16); isplitr; · ipureintro; trivial
    iexact H16
  isplitl [H17]
  · iexists (Y 17); isplitr; · ipureintro; trivial
    iexact H17
  iexists (stored (Y 0) (Y 1) (Y 2) (Y 3) (Y 4) (Y 5) (Y 6) (Y 7) (Y 8) (Y 9) (Y 10) (Y 11) (Y 12) (Y 13) (Y 14) (Y 15) (Y 16) (Y 17)); isplitr; · ipureintro; trivial
  iexact H18

-- the frame run's implicit arguments are found by unifying its conclusion with this one, which takes unfolding plain
-- definitions in a metavariable's type
set_option backward.isDefEq.respectTransparency.types false in
/-- Every weakly fair execution terminates, every array of the pipeline at SOME contents it may hold after the
    write-backs and every other unscoped buffer as the region found it. -/
theorem run_any : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_any m) (hshare := fun c w => by unfold Pipeline.RDat.share; exact ite_self _)
    (howed := fun _ _ => rfl) (V := V m) (hmain := hmain m Variants.none) (hA := fun _ _ => rfl) (hΦ := fun _ _ => rfl)

/-- THE FRAME: an argument a window stages is an input of the pipeline, never written, so it ends at its entry
    contents; an argument no window stages bypasses the region; either way those are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((congrFun ((rdat m c).ArrAt_in 0 rfl cfg0.N) _).mp ((h c).1 0)).trans (V_main_arg0 m c),
      ((h c).2 main_arg1 (Pipeline.mem_restRefs_of main_arg1 (by decide) (by decide))).trans (V_main_arg1 m c),
      ((congrFun ((rdat m c).ArrAt_in 2 rfl cfg0.N) _).mp ((h c).1 2)).trans (V_main_arg2 m c),
      ((h c).2 main_arg3 (Pipeline.mem_restRefs_of main_arg3 (by decide) (by decide))).trans (V_main_arg3 m c),
      ((congrFun ((rdat m c).ArrAt_in 4 rfl cfg0.N) _).mp ((h c).1 4)).trans (V_main_arg4 m c),
      ((h c).2 main_arg5 (Pipeline.mem_restRefs_of main_arg5 (by decide) (by decide))).trans (V_main_arg5 m c),
      ((congrFun ((rdat m c).ArrAt_in 6 rfl cfg0.N) _).mp ((h c).1 6)).trans (V_main_arg6 m c),
      ((h c).2 main_arg7 (Pipeline.mem_restRefs_of main_arg7 (by decide) (by decide))).trans (V_main_arg7 m c),
      ((congrFun ((rdat m c).ArrAt_in 8 rfl cfg0.N) _).mp ((h c).1 8)).trans (V_main_arg8 m c),
      ((h c).2 main_arg9 (Pipeline.mem_restRefs_of main_arg9 (by decide) (by decide))).trans (V_main_arg9 m c),
      ((congrFun ((rdat m c).ArrAt_in 10 rfl cfg0.N) _).mp ((h c).1 10)).trans (V_main_arg10 m c),
      ((h c).2 main_arg11 (Pipeline.mem_restRefs_of main_arg11 (by decide) (by decide))).trans (V_main_arg11 m c),
      ((congrFun ((rdat m c).ArrAt_in 12 rfl cfg0.N) _).mp ((h c).1 12)).trans (V_main_arg12 m c),
      ((h c).2 main_arg13 (Pipeline.mem_restRefs_of main_arg13 (by decide) (by decide))).trans (V_main_arg13 m c),
      ((congrFun ((rdat m c).ArrAt_in 14 rfl cfg0.N) _).mp ((h c).1 14)).trans (V_main_arg14 m c),
      ((congrFun ((rdat m c).ArrAt_in 15 rfl cfg0.N) _).mp ((h c).1 15)).trans (V_main_arg15 m c),
      ((congrFun ((rdat m c).ArrAt_in 16 rfl cfg0.N) _).mp ((h c).1 16)).trans (V_main_arg16 m c),
      ((congrFun ((rdat m c).ArrAt_in 17 rfl cfg0.N) _).mp ((h c).1 17)).trans (V_main_arg17 m c)⟩) (run_any m ρ)

end Cert.KernelIdeal.Hand

end
-- ==== Proof.KI.Data.lean ====
/-
  The exact proof data of the pipeline, at every instance of the float operations.

  At grid point `t` the body finds in each weight or bias window's buffer that window's block (the whole small
  array), and in the batch's and the three masks' buffers their blocks at `t` on the rows that lie inside the
  arrays — all 4096 rows at every point but the last, whose block reaches past the arrays' one million rows —
  filled out below with words nothing names. The data name, for each such window, the block filled out with the
  zero word (`xAt`, `m1At`, `m2At`, `m3At`): every statement about these buffers is about the rows inside the
  array only. What the body leaves in the result's buffer is the stored value of those (`outAt`).
-/
import proofs.«129686_j45792941310687_1_alg».proof.Proof.Gen.KernelIdeal.Frame
import proofs.«129686_j45792941310687_1_alg».proof.Proof.KI.Stored

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window cellOf)

variable {F : FTy → Type} [FloatOps F]

variable (m : (ℓ : Loc nD τ sig) → Buf (Elt F) ℓ)

/-- The batch's block at point `t` on the rows inside the array, the zero word below. -/
def xAt (c : Dev nD) (t : Fin cfg0.N) : Vec F S4096x9 .f32 :=
  win0_0.fill (grid0.coords t) (fun _ => Scalar.ofBits .f32 0#32) (iblk m c 0 t)
/-- The first mask's likewise, -/
def m1At (c : Dev nD) (t : Fin cfg0.N) : Vec F S4096x12 .f32 :=
  win0_15.fill (grid0.coords t) (fun _ => Scalar.ofBits .f32 0#32) (iblk m c 15 t)
/-- the second's, -/
def m2At (c : Dev nD) (t : Fin cfg0.N) : Vec F S4096x12 .f32 :=
  win0_16.fill (grid0.coords t) (fun _ => Scalar.ofBits .f32 0#32) (iblk m c 16 t)
/-- and the third's. -/
def m3At (c : Dev nD) (t : Fin cfg0.N) : Vec F S4096x12 .f32 :=
  win0_17.fill (grid0.coords t) (fun _ => Scalar.ofBits .f32 0#32) (iblk m c 17 t)

/-- What the body leaves in the result's buffer at point `t`: the stored value of those blocks and the weights. -/
def outAt (c : Dev nD) (t : Fin cfg0.N) : Vec F S4096x2 .f32 :=
  stored (xAt m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (m1At m c t) (m2At m c t) (m3At m c t)

/-- The proof data of the one pipeline on core `c`: the arrays as the region finds them; after the body each
    input's buffer at what it held and the result's at `outAt`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xAt m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => m1At m c t
    | ⟨16, _⟩ => m2At m c t
    | ⟨17, _⟩ => m3At m c t
    | ⟨18, _⟩ => outAt m c t
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = xAt m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = m1At m c t := by dsimp only [dats]
theorem after0_16 (c : Dev nD) (t : Fin cfg0.N) : (dats m 0 c).after 16 t = m2At m c t := by dsimp only [dats]
theorem after0_17 (c : Dev nD) (t : Fin cfg0.N) : (dats m 0 c).after 17 t = m3At m c t := by dsimp only [dats]
theorem after0_18 (c : Dev nD) (t : Fin cfg0.N) : (dats m 0 c).after 18 t = outAt m c t := by dsimp only [dats]

/-- Each weight or bias window's buffer holds its block at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-- The batch's and the masks' buffers are fetched at every point: each holds its block on the rows inside the
    array and, below, whatever the buffer held. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_15 (c : Dev nD) (t : Fin cfg0.N) (d) :
    (dats m 0 c).before 15 t d = win0_15.fill (grid0.coords t) d (iblk m c 15 t) := by
  unfold Dat.before; rw [if_pos (fetch0_15 t)]; rfl
theorem before0_16 (c : Dev nD) (t : Fin cfg0.N) (d) :
    (dats m 0 c).before 16 t d = win0_16.fill (grid0.coords t) d (iblk m c 16 t) := by
  unfold Dat.before; rw [if_pos (fetch0_16 t)]; rfl
theorem before0_17 (c : Dev nD) (t : Fin cfg0.N) (d) :
    (dats m 0 c).before 17 t d = win0_17.fill (grid0.coords t) d (iblk m c 17 t) := by
  unfold Dat.before; rw [if_pos (fetch0_17 t)]; rfl

end Cert.KernelIdeal.Hand

end
-- ==== Proof.KI.StoredRow.lean ====
/-
  The kernel's stored value at row `p` of its block is the row function of row `p` of the batch block and of
  the mask blocks: no entry of another row enters it.
-/
import proofs.«129686_j45792941310687_1_alg».proof.Proof.KI.Stored
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ### The matrix product of record `dot_S4096x9_S9x12_S4096x12_1_0_0_1_n_n` read at an entry -/

theorem lhs_a_0 (i : S4096x12.Idx) (q : dot_S4096x9_S9x12_S4096x12_1_0_0_1_n_n.contr.Idx) :
    (dot_S4096x9_S9x12_S4096x12_1_0_0_1_n_n.lhsIdx i q 0).val = (i 0).val := by
  unfold DotDims.lhsIdx
  rw [dif_neg (show ¬(0 : Fin S4096x9.rank) ∈ dot_S4096x9_S9x12_S4096x12_1_0_0_1_n_n.lhsBatch by decide), dif_pos (show (0 : Fin S4096x9.rank) ∈ dot_S4096x9_S9x12_S4096x12_1_0_0_1_n_n.lhsNonContracting by decide)]
  rfl
theorem lhs_a_1 (i : S4096x12.Idx) (q : dot_S4096x9_S9x12_S4096x12_1_0_0_1_n_n.contr.Idx) :
    (dot_S4096x9_S9x12_S4096x12_1_0_0_1_n_n.lhsIdx i q 1).val = (q ⟨0, by decide⟩).val :=
  dot_S4096x9_S9x12_S4096x12_1_0_0_1_n_n.lhsIdx_val_of_single rfl i q
theorem rhs_a_0 (i : S4096x12.Idx) (q : dot_S4096x9_S9x12_S4096x12_1_0_0_1_n_n.contr.Idx) :
    (dot_S4096x9_S9x12_S4096x12_1_0_0_1_n_n.rhsIdx i q 0).val = (q ⟨0, by decide⟩).val :=
  dot_S4096x9_S9x12_S4096x12_1_0_0_1_n_n.rhsIdx_val_of_single rfl i q
theorem rhs_a_1 (i : S4096x12.Idx) (q : dot_S4096x9_S9x12_S4096x12_1_0_0_1_n_n.contr.Idx) :
    (dot_S4096x9_S9x12_S4096x12_1_0_0_1_n_n.rhsIdx i q 1).val = (i 1).val := by
  unfold DotDims.rhsIdx
  rw [dif_neg (show ¬(1 : Fin S9x12.rank) ∈ dot_S4096x9_S9x12_S4096x12_1_0_0_1_n_n.rhsBatch by decide), dif_pos (show (1 : Fin S9x12.rank) ∈ dot_S4096x9_S9x12_S4096x12_1_0_0_1_n_n.rhsNonContracting by decide)]
  rfl

/-- Into the zero accumulator the product at `(p, j)` is the sum over the contracted index `k` of the left operand at
    `(p, k)` times the right operand at `(k, j)`. -/
theorem matmul_a_apply (lhs : FVec Ideal S4096x9 .bf16) (rhs : FVec Ideal S9x12 .bf16) (p : Fin 4096) (j : Fin 12) :
    matmul dot_S4096x9_S9x12_S4096x12_1_0_0_1_n_n none lhs rhs (constant (F := Ideal) S4096x12 .f32 0x00000000#32) (ix2 p j)
      = ∑ k : Fin 9, lhs (ix2 p k) * rhs (ix2 k j) := by
  refine (Ideal.matmul_constant_zero_apply dot_S4096x9_S9x12_S4096x12_1_0_0_1_n_n none lhs rhs (ix2 p j)).trans ?_
  rw [← Equiv.sum_comp (contrEquiv1 dot_S4096x9_S9x12_S4096x12_1_0_0_1_n_n 9 rfl rfl).symm]
  refine Finset.sum_congr rfl fun k _ => ?_
  have hk := contrEquiv1_symm_val dot_S4096x9_S9x12_S4096x12_1_0_0_1_n_n 9 rfl rfl k
  have el : dot_S4096x9_S9x12_S4096x12_1_0_0_1_n_n.lhsIdx (ix2 p j) ((contrEquiv1 dot_S4096x9_S9x12_S4096x12_1_0_0_1_n_n 9 rfl rfl).symm k) = ix2 p k := funext fun a => Fin.ext (by
    match a with
    | ⟨0, _⟩ => exact lhs_a_0 _ _
    | ⟨1, _⟩ => exact (lhs_a_1 _ _).trans hk)
  have er : dot_S4096x9_S9x12_S4096x12_1_0_0_1_n_n.rhsIdx (ix2 p j) ((contrEquiv1 dot_S4096x9_S9x12_S4096x12_1_0_0_1_n_n 9 rfl rfl).symm k) = ix2 k j := funext fun a => Fin.ext (by
    match a with
    | ⟨0, _⟩ => exact (rhs_a_0 _ _).trans hk
    | ⟨1, _⟩ => exact rhs_a_1 _ _)
  rw [el, er]

/-! ### The matrix product of record `dot_S4096x12_S12x12_S4096x12_1_0_0_1_n_n` read at an entry -/

theorem lhs_b_0 (i : S4096x12.Idx) (q : dot_S4096x12_S12x12_S4096x12_1_0_0_1_n_n.contr.Idx) :
    (dot_S4096x12_S12x12_S4096x12_1_0_0_1_n_n.lhsIdx i q 0).val = (i 0).val := by
  unfold DotDims.lhsIdx
  rw [dif_neg (show ¬(0 : Fin S4096x12.rank) ∈ dot_S4096x12_S12x12_S4096x12_1_0_0_1_n_n.lhsBatch by decide), dif_pos (show (0 : Fin S4096x12.rank) ∈ dot_S4096x12_S12x12_S4096x12_1_0_0_1_n_n.lhsNonContracting by decide)]
  rfl
theorem lhs_b_1 (i : S4096x12.Idx) (q : dot_S4096x12_S12x12_S4096x12_1_0_0_1_n_n.contr.Idx) :
    (dot_S4096x12_S12x12_S4096x12_1_0_0_1_n_n.lhsIdx i q 1).val = (q ⟨0, by decide⟩).val :=
  dot_S4096x12_S12x12_S4096x12_1_0_0_1_n_n.lhsIdx_val_of_single rfl i q
theorem rhs_b_0 (i : S4096x12.Idx) (q : dot_S4096x12_S12x12_S4096x12_1_0_0_1_n_n.contr.Idx) :
    (dot_S4096x12_S12x12_S4096x12_1_0_0_1_n_n.rhsIdx i q 0).val = (q ⟨0, by decide⟩).val :=
  dot_S4096x12_S12x12_S4096x12_1_0_0_1_n_n.rhsIdx_val_of_single rfl i q
theorem rhs_b_1 (i : S4096x12.Idx) (q : dot_S4096x12_S12x12_S4096x12_1_0_0_1_n_n.contr.Idx) :
    (dot_S4096x12_S12x12_S4096x12_1_0_0_1_n_n.rhsIdx i q 1).val = (i 1).val := by
  unfold DotDims.rhsIdx
  rw [dif_neg (show ¬(1 : Fin S12x12.rank) ∈ dot_S4096x12_S12x12_S4096x12_1_0_0_1_n_n.rhsBatch by decide), dif_pos (show (1 : Fin S12x12.rank) ∈ dot_S4096x12_S12x12_S4096x12_1_0_0_1_n_n.rhsNonContracting by decide)]
  rfl

/-- Into the zero accumulator the product at `(p, j)` is the sum over the contracted index `k` of the left operand at
    `(p, k)` times the right operand at `(k, j)`. -/
theorem matmul_b_apply (lhs : FVec Ideal S4096x12 .bf16) (rhs : FVec Ideal S12x12 .bf16) (p : Fin 4096) (j : Fin 12) :
    matmul dot_S4096x12_S12x12_S4096x12_1_0_0_1_n_n none lhs rhs (constant (F := Ideal) S4096x12 .f32 0x00000000#32) (ix2 p j)
      = ∑ k : Fin 12, lhs (ix2 p k) * rhs (ix2 k j) := by
  refine (Ideal.matmul_constant_zero_apply dot_S4096x12_S12x12_S4096x12_1_0_0_1_n_n none lhs rhs (ix2 p j)).trans ?_
  rw [← Equiv.sum_comp (contrEquiv1 dot_S4096x12_S12x12_S4096x12_1_0_0_1_n_n 12 rfl rfl).symm]
  refine Finset.sum_congr rfl fun k _ => ?_
  have hk := contrEquiv1_symm_val dot_S4096x12_S12x12_S4096x12_1_0_0_1_n_n 12 rfl rfl k
  have el : dot_S4096x12_S12x12_S4096x12_1_0_0_1_n_n.lhsIdx (ix2 p j) ((contrEquiv1 dot_S4096x12_S12x12_S4096x12_1_0_0_1_n_n 12 rfl rfl).symm k) = ix2 p k := funext fun a => Fin.ext (by
    match a with
    | ⟨0, _⟩ => exact lhs_b_0 _ _
    | ⟨1, _⟩ => exact (lhs_b_1 _ _).trans hk)
  have er : dot_S4096x12_S12x12_S4096x12_1_0_0_1_n_n.rhsIdx (ix2 p j) ((contrEquiv1 dot_S4096x12_S12x12_S4096x12_1_0_0_1_n_n 12 rfl rfl).symm k) = ix2 k j := funext fun a => Fin.ext (by
    match a with
    | ⟨0, _⟩ => exact (rhs_b_0 _ _).trans hk
    | ⟨1, _⟩ => exact rhs_b_1 _ _)
  rw [el, er]

/-! ### The matrix product of record `dot_S4096x12_S12x2_S4096x2_1_0_0_1_n_n` read at an entry -/

theorem lhs_c_0 (i : S4096x2.Idx) (q : dot_S4096x12_S12x2_S4096x2_1_0_0_1_n_n.contr.Idx) :
    (dot_S4096x12_S12x2_S4096x2_1_0_0_1_n_n.lhsIdx i q 0).val = (i 0).val := by
  unfold DotDims.lhsIdx
  rw [dif_neg (show ¬(0 : Fin S4096x12.rank) ∈ dot_S4096x12_S12x2_S4096x2_1_0_0_1_n_n.lhsBatch by decide), dif_pos (show (0 : Fin S4096x12.rank) ∈ dot_S4096x12_S12x2_S4096x2_1_0_0_1_n_n.lhsNonContracting by decide)]
  rfl
theorem lhs_c_1 (i : S4096x2.Idx) (q : dot_S4096x12_S12x2_S4096x2_1_0_0_1_n_n.contr.Idx) :
    (dot_S4096x12_S12x2_S4096x2_1_0_0_1_n_n.lhsIdx i q 1).val = (q ⟨0, by decide⟩).val :=
  dot_S4096x12_S12x2_S4096x2_1_0_0_1_n_n.lhsIdx_val_of_single rfl i q
theorem rhs_c_0 (i : S4096x2.Idx) (q : dot_S4096x12_S12x2_S4096x2_1_0_0_1_n_n.contr.Idx) :
    (dot_S4096x12_S12x2_S4096x2_1_0_0_1_n_n.rhsIdx i q 0).val = (q ⟨0, by decide⟩).val :=
  dot_S4096x12_S12x2_S4096x2_1_0_0_1_n_n.rhsIdx_val_of_single rfl i q
theorem rhs_c_1 (i : S4096x2.Idx) (q : dot_S4096x12_S12x2_S4096x2_1_0_0_1_n_n.contr.Idx) :
    (dot_S4096x12_S12x2_S4096x2_1_0_0_1_n_n.rhsIdx i q 1).val = (i 1).val := by
  unfold DotDims.rhsIdx
  rw [dif_neg (show ¬(1 : Fin S12x2.rank) ∈ dot_S4096x12_S12x2_S4096x2_1_0_0_1_n_n.rhsBatch by decide), dif_pos (show (1 : Fin S12x2.rank) ∈ dot_S4096x12_S12x2_S4096x2_1_0_0_1_n_n.rhsNonContracting by decide)]
  rfl

/-- Into the zero accumulator the product at `(p, j)` is the sum over the contracted index `k` of the left operand at
    `(p, k)` times the right operand at `(k, j)`. -/
theorem matmul_c_apply (lhs : FVec Ideal S4096x12 .bf16) (rhs : FVec Ideal S12x2 .bf16) (p : Fin 4096) (j : Fin 2) :
    matmul dot_S4096x12_S12x2_S4096x2_1_0_0_1_n_n none lhs rhs (constant (F := Ideal) S4096x2 .f32 0x00000000#32) (ix2 p j)
      = ∑ k : Fin 12, lhs (ix2 p k) * rhs (ix2 k j) := by
  refine (Ideal.matmul_constant_zero_apply dot_S4096x12_S12x2_S4096x2_1_0_0_1_n_n none lhs rhs (ix2 p j)).trans ?_
  rw [← Equiv.sum_comp (contrEquiv1 dot_S4096x12_S12x2_S4096x2_1_0_0_1_n_n 12 rfl rfl).symm]
  refine Finset.sum_congr rfl fun k _ => ?_
  have hk := contrEquiv1_symm_val dot_S4096x12_S12x2_S4096x2_1_0_0_1_n_n 12 rfl rfl k
  have el : dot_S4096x12_S12x2_S4096x2_1_0_0_1_n_n.lhsIdx (ix2 p j) ((contrEquiv1 dot_S4096x12_S12x2_S4096x2_1_0_0_1_n_n 12 rfl rfl).symm k) = ix2 p k := funext fun a => Fin.ext (by
    match a with
    | ⟨0, _⟩ => exact lhs_c_0 _ _
    | ⟨1, _⟩ => exact (lhs_c_1 _ _).trans hk)
  have er : dot_S4096x12_S12x2_S4096x2_1_0_0_1_n_n.rhsIdx (ix2 p j) ((contrEquiv1 dot_S4096x12_S12x2_S4096x2_1_0_0_1_n_n 12 rfl rfl).symm k) = ix2 k j := funext fun a => Fin.ext (by
    match a with
    | ⟨0, _⟩ => exact (rhs_c_0 _ _).trans hk
    | ⟨1, _⟩ => exact rhs_c_1 _ _)
  rw [el, er]

/-! ### The bias and keep-dimension chains read at an entry -/

/-- A bias vector cast to one row and broadcast over the rows reads, at `(p, j)`, the vector at `j`. -/
theorem bias_apply {α : Type} {n a : ℕ} (b : (⟨1, ![a]⟩ : Shape).Idx → α) (hc : (⟨1, ![a]⟩ : Shape).ShapeCasts ⟨2, ![1, a]⟩)
    (hb : (⟨2, ![1, a]⟩ : Shape).Broadcasts ⟨2, ![n, a]⟩) (p : Fin n) (j : Fin a) :
    broadcastTo ⟨2, ![n, a]⟩ (shapeCast ⟨2, ![1, a]⟩ b hc) hb (ix2 p j) = b (ix1 j) :=
  (broadcastTo_1b_ab_apply _ hb p j).trans (shapeCast_a_1a_apply b hc 0 j)

/-- A vector of row values cast to one column and broadcast over the columns reads, at `(p, q)`, the vector at `p`. -/
theorem keep_apply {α : Type} (v : S4096.Idx → α) (p : Fin 4096) (q : Fin 2) :
    broadcastTo S4096x2 (shapeCast S4096x1 v shapeCasts_S4096_S4096x1) broadcasts_S4096x1_S4096x2 (ix2 p q) = v (ix1 p) := by
  refine (broadcastTo_apply _ broadcasts_S4096x1_S4096x2 (ix2 p q) (ix2 p (0 : Fin 1)) fun ax => ?_).trans ?_
  · match ax with
    | ⟨0, _⟩ =>
      show p.val = if (4096 : ℕ) = 1 then 0 else p.val
      rw [if_neg (by decide)]
    | ⟨1, _⟩ => rfl
  · refine shapeCast_apply v shapeCasts_S4096_S4096x1 _ _ ?_
    rw [Shape.rowMajor_val_two, Shape.rowMajor_val_one]
    show p.val = p.val * 1 + 0
    omega

/-! ### One layer read at an entry -/

/-- The first hidden layer at `(p, j)`. -/
theorem hidden_a_apply (h : FVec Ideal S4096x9 .f32) (w : FVec Ideal S9x12 .bf16) (b : FVec Ideal S12 .f32) (p : Fin 4096) (j : Fin 12) :
    maximumf (addf (matmul dot_S4096x9_S9x12_S4096x12_1_0_0_1_n_n none (truncf .bf16 h bitsLt_bf16_f32)
        (shapeCast S9x12 w shapeCasts_S9x12_S9x12) (constant (F := Ideal) S4096x12 .f32 0x00000000#32))
      (broadcastTo S4096x12 (shapeCast S1x12 b shapeCasts_S12_S1x12) broadcasts_S1x12_S4096x12))
      (broadcast S4096x12 (FloatOps.ofBits (F := Ideal) .f32 0x00000000#32)) (ix2 p j)
      = Cert.Spec.hidden (fun k => h (ix2 p k)) (fun j k => w (ix2 k j)) (fun j => b (ix1 j)) j := by
  rw [shapeCast_self]
  show max (matmul dot_S4096x9_S9x12_S4096x12_1_0_0_1_n_n none (truncf .bf16 h bitsLt_bf16_f32) w
      (constant (F := Ideal) S4096x12 .f32 0x00000000#32) (ix2 p j)
    + broadcastTo S4096x12 (shapeCast S1x12 b shapeCasts_S12_S1x12) broadcasts_S1x12_S4096x12 (ix2 p j)) Cert.Spec.zeroW = _
  rw [matmul_a_apply, bias_apply]
  rfl

/-- A later hidden layer at `(p, j)`. -/
theorem hidden_b_apply (h : FVec Ideal S4096x12 .f32) (w : FVec Ideal S12x12 .bf16) (b : FVec Ideal S12 .f32) (p : Fin 4096) (j : Fin 12) :
    maximumf (addf (matmul dot_S4096x12_S12x12_S4096x12_1_0_0_1_n_n none (truncf .bf16 h bitsLt_bf16_f32)
        (shapeCast S12x12 w shapeCasts_S12x12_S12x12) (constant (F := Ideal) S4096x12 .f32 0x00000000#32))
      (broadcastTo S4096x12 (shapeCast S1x12 b shapeCasts_S12_S1x12) broadcasts_S1x12_S4096x12))
      (broadcast S4096x12 (FloatOps.ofBits (F := Ideal) .f32 0x00000000#32)) (ix2 p j)
      = Cert.Spec.hidden (fun k => h (ix2 p k)) (fun j k => w (ix2 k j)) (fun j => b (ix1 j)) j := by
  rw [shapeCast_self]
  show max (matmul dot_S4096x12_S12x12_S4096x12_1_0_0_1_n_n none (truncf .bf16 h bitsLt_bf16_f32) w
      (constant (F := Ideal) S4096x12 .f32 0x00000000#32) (ix2 p j)
    + broadcastTo S4096x12 (shapeCast S1x12 b shapeCasts_S12_S1x12) broadcasts_S1x12_S4096x12 (ix2 p j)) Cert.Spec.zeroW = _
  rw [matmul_b_apply, bias_apply]
  rfl

/-- A matrix product alone, its bias and threshold still to come, at `(p, j)`. -/
theorem pre_b_apply (h : FVec Ideal S4096x12 .f32) (w : FVec Ideal S12x12 .bf16) (p : Fin 4096) (j : Fin 12) :
    matmul dot_S4096x12_S12x12_S4096x12_1_0_0_1_n_n none (truncf .bf16 h bitsLt_bf16_f32)
        (shapeCast S12x12 w shapeCasts_S12x12_S12x12) (constant (F := Ideal) S4096x12 .f32 0x00000000#32) (ix2 p j)
      = ∑ k : Fin 12, h (ix2 p k) * w (ix2 k j) := by
  rw [shapeCast_self, matmul_b_apply]
  rfl

/-- The bias and threshold that complete a layer whose product is given, at `(p, j)`. -/
theorem post_b_apply (v : FVec Ideal S4096x12 .f32) (b : FVec Ideal S12 .f32) (p : Fin 4096) (j : Fin 12) :
    maximumf (addf v (broadcastTo S4096x12 (shapeCast S1x12 b shapeCasts_S12_S1x12) broadcasts_S1x12_S4096x12))
      (broadcast S4096x12 (FloatOps.ofBits (F := Ideal) .f32 0x00000000#32)) (ix2 p j)
      = max (v (ix2 p j) + b (ix1 j)) Cert.Spec.zeroW := by
  show max (v (ix2 p j) + broadcastTo S4096x12 (shapeCast S1x12 b shapeCasts_S12_S1x12) broadcasts_S1x12_S4096x12 (ix2 p j))
    Cert.Spec.zeroW = _
  rw [bias_apply]

/-- The output layer at `(p, q)`. -/
theorem dense_c_apply (h : FVec Ideal S4096x12 .f32) (w : FVec Ideal S12x2 .bf16) (b : FVec Ideal S2 .f32) (p : Fin 4096) (q : Fin 2) :
    addf (matmul dot_S4096x12_S12x2_S4096x2_1_0_0_1_n_n none (truncf .bf16 h bitsLt_bf16_f32)
        (shapeCast S12x2 w shapeCasts_S12x2_S12x2) (constant (F := Ideal) S4096x2 .f32 0x00000000#32))
      (broadcastTo S4096x2 (shapeCast S1x2 b shapeCasts_S2_S1x2) broadcasts_S1x2_S4096x2) (ix2 p q)
      = Cert.Spec.dense (fun k => h (ix2 p k)) (fun j k => w (ix2 k j)) (fun j => b (ix1 j)) q := by
  rw [shapeCast_self]
  show matmul dot_S4096x12_S12x2_S4096x2_1_0_0_1_n_n none (truncf .bf16 h bitsLt_bf16_f32) w
      (constant (F := Ideal) S4096x2 .f32 0x00000000#32) (ix2 p q)
    + broadcastTo S4096x2 (shapeCast S1x2 b shapeCasts_S2_S1x2) broadcasts_S1x2_S4096x2 (ix2 p q) = _
  rw [matmul_c_apply, bias_apply]
  rfl

/-! ### The payloads read at an entry -/

/-- The first part's value at `(p, j)`: the fourth layer's product over the third layer's row. -/
theorem pay2_apply (x : Vec Ideal S4096x9 .f32) (w1 : Vec Ideal S9x12 .bf16) (b1 : Vec Ideal S12 .f32) (w2 : Vec Ideal S12x12 .bf16) (b2 : Vec Ideal S12 .f32)
    (m1 : Vec Ideal S4096x12 .f32) (w3 : Vec Ideal S12x12 .bf16) (b3 : Vec Ideal S12 .f32) (w4 : Vec Ideal S12x12 .bf16) (p : Fin 4096) (j : Fin 12) :
    k0_pay2 (F := Ideal) x w1 b1 w2 b2 m1 w3 b3 w4 (ix2 p j)
      = ∑ k : Fin 12, Cert.Spec.hidden (fun j => Cert.Spec.hidden (Cert.Spec.hidden (fun k => x (ix2 p k))
          (fun j k => w1 (ix2 k j)) (fun j => b1 (ix1 j))) (fun j k => w2 (ix2 k j)) (fun j => b2 (ix1 j)) j * m1 (ix2 p j))
          (fun j k => w3 (ix2 k j)) (fun j => b3 (ix1 j)) k * w4 (ix2 k j) := by
  unfold k0_pay2
  simp only [pre_b_apply, hidden_b_apply, hidden_a_apply, mulf_apply]

/-- The second part's logits at `(p, q)`, from whatever product `v` the first part hands over. -/
theorem pay3_apply (v : FVec Ideal S4096x12 .f32) (b4 : Vec Ideal S12 .f32) (m2 : Vec Ideal S4096x12 .f32) (w5 : Vec Ideal S12x12 .bf16) (b5 : Vec Ideal S12 .f32)
    (m3 : Vec Ideal S4096x12 .f32) (w6 : Vec Ideal S12x12 .bf16) (b6 : Vec Ideal S12 .f32) (w7 : Vec Ideal S12x2 .bf16) (b7 : Vec Ideal S2 .f32)
    (p : Fin 4096) (q : Fin 2) :
    k0_pay3 (F := Ideal) v b4 m2 w5 b5 m3 w6 b6 w7 b7 (ix2 p q)
      = Cert.Spec.dense (Cert.Spec.hidden (fun j => Cert.Spec.hidden (fun j => max (v (ix2 p j) + b4 (ix1 j)) Cert.Spec.zeroW * m2 (ix2 p j))
          (fun j k => w5 (ix2 k j)) (fun j => b5 (ix1 j)) j * m3 (ix2 p j)) (fun j k => w6 (ix2 k j)) (fun j => b6 (ix1 j)))
          (fun j k => w7 (ix2 k j)) (fun j => b7 (ix1 j)) q := by
  unfold k0_pay3
  simp only [dense_c_apply, hidden_b_apply, mulf_apply]
  simp only [post_b_apply]

/-- The logits of row `p` as the two parts compute them are the specification's. -/
theorem logits_apply (x : Vec Ideal S4096x9 .f32) (w1 : Vec Ideal S9x12 .bf16) (b1 : Vec Ideal S12 .f32) (w2 : Vec Ideal S12x12 .bf16) (b2 : Vec Ideal S12 .f32)
    (w3 : Vec Ideal S12x12 .bf16) (b3 : Vec Ideal S12 .f32) (w4 : Vec Ideal S12x12 .bf16) (b4 : Vec Ideal S12 .f32)
    (w5 : Vec Ideal S12x12 .bf16) (b5 : Vec Ideal S12 .f32) (w6 : Vec Ideal S12x12 .bf16) (b6 : Vec Ideal S12 .f32)
    (w7 : Vec Ideal S12x2 .bf16) (b7 : Vec Ideal S2 .f32) (m1 m2 m3 : Vec Ideal S4096x12 .f32) (p : Fin 4096) (q : Fin 2) :
    k0_pay3 (F := Ideal) (k0_pay2 (F := Ideal) x w1 b1 w2 b2 m1 w3 b3 w4) b4 m2 w5 b5 m3 w6 b6 w7 b7 (ix2 p q)
      = Cert.Spec.logits (params w1 b1 w2 b2 w3 b3 w4 b4 w5 b5 w6 b6 w7 b7) (fun k => x (ix2 p k))
          (fun j => m1 (ix2 p j)) (fun j => m2 (ix2 p j)) (fun j => m3 (ix2 p j)) q := by
  rw [pay3_apply]
  simp only [pay2_apply]
  rfl

/-- The source index of the row reduction: row `p` with the column `k` put back. -/
theorem lift_row (p : Fin 4096) (k : Fin 2) : reduces_S4096x2_S4096.lift (ix1 p) k = ix2 p k :=
  funext fun a => Fin.ext (by
    match a with
    | ⟨0, _⟩ => rfl
    | ⟨1, _⟩ => rfl)

/-- The second part's row maximum at `p`: the fold of `max` from `-∞` over the row's two logits. -/
theorem pay4_apply (v : FVec Ideal S4096x12 .f32) (b4 : Vec Ideal S12 .f32) (m2 : Vec Ideal S4096x12 .f32) (w5 : Vec Ideal S12x12 .bf16) (b5 : Vec Ideal S12 .f32)
    (m3 : Vec Ideal S4096x12 .f32) (w6 : Vec Ideal S12x12 .bf16) (b6 : Vec Ideal S12 .f32) (w7 : Vec Ideal S12x2 .bf16) (b7 : Vec Ideal S2 .f32)
    (p : Fin 4096) :
    k0_pay4 (F := Ideal) v b4 m2 w5 b5 m3 w6 b6 w7 b7 (ix1 p)
      = (Finset.univ : Finset (Fin 2)).fold max Cert.Spec.negInfW
          (fun q => k0_pay3 (F := Ideal) v b4 m2 w5 b5 m3 w6 b6 w7 b7 (ix2 p q)) := by
  unfold k0_pay4
  refine (Ideal.multiReduction_maximumf_single (k0_pay3 (F := Ideal) v b4 m2 w5 b5 m3 w6 b6 w7 b7) 0xFF800000#32
    reduces_S4096x2_S4096 (.inl rfl) rfl (ix1 p)).trans ?_
  refine congrArg (fun f : Fin 2 → EReal => (Finset.univ : Finset (Fin 2)).fold max Cert.Spec.negInfW f) (funext fun q => ?_)
  exact congrArg (k0_pay3 (F := Ideal) v b4 m2 w5 b5 m3 w6 b6 w7 b7) (lift_row p q)

/-- The exponential of a logit less the row's value, at `(p, k)`. -/
theorem expsub_apply (z : FVec Ideal S4096x2 .f32) (m : FVec Ideal S4096 .f32) (p : Fin 4096) (k : Fin 2) :
    exp (subf z (broadcastTo S4096x2 (shapeCast S4096x1 (maximumf (broadcast S4096 (FloatOps.ofBits (F := Ideal) .f32 0xFF800000#32)) m)
        shapeCasts_S4096_S4096x1) broadcasts_S4096x1_S4096x2)) (ix2 p k)
      = Ideal.exp (z (ix2 p k) - max Cert.Spec.negInfW (m (ix1 p))) := by
  show Ideal.exp (z (ix2 p k) - broadcastTo S4096x2 (shapeCast S4096x1 (maximumf (broadcast S4096
    (FloatOps.ofBits (F := Ideal) .f32 0xFF800000#32)) m) shapeCasts_S4096_S4096x1) broadcasts_S4096x1_S4096x2 (ix2 p k)) = _
  rw [keep_apply]
  rfl

/-- The normalisation at `(p, q)` over any logits `z` and row values `m`. -/
theorem pay1_apply (z : FVec Ideal S4096x2 .f32) (m : FVec Ideal S4096 .f32) (p : Fin 4096) (q : Fin 2) :
    k0_pay1 (F := Ideal) z m (ix2 p q)
      = Ideal.div (Ideal.exp (z (ix2 p q) - max Cert.Spec.negInfW (m (ix1 p))))
          (∑ k : Fin 2, Ideal.exp (z (ix2 p k) - max Cert.Spec.negInfW (m (ix1 p)))) := by
  unfold k0_pay1
  simp only [divf_apply, keep_apply, expsub_apply]
  refine congrArg (Ideal.div _) ?_
  refine (Ideal.multiReduction_add_single _ _ reduces_S4096x2_S4096 _ _ (ix1 p)).trans ?_
  refine Finset.sum_congr rfl fun k _ => ?_
  exact (congrArg _ (lift_row p k)).trans (expsub_apply z m p k)

/-- The stored value at `(p, q)`: the softmax at `q` of the logits of row `p`. -/
theorem stored_row (x : Vec Ideal S4096x9 .f32) (w1 : Vec Ideal S9x12 .bf16) (b1 : Vec Ideal S12 .f32) (w2 : Vec Ideal S12x12 .bf16) (b2 : Vec Ideal S12 .f32)
    (w3 : Vec Ideal S12x12 .bf16) (b3 : Vec Ideal S12 .f32) (w4 : Vec Ideal S12x12 .bf16) (b4 : Vec Ideal S12 .f32)
    (w5 : Vec Ideal S12x12 .bf16) (b5 : Vec Ideal S12 .f32) (w6 : Vec Ideal S12x12 .bf16) (b6 : Vec Ideal S12 .f32)
    (w7 : Vec Ideal S12x2 .bf16) (b7 : Vec Ideal S2 .f32) (m1 m2 m3 : Vec Ideal S4096x12 .f32) (p : Fin 4096) (q : Fin 2) :
    stored (F := Ideal) x w1 b1 w2 b2 w3 b3 w4 b4 w5 b5 w6 b6 w7 b7 m1 m2 m3 (ix2 p q)
      = Cert.Spec.rowG (params w1 b1 w2 b2 w3 b3 w4 b4 w5 b5 w6 b6 w7 b7) (fun k => x (ix2 p k))
          (fun j => m1 (ix2 p j)) (fun j => m2 (ix2 p j)) (fun j => m3 (ix2 p j)) q := by
  unfold stored
  rw [pay1_apply, pay4_apply]
  simp only [logits_apply]
  rfl

end Cert.KernelIdeal.Hand

end
-- ==== Proof.KI.Body.lean ====
/-
  The body obligation of the exact proof data, on the extended reals, and the run it gives.

  At a grid point the batch's and the masks' buffers arrive holding their blocks on the rows inside the arrays and
  words nothing names below; the body's stored value at a row depends on that row of its inputs alone, so on the
  rows inside the array it is the stored value of the named blocks, whatever lies below: that is all the obligation
  of a window whose last block reaches past its array asks.
-/
import proofs.«129686_j45792941310687_1_alg».proof.Proof.KI.Data
import proofs.«129686_j45792941310687_1_alg».proof.Proof.KI.Triple
import proofs.«129686_j45792941310687_1_alg».proof.Proof.KI.StoredRow

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Two batches and mask triples that agree on row `p` give the same stored value on row `p`. -/
theorem stored_congr_row (x x' : Vec Ideal S4096x9 .f32) (w1 : Vec Ideal S9x12 .bf16) (b1 : Vec Ideal S12 .f32) (w2 : Vec Ideal S12x12 .bf16) (b2 : Vec Ideal S12 .f32)
    (w3 : Vec Ideal S12x12 .bf16) (b3 : Vec Ideal S12 .f32) (w4 : Vec Ideal S12x12 .bf16) (b4 : Vec Ideal S12 .f32)
    (w5 : Vec Ideal S12x12 .bf16) (b5 : Vec Ideal S12 .f32) (w6 : Vec Ideal S12x12 .bf16) (b6 : Vec Ideal S12 .f32)
    (w7 : Vec Ideal S12x2 .bf16) (b7 : Vec Ideal S2 .f32)
    (m1 m2 m3 m1' m2' m3' : Vec Ideal S4096x12 .f32) (p : Fin 4096) (q : Fin 2)
    (hx : ∀ k, x (ix2 p k) = x' (ix2 p k)) (h1 : ∀ j, m1 (ix2 p j) = m1' (ix2 p j))
    (h2 : ∀ j, m2 (ix2 p j) = m2' (ix2 p j)) (h3 : ∀ j, m3 (ix2 p j) = m3' (ix2 p j)) :
    stored (F := Ideal) x w1 b1 w2 b2 w3 b3 w4 b4 w5 b5 w6 b6 w7 b7 m1 m2 m3 (ix2 p q)
      = stored (F := Ideal) x' w1 b1 w2 b2 w3 b3 w4 b4 w5 b5 w6 b6 w7 b7 m1' m2' m3' (ix2 p q) := by
  rw [stored_row, stored_row]
  simp only [hx, h1, h2, h3]

/-- The five windows whose last block reaches past its array cut the ROW axis alike, and no window's lane axis is
    cut: decided once over the grid's 245 points. -/
theorem cut_sizes : ∀ t : Fin cfg0.N,
    win0_0.xsize (grid0.coords t) 0 = win0_18.xsize (grid0.coords t) 0 ∧ win0_0.xsize (grid0.coords t) 1 = 9
    ∧ win0_15.xsize (grid0.coords t) 0 = win0_18.xsize (grid0.coords t) 0 ∧ win0_15.xsize (grid0.coords t) 1 = 12
    ∧ win0_16.xsize (grid0.coords t) 0 = win0_18.xsize (grid0.coords t) 0 ∧ win0_16.xsize (grid0.coords t) 1 = 12
    ∧ win0_17.xsize (grid0.coords t) 0 = win0_18.xsize (grid0.coords t) 0 ∧ win0_17.xsize (grid0.coords t) 1 = 12 :=
  (by decide +kernel : ∀ t : Fin grid0.N, _)

/-- A buffer filled out below the rows inside the array reads, on such a row, as the block, whatever lies below. -/
theorem fill_moved (w : Window sig grid0) {α : Type} (i : grid0.Coords) (d d' : w.block.Idx → α) (g : (w.xblock i).Idx → α)
    (j : w.block.Idx) (h : w.moved i j = true) : w.fill i d g j = w.fill i d' g j := by
  unfold Window.fill; rw [dif_pos h, dif_pos h]

/-- A row of the result's block inside the array is a row window 0's transfer moves, at every lane. -/
theorem moved0_0 (t : Fin cfg0.N) (p : Fin 4096) (k : Fin 9) (hp : p.val < win0_18.xsize (grid0.coords t) 0) :
    win0_0.moved (grid0.coords t) (ix2 p k) = true := by
  rw [Window.moved_iff]
  intro a
  match a with
  | ⟨0, _⟩ =>
    show p.val < win0_0.xsize (grid0.coords t) 0
    rw [(cut_sizes t).1]; exact hp
  | ⟨1, _⟩ =>
    show k.val < win0_0.xsize (grid0.coords t) 1
    rw [(cut_sizes t).2.1]; exact k.isLt
/-- A row of the result's block inside the array is a row window 15's transfer moves, at every lane. -/
theorem moved0_15 (t : Fin cfg0.N) (p : Fin 4096) (k : Fin 12) (hp : p.val < win0_18.xsize (grid0.coords t) 0) :
    win0_15.moved (grid0.coords t) (ix2 p k) = true := by
  rw [Window.moved_iff]
  intro a
  match a with
  | ⟨0, _⟩ =>
    show p.val < win0_15.xsize (grid0.coords t) 0
    rw [(cut_sizes t).2.2.1]; exact hp
  | ⟨1, _⟩ =>
    show k.val < win0_15.xsize (grid0.coords t) 1
    rw [(cut_sizes t).2.2.2.1]; exact k.isLt
/-- A row of the result's block inside the array is a row window 16's transfer moves, at every lane. -/
theorem moved0_16 (t : Fin cfg0.N) (p : Fin 4096) (k : Fin 12) (hp : p.val < win0_18.xsize (grid0.coords t) 0) :
    win0_16.moved (grid0.coords t) (ix2 p k) = true := by
  rw [Window.moved_iff]
  intro a
  match a with
  | ⟨0, _⟩ =>
    show p.val < win0_16.xsize (grid0.coords t) 0
    rw [(cut_sizes t).2.2.2.2.1]; exact hp
  | ⟨1, _⟩ =>
    show k.val < win0_16.xsize (grid0.coords t) 1
    rw [(cut_sizes t).2.2.2.2.2.1]; exact k.isLt
/-- A row of the result's block inside the array is a row window 17's transfer moves, at every lane. -/
theorem moved0_17 (t : Fin cfg0.N) (p : Fin 4096) (k : Fin 12) (hp : p.val < win0_18.xsize (grid0.coords t) 0) :
    win0_17.moved (grid0.coords t) (ix2 p k) = true := by
  rw [Window.moved_iff]
  intro a
  match a with
  | ⟨0, _⟩ =>
    show p.val < win0_17.xsize (grid0.coords t) 0
    rw [(cut_sizes t).2.2.2.2.2.2.1]; exact hp
  | ⟨1, _⟩ =>
    show k.val < win0_17.xsize (grid0.coords t) 1
    rw [(cut_sizes t).2.2.2.2.2.2.2]; exact k.isLt

/-- On the rows inside the array, the stored value of the buffers as they arrive (the blocks filled out below with
    anything) is the stored value of the named blocks. -/
theorem cut_stored (c : Dev nD) (t : Fin cfg0.N) (d0 : S4096x9.Idx → Elt Ideal .f32) (d15 d16 d17 : S4096x12.Idx → Elt Ideal .f32) :
    win0_18.cut (grid0.coords t) (stored (F := Ideal) (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (win0_15.fill (grid0.coords t) d15 (iblk m c 15 t)) (win0_16.fill (grid0.coords t) d16 (iblk m c 16 t)) (win0_17.fill (grid0.coords t) d17 (iblk m c 17 t)))
      = win0_18.cut (grid0.coords t) (outAt m c t) := by
  funext j
  have hp : (j 0).val < win0_18.xsize (grid0.coords t) 0 := (j 0).isLt
  have hq : (j 1).val < win0_18.xsize (grid0.coords t) 1 := (j 1).isLt
  let p : Fin 4096 := ⟨(j 0).val, Nat.lt_of_lt_of_le hp (win0_18.xsize_le _ 0)⟩
  let q : Fin 2 := ⟨(j 1).val, Nat.lt_of_lt_of_le hq (win0_18.xsize_le _ 1)⟩
  have e : win0_18.xinj (grid0.coords t) j = ix2 p q :=
    funext fun a => by match a with | ⟨0, _⟩ => rfl | ⟨1, _⟩ => rfl
  show stored (F := Ideal) _ _ _ _ _ _ _ _ _ _ _ _ _ _ _ _ _ _ (win0_18.xinj (grid0.coords t) j) = outAt m c t (win0_18.xinj (grid0.coords t) j)
  rw [e]; unfold outAt xAt m1At m2At m3At
  exact stored_congr_row _ _ _ _ _ _ _ _ _ _ _ _ _ _ _ _ _ _ _ _ _ _ p q
    (fun k => fill_moved win0_0 _ _ _ _ _ (moved0_0 t p k hp)) (fun k => fill_moved win0_15 _ _ _ _ _ (moved0_15 t p k hp))
    (fun k => fill_moved win0_16 _ _ _ _ _ (moved0_16 t p k hp)) (fun k => fill_moved win0_17 _ _ _ _ _ (moved0_17 t p k hp))

/-- The body obligation, at every point. -/
theorem body_obligation (c : Dev nD) : BodyObligationLoose (dats (F := Ideal) m 0 c) (defs₀ (F := Ideal)) Variants.none () Set.univ := fun t => by
  rw [bigSep_W0, bigSep_W0]
  simp only
  show _ ⊢ wp frame (wpE (defs₀ (F := Ideal)) Variants.none c none) Set.univ (bodyAt0 t) _
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  rw [before0_0 m c t d0, before0_1 m c t d1, before0_2 m c t d2, before0_3 m c t d3, before0_4 m c t d4, before0_5 m c t d5, before0_6 m c t d6, before0_7 m c t d7, before0_8 m c t d8, before0_9 m c t d9, before0_10 m c t d10, before0_11 m c t d11, before0_12 m c t d12, before0_13 m c t d13, before0_14 m c t d14, before0_15 m c t d15, before0_16 m c t d16, before0_17 m c t d17]
  rw [after0_0, after0_1, after0_2, after0_3, after0_4, after0_5, after0_6, after0_7, after0_8, after0_9, after0_10, after0_11, after0_12, after0_13, after0_14, after0_15, after0_16, after0_17, after0_18]
  iapply (sound_kernel c Set.univ (grid0.coords t) _ _ _ _ _ _ _ _ _ _ _ _ _ _ _ _ _ _ _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (win0_15.fill (grid0.coords t) d15 (iblk m c 15 t)) (win0_16.fill (grid0.coords t) d16 (iblk m c 16 t)) (win0_17.fill (grid0.coords t) d17 (iblk m c 17 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]
  · iexists d0
    rw [show (win0 0).cut (grid0.coords t) (xAt m c t) = iblk m c 0 t from win0_0.cut_fill _ _ _]
    iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · iexists d15
    rw [show (win0 15).cut (grid0.coords t) (m1At m c t) = iblk m c 15 t from win0_15.cut_fill _ _ _]
    iexact H15
  isplitl [H16]
  · iexists d16
    rw [show (win0 16).cut (grid0.coords t) (m2At m c t) = iblk m c 16 t from win0_16.cut_fill _ _ _]
    iexact H16
  isplitl [H17]
  · iexists d17
    rw [show (win0 17).cut (grid0.coords t) (m3At m c t) = iblk m c 17 t from win0_17.cut_fill _ _ _]
    iexact H17
  iexists (stored (F := Ideal) (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (win0_15.fill (grid0.coords t) d15 (iblk m c 15 t)) (win0_16.fill (grid0.coords t) d16 (iblk m c 16 t)) (win0_17.fill (grid0.coords t) d17 (iblk m c 17 t)))
  rw [← cut_stored m c t d0 d15 d16 d17, Window.fill_cut]
  iexact H18

-- the frame run's implicit arguments are found by unifying its conclusion with this one, which takes unfolding plain
-- definitions in a metavariable's type
set_option backward.isDefEq.respectTransparency.types false in
/-- Every weakly fair execution terminates, every array of the pipeline at what the library computes from the proof
    data — the result's at its entry contents overwritten, block by block, by the rows of `outAt` inside the array —
    and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

end Cert.KernelIdeal.Hand

end
-- ==== Proof.SpecArr.lean ====
/-
  The whole result array, from the argument arrays: row `r` of the result is the row function of row `r` of the
  batch and of the three masks, under the weights as the argument arrays hold them (a layer's weight from input
  feature `k` to output feature `j` at `(j, k)` of its matrix).
-/
import proofs.«129686_j45792941310687_1_alg».proof.Proof.Spec
import Idealize.ShloMosaic.Lib.ValueIdx

noncomputable section

namespace Cert.Spec

open Idealize.ShloMosaic Idealize.ShloMosaic.ValueIdx

/-- The layers' weights and biases read off the argument arrays. -/
def argParams (W1 : (⟨2, ![12, 9]⟩ : Shape).Idx → EReal) (b1 : (⟨1, ![12]⟩ : Shape).Idx → EReal)
    (W2 : (⟨2, ![12, 12]⟩ : Shape).Idx → EReal) (b2 : (⟨1, ![12]⟩ : Shape).Idx → EReal)
    (W3 : (⟨2, ![12, 12]⟩ : Shape).Idx → EReal) (b3 : (⟨1, ![12]⟩ : Shape).Idx → EReal)
    (W4 : (⟨2, ![12, 12]⟩ : Shape).Idx → EReal) (b4 : (⟨1, ![12]⟩ : Shape).Idx → EReal)
    (W5 : (⟨2, ![12, 12]⟩ : Shape).Idx → EReal) (b5 : (⟨1, ![12]⟩ : Shape).Idx → EReal)
    (W6 : (⟨2, ![12, 12]⟩ : Shape).Idx → EReal) (b6 : (⟨1, ![12]⟩ : Shape).Idx → EReal)
    (W7 : (⟨2, ![2, 12]⟩ : Shape).Idx → EReal) (b7 : (⟨1, ![2]⟩ : Shape).Idx → EReal) : Params where
  W1 j k := W1 (ix2 j k)
  b1 j := b1 (ix1 j)
  W2 j k := W2 (ix2 j k)
  b2 j := b2 (ix1 j)
  W3 j k := W3 (ix2 j k)
  b3 j := b3 (ix1 j)
  W4 j k := W4 (ix2 j k)
  b4 j := b4 (ix1 j)
  W5 j k := W5 (ix2 j k)
  b5 j := b5 (ix1 j)
  W6 j k := W6 (ix2 j k)
  b6 j := b6 (ix1 j)
  W7 j k := W7 (ix2 j k)
  b7 j := b7 (ix1 j)

/-- The result array: at `(r, q)` the softmax at `q` of the logits of row `r`. -/
def resultOf (P : Params) (X : (⟨2, ![1000000, 9]⟩ : Shape).Idx → EReal)
    (M1 M2 M3 : (⟨2, ![1000000, 12]⟩ : Shape).Idx → EReal) : (⟨2, ![1000000, 2]⟩ : Shape).Idx → EReal :=
  fun i => rowG P (fun k => X (ix2 ⟨(i 0).val, idx2_lt0 i⟩ k)) (fun j => M1 (ix2 ⟨(i 0).val, idx2_lt0 i⟩ j))
    (fun j => M2 (ix2 ⟨(i 0).val, idx2_lt0 i⟩ j)) (fun j => M3 (ix2 ⟨(i 0).val, idx2_lt0 i⟩ j)) ⟨(i 1).val, idx2_lt1 i⟩

theorem resultOf_apply (P : Params) (X : (⟨2, ![1000000, 9]⟩ : Shape).Idx → EReal)
    (M1 M2 M3 : (⟨2, ![1000000, 12]⟩ : Shape).Idx → EReal) (r : Fin 1000000) (q : Fin 2) :
    resultOf P X M1 M2 M3 (ix2 r q)
      = rowG P (fun k => X (ix2 r k)) (fun j => M1 (ix2 r j)) (fun j => M2 (ix2 r j)) (fun j => M3 (ix2 r j)) q := rfl

end Cert.Spec

end
-- ==== Proof.KI.Weights.lean ====
/-
  The weights the kernel's blocks hold are the argument arrays' weights.

  Each weight or bias window's block is its whole array, at block index zero at every grid point. A bias array is
  the argument itself; a weight array is what the host operations before the region made of the argument: its
  transpose, then a change of float format that on the extended reals is the identity. So entry `(k, j)` of a
  weight block is entry `(j, k)` of the argument: the row parameters read off the blocks are those read off the
  arguments.
-/
import proofs.«129686_j45792941310687_1_alg».proof.Proof.KI.Data
import proofs.«129686_j45792941310687_1_alg».proof.Proof.SpecArr
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ### A weight or bias window's block is its whole array; a weight array is the argument transposed -/

/-- Window 1's block is the array `main_v1`, whole at block index zero at every point. -/
theorem iblk1_eq (c : Dev nD) (t : Fin cfg0.N) : (iblk m c 1 t : S9x12.Idx → EReal) = V m c main_v1 := by
  unfold iblk
  have hz : (fun a => (win0_1.index t) a * main_v1.ty.shape.size a) = fun _ => 0 := by
    funext a
    match a with
    | ⟨0, _⟩ => rfl
    | ⟨1, _⟩ => rfl
  exact Memref.read_access_unit_zero (Elt Ideal) main_v1 hz _ _

/-- The array `main_v1` when the region is entered: the transpose of `main_arg1`, its float format changed. -/
theorem V1_eq (c : Dev nD) : @Eq (S9x12.Idx → EReal) (V m c main_v1)
    (truncf (F := Ideal) .bf16 (transpose S9x12 [1, 0] (m ((c : Thread nD τ).loc main_arg1)) transposes_S12x9_S9x12_1_0) bitsLt_bf16_f32) := by
  dsimp only [Gen.V, Gen.hostOps0]
  after_results

/-- Entry `(k, j)` of window 1's block is entry `(j, k)` of `main_arg1`. -/
theorem w1_apply (c : Dev nD) (t : Fin cfg0.N) (k : Fin 9) (j : Fin 12) :
    (iblk m c 1 t : S9x12.Idx → EReal) (ix2 k j) = (m ((c : Thread nD τ).loc main_arg1) : S12x9.Idx → EReal) (ix2 j k) := by
  rw [iblk1_eq, V1_eq]
  refine (truncf_apply _ bitsLt_bf16_f32 (ix2 k j)).trans ?_
  exact transpose_apply [1, 0] _ transposes_S12x9_S9x12_1_0 (ix2 k j) (ix2 j k) (fun b => match b with
    | ⟨0, _⟩ => rfl
    | ⟨1, _⟩ => rfl)

/-- Window 2's block is the argument `main_arg2`, whole at block index zero at every point. -/
theorem iblk2_eq (c : Dev nD) (t : Fin cfg0.N) : (iblk m c 2 t : S12.Idx → EReal) = m ((c : Thread nD τ).loc main_arg2) := by
  unfold iblk
  have hz : (fun a => (win0_2.index t) a * main_arg2.ty.shape.size a) = fun _ => 0 := by
    funext a
    match a with
    | ⟨0, _⟩ => rfl
  exact (Memref.read_access_unit_zero (Elt Ideal) main_arg2 hz _ _).trans (V_main_arg2 m c)

/-- Window 3's block is the array `main_v3`, whole at block index zero at every point. -/
theorem iblk3_eq (c : Dev nD) (t : Fin cfg0.N) : (iblk m c 3 t : S12x12.Idx → EReal) = V m c main_v3 := by
  unfold iblk
  have hz : (fun a => (win0_3.index t) a * main_v3.ty.shape.size a) = fun _ => 0 := by
    funext a
    match a with
    | ⟨0, _⟩ => rfl
    | ⟨1, _⟩ => rfl
  exact Memref.read_access_unit_zero (Elt Ideal) main_v3 hz _ _

/-- The array `main_v3` when the region is entered: the transpose of `main_arg3`, its float format changed. -/
theorem V3_eq (c : Dev nD) : @Eq (S12x12.Idx → EReal) (V m c main_v3)
    (truncf (F := Ideal) .bf16 (transpose S12x12 [1, 0] (m ((c : Thread nD τ).loc main_arg3)) transposes_S12x12_S12x12_1_0) bitsLt_bf16_f32) := by
  dsimp only [Gen.V, Gen.hostOps0]
  after_results

/-- Entry `(k, j)` of window 3's block is entry `(j, k)` of `main_arg3`. -/
theorem w3_apply (c : Dev nD) (t : Fin cfg0.N) (k : Fin 12) (j : Fin 12) :
    (iblk m c 3 t : S12x12.Idx → EReal) (ix2 k j) = (m ((c : Thread nD τ).loc main_arg3) : S12x12.Idx → EReal) (ix2 j k) := by
  rw [iblk3_eq, V3_eq]
  refine (truncf_apply _ bitsLt_bf16_f32 (ix2 k j)).trans ?_
  exact transpose_apply [1, 0] _ transposes_S12x12_S12x12_1_0 (ix2 k j) (ix2 j k) (fun b => match b with
    | ⟨0, _⟩ => rfl
    | ⟨1, _⟩ => rfl)

/-- Window 4's block is the argument `main_arg4`, whole at block index zero at every point. -/
theorem iblk4_eq (c : Dev nD) (t : Fin cfg0.N) : (iblk m c 4 t : S12.Idx → EReal) = m ((c : Thread nD τ).loc main_arg4) := by
  unfold iblk
  have hz : (fun a => (win0_4.index t) a * main_arg4.ty.shape.size a) = fun _ => 0 := by
    funext a
    match a with
    | ⟨0, _⟩ => rfl
  exact (Memref.read_access_unit_zero (Elt Ideal) main_arg4 hz _ _).trans (V_main_arg4 m c)

/-- Window 5's block is the array `main_v5`, whole at block index zero at every point. -/
theorem iblk5_eq (c : Dev nD) (t : Fin cfg0.N) : (iblk m c 5 t : S12x12.Idx → EReal) = V m c main_v5 := by
  unfold iblk
  have hz : (fun a => (win0_5.index t) a * main_v5.ty.shape.size a) = fun _ => 0 := by
    funext a
    match a with
    | ⟨0, _⟩ => rfl
    | ⟨1, _⟩ => rfl
  exact Memref.read_access_unit_zero (Elt Ideal) main_v5 hz _ _

/-- The array `main_v5` when the region is entered: the transpose of `main_arg5`, its float format changed. -/
theorem V5_eq (c : Dev nD) : @Eq (S12x12.Idx → EReal) (V m c main_v5)
    (truncf (F := Ideal) .bf16 (transpose S12x12 [1, 0] (m ((c : Thread nD τ).loc main_arg5)) transposes_S12x12_S12x12_1_0) bitsLt_bf16_f32) := by
  dsimp only [Gen.V, Gen.hostOps0]
  after_results

/-- Entry `(k, j)` of window 5's block is entry `(j, k)` of `main_arg5`. -/
theorem w5_apply (c : Dev nD) (t : Fin cfg0.N) (k : Fin 12) (j : Fin 12) :
    (iblk m c 5 t : S12x12.Idx → EReal) (ix2 k j) = (m ((c : Thread nD τ).loc main_arg5) : S12x12.Idx → EReal) (ix2 j k) := by
  rw [iblk5_eq, V5_eq]
  refine (truncf_apply _ bitsLt_bf16_f32 (ix2 k j)).trans ?_
  exact transpose_apply [1, 0] _ transposes_S12x12_S12x12_1_0 (ix2 k j) (ix2 j k) (fun b => match b with
    | ⟨0, _⟩ => rfl
    | ⟨1, _⟩ => rfl)

/-- Window 6's block is the argument `main_arg6`, whole at block index zero at every point. -/
theorem iblk6_eq (c : Dev nD) (t : Fin cfg0.N) : (iblk m c 6 t : S12.Idx → EReal) = m ((c : Thread nD τ).loc main_arg6) := by
  unfold iblk
  have hz : (fun a => (win0_6.index t) a * main_arg6.ty.shape.size a) = fun _ => 0 := by
    funext a
    match a with
    | ⟨0, _⟩ => rfl
  exact (Memref.read_access_unit_zero (Elt Ideal) main_arg6 hz _ _).trans (V_main_arg6 m c)

/-- Window 7's block is the array `main_v7`, whole at block index zero at every point. -/
theorem iblk7_eq (c : Dev nD) (t : Fin cfg0.N) : (iblk m c 7 t : S12x12.Idx → EReal) = V m c main_v7 := by
  unfold iblk
  have hz : (fun a => (win0_7.index t) a * main_v7.ty.shape.size a) = fun _ => 0 := by
    funext a
    match a with
    | ⟨0, _⟩ => rfl
    | ⟨1, _⟩ => rfl
  exact Memref.read_access_unit_zero (Elt Ideal) main_v7 hz _ _

/-- The array `main_v7` when the region is entered: the transpose of `main_arg7`, its float format changed. -/
theorem V7_eq (c : Dev nD) : @Eq (S12x12.Idx → EReal) (V m c main_v7)
    (truncf (F := Ideal) .bf16 (transpose S12x12 [1, 0] (m ((c : Thread nD τ).loc main_arg7)) transposes_S12x12_S12x12_1_0) bitsLt_bf16_f32) := by
  dsimp only [Gen.V, Gen.hostOps0]
  after_results

/-- Entry `(k, j)` of window 7's block is entry `(j, k)` of `main_arg7`. -/
theorem w7_apply (c : Dev nD) (t : Fin cfg0.N) (k : Fin 12) (j : Fin 12) :
    (iblk m c 7 t : S12x12.Idx → EReal) (ix2 k j) = (m ((c : Thread nD τ).loc main_arg7) : S12x12.Idx → EReal) (ix2 j k) := by
  rw [iblk7_eq, V7_eq]
  refine (truncf_apply _ bitsLt_bf16_f32 (ix2 k j)).trans ?_
  exact transpose_apply [1, 0] _ transposes_S12x12_S12x12_1_0 (ix2 k j) (ix2 j k) (fun b => match b with
    | ⟨0, _⟩ => rfl
    | ⟨1, _⟩ => rfl)

/-- Window 8's block is the argument `main_arg8`, whole at block index zero at every point. -/
theorem iblk8_eq (c : Dev nD) (t : Fin cfg0.N) : (iblk m c 8 t : S12.Idx → EReal) = m ((c : Thread nD τ).loc main_arg8) := by
  unfold iblk
  have hz : (fun a => (win0_8.index t) a * main_arg8.ty.shape.size a) = fun _ => 0 := by
    funext a
    match a with
    | ⟨0, _⟩ => rfl
  exact (Memref.read_access_unit_zero (Elt Ideal) main_arg8 hz _ _).trans (V_main_arg8 m c)

/-- Window 9's block is the array `main_v9`, whole at block index zero at every point. -/
theorem iblk9_eq (c : Dev nD) (t : Fin cfg0.N) : (iblk m c 9 t : S12x12.Idx → EReal) = V m c main_v9 := by
  unfold iblk
  have hz : (fun a => (win0_9.index t) a * main_v9.ty.shape.size a) = fun _ => 0 := by
    funext a
    match a with
    | ⟨0, _⟩ => rfl
    | ⟨1, _⟩ => rfl
  exact Memref.read_access_unit_zero (Elt Ideal) main_v9 hz _ _

/-- The array `main_v9` when the region is entered: the transpose of `main_arg9`, its float format changed. -/
theorem V9_eq (c : Dev nD) : @Eq (S12x12.Idx → EReal) (V m c main_v9)
    (truncf (F := Ideal) .bf16 (transpose S12x12 [1, 0] (m ((c : Thread nD τ).loc main_arg9)) transposes_S12x12_S12x12_1_0) bitsLt_bf16_f32) := by
  dsimp only [Gen.V, Gen.hostOps0]
  after_results

/-- Entry `(k, j)` of window 9's block is entry `(j, k)` of `main_arg9`. -/
theorem w9_apply (c : Dev nD) (t : Fin cfg0.N) (k : Fin 12) (j : Fin 12) :
    (iblk m c 9 t : S12x12.Idx → EReal) (ix2 k j) = (m ((c : Thread nD τ).loc main_arg9) : S12x12.Idx → EReal) (ix2 j k) := by
  rw [iblk9_eq, V9_eq]
  refine (truncf_apply _ bitsLt_bf16_f32 (ix2 k j)).trans ?_
  exact transpose_apply [1, 0] _ transposes_S12x12_S12x12_1_0 (ix2 k j) (ix2 j k) (fun b => match b with
    | ⟨0, _⟩ => rfl
    | ⟨1, _⟩ => rfl)

/-- Window 10's block is the argument `main_arg10`, whole at block index zero at every point. -/
theorem iblk10_eq (c : Dev nD) (t : Fin cfg0.N) : (iblk m c 10 t : S12.Idx → EReal) = m ((c : Thread nD τ).loc main_arg10) := by
  unfold iblk
  have hz : (fun a => (win0_10.index t) a * main_arg10.ty.shape.size a) = fun _ => 0 := by
    funext a
    match a with
    | ⟨0, _⟩ => rfl
  exact (Memref.read_access_unit_zero (Elt Ideal) main_arg10 hz _ _).trans (V_main_arg10 m c)

/-- Window 11's block is the array `main_v11`, whole at block index zero at every point. -/
theorem iblk11_eq (c : Dev nD) (t : Fin cfg0.N) : (iblk m c 11 t : S12x12.Idx → EReal) = V m c main_v11 := by
  unfold iblk
  have hz : (fun a => (win0_11.index t) a * main_v11.ty.shape.size a) = fun _ => 0 := by
    funext a
    match a with
    | ⟨0, _⟩ => rfl
    | ⟨1, _⟩ => rfl
  exact Memref.read_access_unit_zero (Elt Ideal) main_v11 hz _ _

/-- The array `main_v11` when the region is entered: the transpose of `main_arg11`, its float format changed. -/
theorem V11_eq (c : Dev nD) : @Eq (S12x12.Idx → EReal) (V m c main_v11)
    (truncf (F := Ideal) .bf16 (transpose S12x12 [1, 0] (m ((c : Thread nD τ).loc main_arg11)) transposes_S12x12_S12x12_1_0) bitsLt_bf16_f32) := by
  dsimp only [Gen.V, Gen.hostOps0]
  after_results

/-- Entry `(k, j)` of window 11's block is entry `(j, k)` of `main_arg11`. -/
theorem w11_apply (c : Dev nD) (t : Fin cfg0.N) (k : Fin 12) (j : Fin 12) :
    (iblk m c 11 t : S12x12.Idx → EReal) (ix2 k j) = (m ((c : Thread nD τ).loc main_arg11) : S12x12.Idx → EReal) (ix2 j k) := by
  rw [iblk11_eq, V11_eq]
  refine (truncf_apply _ bitsLt_bf16_f32 (ix2 k j)).trans ?_
  exact transpose_apply [1, 0] _ transposes_S12x12_S12x12_1_0 (ix2 k j) (ix2 j k) (fun b => match b with
    | ⟨0, _⟩ => rfl
    | ⟨1, _⟩ => rfl)

/-- Window 12's block is the argument `main_arg12`, whole at block index zero at every point. -/
theorem iblk12_eq (c : Dev nD) (t : Fin cfg0.N) : (iblk m c 12 t : S12.Idx → EReal) = m ((c : Thread nD τ).loc main_arg12) := by
  unfold iblk
  have hz : (fun a => (win0_12.index t) a * main_arg12.ty.shape.size a) = fun _ => 0 := by
    funext a
    match a with
    | ⟨0, _⟩ => rfl
  exact (Memref.read_access_unit_zero (Elt Ideal) main_arg12 hz _ _).trans (V_main_arg12 m c)

/-- Window 13's block is the array `main_v13`, whole at block index zero at every point. -/
theorem iblk13_eq (c : Dev nD) (t : Fin cfg0.N) : (iblk m c 13 t : S12x2.Idx → EReal) = V m c main_v13 := by
  unfold iblk
  have hz : (fun a => (win0_13.index t) a * main_v13.ty.shape.size a) = fun _ => 0 := by
    funext a
    match a with
    | ⟨0, _⟩ => rfl
    | ⟨1, _⟩ => rfl
  exact Memref.read_access_unit_zero (Elt Ideal) main_v13 hz _ _

/-- The array `main_v13` when the region is entered: the transpose of `main_arg13`, its float format changed. -/
theorem V13_eq (c : Dev nD) : @Eq (S12x2.Idx → EReal) (V m c main_v13)
    (truncf (F := Ideal) .bf16 (transpose S12x2 [1, 0] (m ((c : Thread nD τ).loc main_arg13)) transposes_S2x12_S12x2_1_0) bitsLt_bf16_f32) := by
  dsimp only [Gen.V, Gen.hostOps0]
  after_results

/-- Entry `(k, j)` of window 13's block is entry `(j, k)` of `main_arg13`. -/
theorem w13_apply (c : Dev nD) (t : Fin cfg0.N) (k : Fin 12) (j : Fin 2) :
    (iblk m c 13 t : S12x2.Idx → EReal) (ix2 k j) = (m ((c : Thread nD τ).loc main_arg13) : S2x12.Idx → EReal) (ix2 j k) := by
  rw [iblk13_eq, V13_eq]
  refine (truncf_apply _ bitsLt_bf16_f32 (ix2 k j)).trans ?_
  exact transpose_apply [1, 0] _ transposes_S2x12_S12x2_1_0 (ix2 k j) (ix2 j k) (fun b => match b with
    | ⟨0, _⟩ => rfl
    | ⟨1, _⟩ => rfl)

/-- Window 14's block is the argument `main_arg14`, whole at block index zero at every point. -/
theorem iblk14_eq (c : Dev nD) (t : Fin cfg0.N) : (iblk m c 14 t : S2.Idx → EReal) = m ((c : Thread nD τ).loc main_arg14) := by
  unfold iblk
  have hz : (fun a => (win0_14.index t) a * main_arg14.ty.shape.size a) = fun _ => 0 := by
    funext a
    match a with
    | ⟨0, _⟩ => rfl
  exact (Memref.read_access_unit_zero (Elt Ideal) main_arg14 hz _ _).trans (V_main_arg14 m c)

/-- The row parameters read off the fourteen weight and bias blocks at any point are those of the arguments. -/
theorem params_blocks (c : Dev nD) (t : Fin cfg0.N) :
    params (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
      = (Cert.Spec.argParams (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  unfold params Cert.Spec.argParams
  congr 1
  · funext j k; exact w1_apply m c t k j
  · funext j; exact congrFun (iblk2_eq m c t) (ix1 j)
  · funext j k; exact w3_apply m c t k j
  · funext j; exact congrFun (iblk4_eq m c t) (ix1 j)
  · funext j k; exact w5_apply m c t k j
  · funext j; exact congrFun (iblk6_eq m c t) (ix1 j)
  · funext j k; exact w7_apply m c t k j
  · funext j; exact congrFun (iblk8_eq m c t) (ix1 j)
  · funext j k; exact w9_apply m c t k j
  · funext j; exact congrFun (iblk10_eq m c t) (ix1 j)
  · funext j k; exact w11_apply m c t k j
  · funext j; exact congrFun (iblk12_eq m c t) (ix1 j)
  · funext j k; exact w13_apply m c t k j
  · funext j; exact congrFun (iblk14_eq m c t) (ix1 j)

end Cert.KernelIdeal.Hand

end
-- ==== Proof.KI.Final.lean ====
/-
  The result array after the run is the row function of the arguments, row by row.

  Point `t` writes back, onto rows `4096 t …` of the result that lie inside the array, the rows of what the body
  left in the result's buffer; row `p` of that is the row function of row `p` of the batch's and the masks' blocks at
  `t`, which are rows `4096 t + p` of the arrays. The 245 blocks cover the one million rows, so the array ends
  holding the row function of every row.
-/
import proofs.«129686_j45792941310687_1_alg».proof.Proof.KI.Data
import proofs.«129686_j45792941310687_1_alg».proof.Proof.KI.StoredRow
import proofs.«129686_j45792941310687_1_alg».proof.Proof.KI.Weights
import proofs.«129686_j45792941310687_1_alg».proof.Proof.SpecArr
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The row parameters read off the argument arrays. -/
abbrev argP (c : Dev nD) : Cert.Spec.Params := Cert.Spec.argParams (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The whole result as the row function gives it from the argument arrays. -/
abbrev argG (c : Dev nD) : (⟨2, ![1000000, 2]⟩ : Shape).Idx → EReal :=
  Cert.Spec.resultOf (argP m c) (m ((c : Thread nD τ).loc main_arg0)) (m ((c : Thread nD τ).loc main_arg15)) (m ((c : Thread nD τ).loc main_arg16)) (m ((c : Thread nD τ).loc main_arg17))

/-- The printed index maps and cuts, decided over the grid: the result's block at point `t` is block `t` of the
    rows, all its lanes, 4096 rows but at the last point, where 576 lie inside the array; the batch's and the masks'
    windows move and are cut on the rows as the result's, and keep all their lanes. -/
theorem idx_facts : ∀ t : Fin cfg0.N,
    win0_18.index t (0 : Fin 2) = t.val ∧ win0_18.index t (1 : Fin 2) = 0
    ∧ win0_18.xsize (grid0.coords t) (1 : Fin 2) = 2
    ∧ (t.val < 244 → win0_18.xsize (grid0.coords t) (0 : Fin 2) = 4096)
    ∧ (t.val = 244 → win0_18.xsize (grid0.coords t) (0 : Fin 2) = 576)
    ∧ win0_0.index t (0 : Fin 2) = win0_18.index t (0 : Fin 2) ∧ win0_0.index t (1 : Fin 2) = 0
    ∧ win0_0.xsize (grid0.coords t) (0 : Fin 2) = win0_18.xsize (grid0.coords t) (0 : Fin 2)
    ∧ win0_0.xsize (grid0.coords t) (1 : Fin 2) = 9
    ∧ win0_15.index t (0 : Fin 2) = win0_18.index t (0 : Fin 2) ∧ win0_15.index t (1 : Fin 2) = 0
    ∧ win0_15.xsize (grid0.coords t) (0 : Fin 2) = win0_18.xsize (grid0.coords t) (0 : Fin 2)
    ∧ win0_15.xsize (grid0.coords t) (1 : Fin 2) = 12
    ∧ win0_16.index t (0 : Fin 2) = win0_18.index t (0 : Fin 2) ∧ win0_16.index t (1 : Fin 2) = 0
    ∧ win0_16.xsize (grid0.coords t) (0 : Fin 2) = win0_18.xsize (grid0.coords t) (0 : Fin 2)
    ∧ win0_16.xsize (grid0.coords t) (1 : Fin 2) = 12
    ∧ win0_17.index t (0 : Fin 2) = win0_18.index t (0 : Fin 2) ∧ win0_17.index t (1 : Fin 2) = 0
    ∧ win0_17.xsize (grid0.coords t) (0 : Fin 2) = win0_18.xsize (grid0.coords t) (0 : Fin 2)
    ∧ win0_17.xsize (grid0.coords t) (1 : Fin 2) = 12 :=
  (by decide +kernel : ∀ t : Fin grid0.N, _)

/-- Row `p` of the batch's filled block at point `t`, a row inside the array, is row `index · 4096 + p` of the batch. -/
theorem xAt_row (c : Dev nD) (t : Fin cfg0.N) (p : Fin 4096) (k : Fin 9) (r : Fin 1000000)
    (hp : p.val < win0_0.xsize (grid0.coords t) (0 : Fin 2)) (h1 : win0_0.xsize (grid0.coords t) (1 : Fin 2) = 9)
    (hr : r.val = win0_0.index t (0 : Fin 2) * 4096 + p.val) (hi1 : win0_0.index t (1 : Fin 2) = 0) :
    xAt m c t (ix2 p k) = (m ((c : Thread nD τ).loc main_arg0)) (ix2 r k) := by
  have hmv : win0_0.moved (grid0.coords t) (ix2 p k) = true := (win0_0.moved_iff _ _).mpr fun a => by
    match a with
    | ⟨0, _⟩ => exact hp
    | ⟨1, _⟩ => show k.val < win0_0.xsize (grid0.coords t) (1 : Fin 2); rw [h1]; exact k.isLt
  unfold xAt Window.fill
  rw [dif_pos hmv]
  unfold iblk
  rw [View.read_apply]
  show V m c main_arg0 _ = _
  rw [V_main_arg0]
  refine congrArg _ (funext fun a => Fin.ext ?_)
  match a with
  | ⟨0, _⟩ =>
    show win0_0.index t (0 : Fin 2) * 4096 + 1 * p.val = r.val
    omega
  | ⟨1, _⟩ =>
    show win0_0.index t (1 : Fin 2) * 9 + 1 * k.val = k.val
    omega

/-- The first mask's likewise, -/
theorem m1At_row (c : Dev nD) (t : Fin cfg0.N) (p : Fin 4096) (k : Fin 12) (r : Fin 1000000)
    (hp : p.val < win0_15.xsize (grid0.coords t) (0 : Fin 2)) (h1 : win0_15.xsize (grid0.coords t) (1 : Fin 2) = 12)
    (hr : r.val = win0_15.index t (0 : Fin 2) * 4096 + p.val) (hi1 : win0_15.index t (1 : Fin 2) = 0) :
    m1At m c t (ix2 p k) = (m ((c : Thread nD τ).loc main_arg15)) (ix2 r k) := by
  have hmv : win0_15.moved (grid0.coords t) (ix2 p k) = true := (win0_15.moved_iff _ _).mpr fun a => by
    match a with
    | ⟨0, _⟩ => exact hp
    | ⟨1, _⟩ => show k.val < win0_15.xsize (grid0.coords t) (1 : Fin 2); rw [h1]; exact k.isLt
  unfold m1At Window.fill
  rw [dif_pos hmv]
  unfold iblk
  rw [View.read_apply]
  show V m c main_arg15 _ = _
  rw [V_main_arg15]
  refine congrArg _ (funext fun a => Fin.ext ?_)
  match a with
  | ⟨0, _⟩ =>
    show win0_15.index t (0 : Fin 2) * 4096 + 1 * p.val = r.val
    omega
  | ⟨1, _⟩ =>
    show win0_15.index t (1 : Fin 2) * 12 + 1 * k.val = k.val
    omega

/-- the second's, -/
theorem m2At_row (c : Dev nD) (t : Fin cfg0.N) (p : Fin 4096) (k : Fin 12) (r : Fin 1000000)
    (hp : p.val < win0_16.xsize (grid0.coords t) (0 : Fin 2)) (h1 : win0_16.xsize (grid0.coords t) (1 : Fin 2) = 12)
    (hr : r.val = win0_16.index t (0 : Fin 2) * 4096 + p.val) (hi1 : win0_16.index t (1 : Fin 2) = 0) :
    m2At m c t (ix2 p k) = (m ((c : Thread nD τ).loc main_arg16)) (ix2 r k) := by
  have hmv : win0_16.moved (grid0.coords t) (ix2 p k) = true := (win0_16.moved_iff _ _).mpr fun a => by
    match a with
    | ⟨0, _⟩ => exact hp
    | ⟨1, _⟩ => show k.val < win0_16.xsize (grid0.coords t) (1 : Fin 2); rw [h1]; exact k.isLt
  unfold m2At Window.fill
  rw [dif_pos hmv]
  unfold iblk
  rw [View.read_apply]
  show V m c main_arg16 _ = _
  rw [V_main_arg16]
  refine congrArg _ (funext fun a => Fin.ext ?_)
  match a with
  | ⟨0, _⟩ =>
    show win0_16.index t (0 : Fin 2) * 4096 + 1 * p.val = r.val
    omega
  | ⟨1, _⟩ =>
    show win0_16.index t (1 : Fin 2) * 12 + 1 * k.val = k.val
    omega

/-- and the third's. -/
theorem m3At_row (c : Dev nD) (t : Fin cfg0.N) (p : Fin 4096) (k : Fin 12) (r : Fin 1000000)
    (hp : p.val < win0_17.xsize (grid0.coords t) (0 : Fin 2)) (h1 : win0_17.xsize (grid0.coords t) (1 : Fin 2) = 12)
    (hr : r.val = win0_17.index t (0 : Fin 2) * 4096 + p.val) (hi1 : win0_17.index t (1 : Fin 2) = 0) :
    m3At m c t (ix2 p k) = (m ((c : Thread nD τ).loc main_arg17)) (ix2 r k) := by
  have hmv : win0_17.moved (grid0.coords t) (ix2 p k) = true := (win0_17.moved_iff _ _).mpr fun a => by
    match a with
    | ⟨0, _⟩ => exact hp
    | ⟨1, _⟩ => show k.val < win0_17.xsize (grid0.coords t) (1 : Fin 2); rw [h1]; exact k.isLt
  unfold m3At Window.fill
  rw [dif_pos hmv]
  unfold iblk
  rw [View.read_apply]
  show V m c main_arg17 _ = _
  rw [V_main_arg17]
  refine congrArg _ (funext fun a => Fin.ext ?_)
  match a with
  | ⟨0, _⟩ =>
    show win0_17.index t (0 : Fin 2) * 4096 + 1 * p.val = r.val
    omega
  | ⟨1, _⟩ =>
    show win0_17.index t (1 : Fin 2) * 12 + 1 * k.val = k.val
    omega

/-- What the body leaves at row `p` of the result's buffer at point `t`, a row inside the array, is the row
    function of row `index · 4096 + p` of the arguments. -/
theorem out_at (c : Dev nD) (t : Fin cfg0.N) (p : Fin 4096) (q : Fin 2) (r : Fin 1000000)
    (hp : p.val < win0_18.xsize (grid0.coords t) (0 : Fin 2)) (hr : r.val = win0_18.index t (0 : Fin 2) * 4096 + p.val) :
    outAt m c t (ix2 p q) = argG m c (ix2 r q) := by
  obtain ⟨e0, e1, e2, e3, e4, a0, a1, a2, a3, b0, b1, b2, b3, c0, c1, c2, c3, d0, d1, d2, d3⟩ := idx_facts t
  unfold outAt
  rw [stored_row, params_blocks]
  show _ = Cert.Spec.resultOf (argP m c) (m ((c : Thread nD τ).loc main_arg0)) (m ((c : Thread nD τ).loc main_arg15)) (m ((c : Thread nD τ).loc main_arg16)) (m ((c : Thread nD τ).loc main_arg17)) (ix2 r q)
  rw [Cert.Spec.resultOf_apply]
  have h0 : (fun k => xAt m c t (ix2 p k)) = fun k => (m ((c : Thread nD τ).loc main_arg0)) (ix2 r k) :=
    funext fun k => xAt_row m c t p k r (by rw [a2]; exact hp) a3 (by rw [a0]; exact hr) a1
  have h15 : (fun j => m1At m c t (ix2 p j)) = fun j => (m ((c : Thread nD τ).loc main_arg15)) (ix2 r j) :=
    funext fun k => m1At_row m c t p k r (by rw [b2]; exact hp) b3 (by rw [b0]; exact hr) b1
  have h16 : (fun j => m2At m c t (ix2 p j)) = fun j => (m ((c : Thread nD τ).loc main_arg16)) (ix2 r j) :=
    funext fun k => m2At_row m c t p k r (by rw [c2]; exact hp) c3 (by rw [c0]; exact hr) c1
  have h17 : (fun j => m3At m c t (ix2 p j)) = fun j => (m ((c : Thread nD τ).loc main_arg17)) (ix2 r j) :=
    funext fun k => m3At_row m c t p k r (by rw [d2]; exact hp) d3 (by rw [d0]; exact hr) d1
  rw [h0, h15, h16, h17]

/-- What point `t` writes back is block `t` of the row function's array. -/
theorem flushed18_eq (c : Dev nD) (t : Fin cfg0.N) :
    (dats m 0 c).flushed 18 t = ((cfg0.win 18).blk t).view.read (Elt Ideal) (argG m c) := by
  show (cfg0.win 18).cut (grid0.coords t) ((dats m 0 c).after 18 t) = _
  rw [after0_18]
  obtain ⟨e0, e1, e2, e3, e4, -⟩ := idx_facts t
  have hN : t.val < 245 := N_0 ▸ t.isLt
  funext j
  have hj0 : (j 0).val < win0_18.xsize (grid0.coords t) (0 : Fin 2) := (j 0).isLt
  have hj1 : (j 1).val < win0_18.xsize (grid0.coords t) (1 : Fin 2) := (j 1).isLt
  rw [e2] at hj1
  have hx : win0_18.xsize (grid0.coords t) (0 : Fin 2) ≤ 4096 := win0_18.xsize_le _ _
  have hb : win0_18.index t (0 : Fin 2) * 4096 + win0_18.xsize (grid0.coords t) (0 : Fin 2) ≤ 1000000 := by
    rw [e0]; rcases Nat.lt_or_ge t.val 244 with h | h
    · rw [e3 h]; omega
    · rw [e4 (by omega)]; omega
  have hL : win0_18.xinj (grid0.coords t) j = ix2 (⟨(j 0).val, by omega⟩ : Fin 4096) (⟨(j 1).val, hj1⟩ : Fin 2) :=
    funext fun a => by match a with | ⟨0, _⟩ => rfl | ⟨1, _⟩ => rfl
  have hR : ((cfg0.win 18).blk t).view.emb j
      = ix2 (⟨win0_18.index t (0 : Fin 2) * 4096 + (j 0).val, by omega⟩ : Fin 1000000) (⟨(j 1).val, hj1⟩ : Fin 2) := by
    funext a; apply Fin.ext
    match a with
    | ⟨0, _⟩ =>
      show win0_18.index t (0 : Fin 2) * 4096 + 1 * (j 0).val = win0_18.index t (0 : Fin 2) * 4096 + (j 0).val
      omega
    | ⟨1, _⟩ =>
      show win0_18.index t (1 : Fin 2) * 2 + 1 * (j 1).val = (j 1).val
      omega
  show outAt m c t (win0_18.xinj (grid0.coords t) j) = argG m c (((cfg0.win 18).blk t).view.emb j)
  rw [hL, hR]
  exact out_at m c t _ _ _ hj0 rfl

/-- An index of the result is in point `t`'s block iff its row is among the block's rows inside the array. -/
theorem mem_blk18 (t : Fin cfg0.N) (i : S1000000x2.Idx) :
    i ∈ ((cfg0.win 18).blk t).view.set ↔ win0_18.index t (0 : Fin 2) * 4096 ≤ (i 0).val
      ∧ (i 0).val < win0_18.index t (0 : Fin 2) * 4096 + win0_18.xsize (grid0.coords t) (0 : Fin 2) := by
  show i ∈ ((View.whole main_v14).slice (win0_18.rect t)).set ↔ _
  rw [View.set_slice_whole, Rect.mem_set_unit]
  obtain ⟨e0, e1, e2, -⟩ := idx_facts t
  have h1 : (i 1).val < 2 := (i 1).isLt
  refine ⟨fun h => h 0, fun h a => ?_⟩
  match a with
  | ⟨0, _⟩ => exact h
  | ⟨1, _⟩ =>
    show win0_18.index t (1 : Fin 2) * 2 ≤ (i 1).val
      ∧ (i 1).val < win0_18.index t (1 : Fin 2) * 2 + win0_18.xsize (grid0.coords t) (1 : Fin 2)
    rw [e1, e2]; omega

/-- Every index of the result lies in the block of the point its row divided by 4096 names. -/
theorem cover18 (i : S1000000x2.Idx) :
    ∃ t : Fin cfg0.N, (cfg0.win 18).flush t = true ∧ i ∈ ((cfg0.win 18).blk t).view.set := by
  have hi : (i 0).val < 1000000 := (i 0).isLt
  obtain ⟨t, ht⟩ : ∃ t : Fin cfg0.N, t.val = (i 0).val / 4096 :=
    ⟨⟨(i 0).val / 4096, by rw [show cfg0.N = 245 from N_0]; omega⟩, rfl⟩
  obtain ⟨e0, e1, e2, e3, e4, -⟩ := idx_facts t
  refine ⟨t, flush0_18 t, ?_⟩
  rw [mem_blk18, e0]
  rcases Nat.lt_or_ge t.val 244 with h | h
  · rw [e3 h]; omega
  · rw [e4 (by omega)]; omega

/-- The result array after every write-back. -/
theorem final_out (c : Dev nD) :
    (dats (F := Ideal) m 0 c).arrAt 18 cfg0.N
      = Cert.Spec.resultOf (Cert.Spec.argParams (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
          (m ((c : Thread nD τ).loc main_arg0)) (m ((c : Thread nD τ).loc main_arg15)) (m ((c : Thread nD τ).loc main_arg16)) (m ((c : Thread nD τ).loc main_arg17)) := by
  exact (dats (F := Ideal) m 0 c).arrAt_eq_of_cover 18 (argG m c) (fun t _ => flushed18_eq m c t) cover18

end Cert.KernelIdeal.Hand

end
-- ==== Proof.RefRow.lean ====
/-
  The reference's result at row `r` is the row function of row `r` of the batch and of the masks.
-/
import proofs.«129686_j45792941310687_1_alg».proof.Proof.Gen.ReferenceIdeal.Read
import proofs.«129686_j45792941310687_1_alg».proof.Proof.Spec
import Idealize.ShloMosaic.Lib.ValueIdx
import Idealize.ShloMosaic.PureOps.Ideal.Laws

noncomputable section

namespace Cert.RefRow

open Cert.ReferenceIdeal Cert.ReferenceIdeal.Gen Cert.ReferenceIdeal.Read
open Idealize.ShloMosaic Idealize.ShloMosaic.ValueIdx

/-- The layers' weights and biases as the reference's argument arrays hold them: weight `(j, k)` at `(j, k)`. -/
def params (W1 : (⟨S12x9, .f32⟩ : BufTy).Contents (Elt Ideal)) (b1 : (⟨S12, .f32⟩ : BufTy).Contents (Elt Ideal))
    (W2 : (⟨S12x12, .f32⟩ : BufTy).Contents (Elt Ideal)) (b2 : (⟨S12, .f32⟩ : BufTy).Contents (Elt Ideal))
    (W3 : (⟨S12x12, .f32⟩ : BufTy).Contents (Elt Ideal)) (b3 : (⟨S12, .f32⟩ : BufTy).Contents (Elt Ideal))
    (W4 : (⟨S12x12, .f32⟩ : BufTy).Contents (Elt Ideal)) (b4 : (⟨S12, .f32⟩ : BufTy).Contents (Elt Ideal))
    (W5 : (⟨S12x12, .f32⟩ : BufTy).Contents (Elt Ideal)) (b5 : (⟨S12, .f32⟩ : BufTy).Contents (Elt Ideal))
    (W6 : (⟨S12x12, .f32⟩ : BufTy).Contents (Elt Ideal)) (b6 : (⟨S12, .f32⟩ : BufTy).Contents (Elt Ideal))
    (W7 : (⟨S2x12, .f32⟩ : BufTy).Contents (Elt Ideal)) (b7 : (⟨S2, .f32⟩ : BufTy).Contents (Elt Ideal)) : Cert.Spec.Params where
  W1 j k := W1 (ix2 j k)
  b1 j := b1 (ix1 j)
  W2 j k := W2 (ix2 j k)
  b2 j := b2 (ix1 j)
  W3 j k := W3 (ix2 j k)
  b3 j := b3 (ix1 j)
  W4 j k := W4 (ix2 j k)
  b4 j := b4 (ix1 j)
  W5 j k := W5 (ix2 j k)
  b5 j := b5 (ix1 j)
  W6 j k := W6 (ix2 j k)
  b6 j := b6 (ix1 j)
  W7 j k := W7 (ix2 j k)
  b7 j := b7 (ix1 j)

/-- An f32 array of shape `s` at the ideal values. -/
abbrev Arr (s : Shape) : Type := (⟨s, .f32⟩ : BufTy).Contents (Elt Ideal)

/-! ## The composed index functions at `(r, j)` -/

theorem lidx1 (r : Fin 1000000) (j : Fin 12) (k : Fin 9) : lidx_main_v1 (ix2 r j) k = ix2 r k :=
  funext fun a => by match a with | ⟨0, _⟩ => rfl | ⟨1, _⟩ => rfl

theorem ridx1 (r : Fin 1000000) (j : Fin 12) (k : Fin 9) : idx_main_v0 (ridx_main_v1 (ix2 r j) k) = ix2 j k :=
  funext fun a => by match a with | ⟨0, _⟩ => rfl | ⟨1, _⟩ => rfl

theorem bidx3 (r : Fin 1000000) (j : Fin 12) : idx_main_v2 (idx_main_v3 (ix2 r j)) = ix1 j :=
  funext fun a => by match a with | ⟨0, _⟩ => rfl

theorem lidx7 (r : Fin 1000000) (j : Fin 12) (k : Fin 12) : lidx_main_v7 (ix2 r j) k = ix2 r k :=
  funext fun a => by match a with | ⟨0, _⟩ => rfl | ⟨1, _⟩ => rfl

theorem ridx7 (r : Fin 1000000) (j : Fin 12) (k : Fin 12) : idx_main_v6 (ridx_main_v7 (ix2 r j) k) = ix2 j k :=
  funext fun a => by match a with | ⟨0, _⟩ => rfl | ⟨1, _⟩ => rfl

theorem bidx9 (r : Fin 1000000) (j : Fin 12) : idx_main_v8 (idx_main_v9 (ix2 r j)) = ix1 j :=
  funext fun a => by match a with | ⟨0, _⟩ => rfl

theorem lidx40 (r : Fin 1000000) (q : Fin 2) (k : Fin 12) : lidx_main_v40 (ix2 r q) k = ix2 r k :=
  funext fun a => by match a with | ⟨0, _⟩ => rfl | ⟨1, _⟩ => rfl

theorem ridx40 (r : Fin 1000000) (q : Fin 2) (k : Fin 12) : idx_main_v39 (ridx_main_v40 (ix2 r q) k) = ix2 q k :=
  funext fun a => by match a with | ⟨0, _⟩ => rfl | ⟨1, _⟩ => rfl

theorem bidx42 (r : Fin 1000000) (q : Fin 2) : idx_main_v41 (idx_main_v42 (ix2 r q)) = ix1 q :=
  funext fun a => by match a with | ⟨0, _⟩ => rfl

theorem ridx48 (r : Fin 1000000) (q : Fin 2) : idx_main_v47 (idx_main_v48 (ix2 r q)) = ix1 r :=
  funext fun a => by match a with | ⟨0, _⟩ => rfl

theorem ridx53 (r : Fin 1000000) (q : Fin 2) : idx_main_v52 (idx_main_v53 (ix2 r q)) = ix1 r :=
  funext fun a => by match a with | ⟨0, _⟩ => rfl

theorem ridx51 (r : Fin 1000000) (k : Fin 2) : idx_main_v51 (ix1 r) k = ix2 r k :=
  funext fun a => by match a with | ⟨0, _⟩ => rfl | ⟨1, _⟩ => rfl

/-! ## The layers -/

/-- The first hidden layer at `(r, j)`. -/
theorem layer1 (x0 : Arr S1000000x9) (x1 : Arr S12x9) (x2 : Arr S12) (r : Fin 1000000) (j : Fin 12) :
    val_main_v5 (F := Ideal) x0 x1 x2 (ix2 r j)
      = Cert.Spec.hidden (fun k => x0 (ix2 r k)) (fun j k => x1 (ix2 j k)) (fun j => x2 (ix1 j)) j := by
  rw [val_main_v5_apply, val_main_v4_apply, val_main_v1_apply, val_main_v3_apply, val_main_v2_apply,
    val_main_call0_v0_apply, val_main_call0_cst_apply]
  simp only [val_main_v0_apply, lidx1, ridx1, bidx3]
  rfl

/-- A product of a `[1000000, 12]` array with a `[12, 12]` one, contracted over the inner axis, at an index:
    the sum over the twelve contracted coordinates. -/
theorem dot12_apply (y0 : Arr S1000000x12) (y1 : Arr S12x12) (i : S1000000x12.Idx) :
    Host.dotGeneral (F := Ideal) (φ₁ := .f32) (φ₂ := .f32) dot_S1000000x12_S12x12_S1000000x12_1_0_0_1_n_n none y0 y1 i
      = ∑ k : Fin 12, y0 (lidx_main_v7 i k) * y1 (ridx_main_v7 i k) := by
  simp only [Host.dotGeneral]
  rw [Ideal.dotGeneral_apply, ← Equiv.sum_comp (ValueIdx.contrEquiv1 dot_S1000000x12_S12x12_S1000000x12_1_0_0_1_n_n 12 rfl rfl).symm]
  refine Finset.sum_congr rfl fun k _ => ?_
  have hk := ValueIdx.contrEquiv1_symm_val dot_S1000000x12_S12x12_S1000000x12_1_0_0_1_n_n 12 rfl rfl k
  have el : dot_S1000000x12_S12x12_S1000000x12_1_0_0_1_n_n.lhsIdx i ((ValueIdx.contrEquiv1 dot_S1000000x12_S12x12_S1000000x12_1_0_0_1_n_n 12 rfl rfl).symm k) = lidx_main_v7 i k :=
    funext fun a => Fin.ext (by
      match a with
      | ⟨0, _⟩ => exact lhs_main_v7_0 _ _
      | ⟨1, _⟩ => exact (lhs_main_v7_1 _ _).trans hk)
  have er : dot_S1000000x12_S12x12_S1000000x12_1_0_0_1_n_n.rhsIdx i ((ValueIdx.contrEquiv1 dot_S1000000x12_S12x12_S1000000x12_1_0_0_1_n_n 12 rfl rfl).symm k) = ridx_main_v7 i k :=
    funext fun a => Fin.ext (by
      match a with
      | ⟨0, _⟩ => exact (rhs_main_v7_0 _ _).trans hk
      | ⟨1, _⟩ => exact rhs_main_v7_1 _ _)
  rw [el, er]

/-- A later hidden layer at `(r, j)`, whatever array `prev` it reads, given that array's row `r`. -/
theorem hidden12 (prev : Arr S1000000x12) (W : Arr S12x12) (b : Arr S12) (r : Fin 1000000)
    (h : Fin 12 → EReal) (hp : ∀ k, prev (ix2 r k) = h k) (j : Fin 12) :
    maximumf (F := Ideal) (addf (F := Ideal) (Host.dotGeneral (F := Ideal) (φ₁ := .f32) (φ₂ := .f32) dot_S1000000x12_S12x12_S1000000x12_1_0_0_1_n_n none prev (val_main_v6 (F := Ideal) W))
        (val_main_v9 (F := Ideal) b)) (val_main_call1_v0 (F := Ideal)) (ix2 r j)
      = Cert.Spec.hidden h (fun j k => W (ix2 j k)) (fun j => b (ix1 j)) j := by
  show FloatOps.maximumf (F := Ideal) (φ := .f32) (FloatOps.addf (F := Ideal) (φ := .f32) (Host.dotGeneral (F := Ideal) (φ₁ := .f32) (φ₂ := .f32) dot_S1000000x12_S12x12_S1000000x12_1_0_0_1_n_n none prev (val_main_v6 (F := Ideal) W) (ix2 r j))
    (val_main_v9 (F := Ideal) b (ix2 r j))) (val_main_call1_v0 (F := Ideal) (ix2 r j)) = _
  rw [dot12_apply, val_main_v9_apply, val_main_v8_apply, val_main_call1_v0_apply, val_main_call1_cst_apply]
  simp only [val_main_v6_apply, lidx7, ridx7, bidx9, hp]
  rfl

section Rows

variable (x0 : Arr S1000000x9) (x1 : Arr S12x9) (x2 : Arr S12) (x3 : Arr S12x12) (x4 : Arr S12)
  (x5 : Arr S12x12) (x6 : Arr S12) (x7 : Arr S12x12) (x8 : Arr S12) (x9 : Arr S12x12) (x10 : Arr S12)
  (x11 : Arr S12x12) (x12 : Arr S12) (x13 : Arr S2x12) (x14 : Arr S2) (x15 x16 x17 : Arr S1000000x12)
  (r : Fin 1000000)

/-- The seventh layer's result at `(r, q)`: logit `q` of row `r`. -/
theorem logits_row (q : Fin 2) :
    val_main_v43 (F := Ideal) x0 x1 x2 x3 x4 x5 x6 x7 x8 x9 x10 x11 x12 x13 x14 x15 x16 x17 (ix2 r q)
      = Cert.Spec.logits (params x1 x2 x3 x4 x5 x6 x7 x8 x9 x10 x11 x12 x13 x14) (fun k => x0 (ix2 r k))
          (fun j => x15 (ix2 r j)) (fun j => x16 (ix2 r j)) (fun j => x17 (ix2 r j)) q := by
  have h5 := layer1 x0 x1 x2 r
  have h11 : ∀ j, val_main_v11 (F := Ideal) x0 x1 x2 x3 x4 (ix2 r j) = _ :=
    hidden12 (val_main_v5 (F := Ideal) x0 x1 x2) x3 x4 r _ h5
  have h12 : ∀ j, val_main_v12 (F := Ideal) x0 x1 x2 x3 x4 x15 (ix2 r j) = _ :=
    fun j => congrArg (fun t : EReal => t * (x15 (ix2 r j) : EReal)) (h11 j)
  have h18 : ∀ j, val_main_v18 (F := Ideal) x0 x1 x2 x3 x4 x5 x6 x15 (ix2 r j) = _ :=
    hidden12 (val_main_v12 (F := Ideal) x0 x1 x2 x3 x4 x15) x5 x6 r _ h12
  have h24 : ∀ j, val_main_v24 (F := Ideal) x0 x1 x2 x3 x4 x5 x6 x7 x8 x15 (ix2 r j) = _ :=
    hidden12 (val_main_v18 (F := Ideal) x0 x1 x2 x3 x4 x5 x6 x15) x7 x8 r _ h18
  have h25 : ∀ j, val_main_v25 (F := Ideal) x0 x1 x2 x3 x4 x5 x6 x7 x8 x15 x16 (ix2 r j) = _ :=
    fun j => congrArg (fun t : EReal => t * (x16 (ix2 r j) : EReal)) (h24 j)
  have h31 : ∀ j, val_main_v31 (F := Ideal) x0 x1 x2 x3 x4 x5 x6 x7 x8 x9 x10 x15 x16 (ix2 r j) = _ :=
    hidden12 (val_main_v25 (F := Ideal) x0 x1 x2 x3 x4 x5 x6 x7 x8 x15 x16) x9 x10 r _ h25
  have h32 : ∀ j, val_main_v32 (F := Ideal) x0 x1 x2 x3 x4 x5 x6 x7 x8 x9 x10 x15 x16 x17 (ix2 r j) = _ :=
    fun j => congrArg (fun t : EReal => t * (x17 (ix2 r j) : EReal)) (h31 j)
  have h38 : ∀ j, val_main_v38 (F := Ideal) x0 x1 x2 x3 x4 x5 x6 x7 x8 x9 x10 x11 x12 x15 x16 x17 (ix2 r j) = _ :=
    hidden12 (val_main_v32 (F := Ideal) x0 x1 x2 x3 x4 x5 x6 x7 x8 x9 x10 x15 x16 x17) x11 x12 r _ h32
  rw [val_main_v43_apply, val_main_v40_apply, val_main_v42_apply, val_main_v41_apply]
  simp only [val_main_v39_apply, lidx40, ridx40, bidx42, h38]
  rfl

/-- The maximum the reference reduces row `r` of the logits to: the fold of `max` from the `-∞` word over the row. -/
theorem max_row :
    val_main_v44 (F := Ideal) x0 x1 x2 x3 x4 x5 x6 x7 x8 x9 x10 x11 x12 x13 x14 x15 x16 x17 (ix1 r)
      = (Finset.univ : Finset (Fin 2)).fold max Cert.Spec.negInfW (fun k => val_main_v43 (F := Ideal) x0 x1 x2 x3 x4 x5 x6 x7 x8 x9 x10 x11 x12 x13 x14 x15 x16 x17 (ix2 r k)) := by
  have hR : S1000000x2.Reduces [1] S1000000 := by decide
  unfold val_main_v44
  rw [Host.reduce_eq_fold_single FloatOps.maximumf _ _ reducesTo_S1000000x2_S1000000_d1 hR h_S_]
  have hl : (val_main_v43 (F := Ideal) x0 x1 x2 x3 x4 x5 x6 x7 x8 x9 x10 x11 x12 x13 x14 x15 x16 x17) ∘ hR.lift (ix1 r) = fun k => val_main_v43 (F := Ideal) x0 x1 x2 x3 x4 x5 x6 x7 x8 x9 x10 x11 x12 x13 x14 x15 x16 x17 (ix2 r k) :=
    funext fun k => congrArg (val_main_v43 (F := Ideal) x0 x1 x2 x3 x4 x5 x6 x7 x8 x9 x10 x11 x12 x13 x14 x15 x16 x17)
      (funext fun a => Fin.ext (by match a with | ⟨0, _⟩ => rfl | ⟨1, _⟩ => rfl))
  rw [hl]
  rfl

/-- The value subtracted from row `r`'s logits. -/
theorem rowmax_row (q : Fin 2) :
    val_main_v48 (F := Ideal) x0 x1 x2 x3 x4 x5 x6 x7 x8 x9 x10 x11 x12 x13 x14 x15 x16 x17 (ix2 r q) = Cert.Spec.rowMax (fun k => val_main_v43 (F := Ideal) x0 x1 x2 x3 x4 x5 x6 x7 x8 x9 x10 x11 x12 x13 x14 x15 x16 x17 (ix2 r k)) := by
  rw [val_main_v48_apply, val_main_v47_apply, ridx48, val_main_v46_apply, val_main_v45_apply, val_main_cst_0_apply, max_row]
  rfl

/-- The exponential at `(r, q)`. -/
theorem exp_row (q : Fin 2) :
    val_main_v50 (F := Ideal) x0 x1 x2 x3 x4 x5 x6 x7 x8 x9 x10 x11 x12 x13 x14 x15 x16 x17 (ix2 r q)
      = Ideal.exp (val_main_v43 (F := Ideal) x0 x1 x2 x3 x4 x5 x6 x7 x8 x9 x10 x11 x12 x13 x14 x15 x16 x17 (ix2 r q) - Cert.Spec.rowMax (fun k => val_main_v43 (F := Ideal) x0 x1 x2 x3 x4 x5 x6 x7 x8 x9 x10 x11 x12 x13 x14 x15 x16 x17 (ix2 r k))) := by
  rw [val_main_v50_apply, val_main_v49_apply, rowmax_row]
  rfl

/-- The denominator at `(r, q)`: the sum of row `r`'s two exponentials. -/
theorem sum_row (q : Fin 2) :
    val_main_v53 (F := Ideal) x0 x1 x2 x3 x4 x5 x6 x7 x8 x9 x10 x11 x12 x13 x14 x15 x16 x17 (ix2 r q)
      = ∑ k : Fin 2, Ideal.exp (val_main_v43 (F := Ideal) x0 x1 x2 x3 x4 x5 x6 x7 x8 x9 x10 x11 x12 x13 x14 x15 x16 x17 (ix2 r k) - Cert.Spec.rowMax (fun k => val_main_v43 (F := Ideal) x0 x1 x2 x3 x4 x5 x6 x7 x8 x9 x10 x11 x12 x13 x14 x15 x16 x17 (ix2 r k))) := by
  rw [val_main_v53_apply, val_main_v52_apply, ridx53, val_main_v51_apply, val_main_cst_1_apply]
  simp only [ridx51, exp_row]
  rw [Ideal.ofBits_def, Ideal.ofBits_zero_f32, zero_add]

/-- The last stage at `(r, q)`: the softmax of row `r`'s logits. -/
theorem softmax_row (q : Fin 2) :
    val_main_v54 (F := Ideal) x0 x1 x2 x3 x4 x5 x6 x7 x8 x9 x10 x11 x12 x13 x14 x15 x16 x17 (ix2 r q) = Cert.Spec.softmax (fun k => val_main_v43 (F := Ideal) x0 x1 x2 x3 x4 x5 x6 x7 x8 x9 x10 x11 x12 x13 x14 x15 x16 x17 (ix2 r k)) q := by
  rw [val_main_v54_apply, exp_row, sum_row]
  rfl

end Rows

/-- The reference's last stage at `(r, q)`: the softmax at `q` of row `r`'s logits. -/
theorem ref_row (x0 : (⟨S1000000x9, .f32⟩ : BufTy).Contents (Elt Ideal)) (x1 : (⟨S12x9, .f32⟩ : BufTy).Contents (Elt Ideal)) (x2 : (⟨S12, .f32⟩ : BufTy).Contents (Elt Ideal)) (x3 : (⟨S12x12, .f32⟩ : BufTy).Contents (Elt Ideal)) (x4 : (⟨S12, .f32⟩ : BufTy).Contents (Elt Ideal)) (x5 : (⟨S12x12, .f32⟩ : BufTy).Contents (Elt Ideal)) (x6 : (⟨S12, .f32⟩ : BufTy).Contents (Elt Ideal)) (x7 : (⟨S12x12, .f32⟩ : BufTy).Contents (Elt Ideal)) (x8 : (⟨S12, .f32⟩ : BufTy).Contents (Elt Ideal)) (x9 : (⟨S12x12, .f32⟩ : BufTy).Contents (Elt Ideal)) (x10 : (⟨S12, .f32⟩ : BufTy).Contents (Elt Ideal)) (x11 : (⟨S12x12, .f32⟩ : BufTy).Contents (Elt Ideal)) (x12 : (⟨S12, .f32⟩ : BufTy).Contents (Elt Ideal)) (x13 : (⟨S2x12, .f32⟩ : BufTy).Contents (Elt Ideal)) (x14 : (⟨S2, .f32⟩ : BufTy).Contents (Elt Ideal)) (x15 x16 x17 : (⟨S1000000x12, .f32⟩ : BufTy).Contents (Elt Ideal))
    (r : Fin 1000000) (q : Fin 2) :
    val_main_v54 (F := Ideal) x0 x1 x2 x3 x4 x5 x6 x7 x8 x9 x10 x11 x12 x13 x14 x15 x16 x17 (ix2 r q)
      = Cert.Spec.rowG (params x1 x2 x3 x4 x5 x6 x7 x8 x9 x10 x11 x12 x13 x14) (fun k => x0 (ix2 r k))
          (fun j => x15 (ix2 r j)) (fun j => x16 (ix2 r j)) (fun j => x17 (ix2 r j)) q := by
  rw [softmax_row]
  unfold Cert.Spec.rowG
  rw [funext (logits_row x0 x1 x2 x3 x4 x5 x6 x7 x8 x9 x10 x11 x12 x13 x14 x15 x16 x17 r)]

end Cert.RefRow

end
-- ==== Proof.lean ====
/-
  A seven-layer perceptron with three dropout masks and a softmax over two classes, one million rows: the kernel
  against the plain array program.

  Both programs compute, for each row of the batch, the same function of that row and of the same row of the three
  masks: six layers `h ↦ max (h · Wᵀ + b) 0`, the second, fourth and fifth followed by the product with a mask,
  a seventh affine layer to two logits, and their softmax. On the extended reals a change of float format is the
  identity, the matrix unit's product into a zero accumulator and the host's contraction are the same finite sum,
  and a lane reduction and the host's reduction the same fold; the kernel transposes the weight matrices on the host
  and reads them transposed, which is the reference's `Wᵀ`. So the two results are one function of the arguments
  (`Cert.Spec.resultOf`): `KI/StoredRow` reads the kernel's stored value at a row, `RefRow` the reference's last
  stage at a row, both as `Cert.Spec.rowG`.

  The kernel walks the batch in 245 blocks of 4096 rows; the last block reaches past the arrays' end, and the rows
  of its buffers below the arrays' last row hold words nothing names. No row of the result inside the array depends
  on them (`KI/Body`: a row of the stored value depends on that row of its inputs alone), only those rows are written
  back, and the 245 written blocks cover the array (`KI/Final`). The frames say nothing of any buffer's contents
  (`KI/FrameAny`, `K/FrameAny`): the body takes no branch, address or count from what it loads. The precondition
  is never opened: no step of the argument divides, cancels or distributes.
-/
import proofs.«129686_j45792941310687_1_alg».proof.Defs
import proofs.«129686_j45792941310687_1_alg».proof.Proof.Gen.Kernel
import proofs.«129686_j45792941310687_1_alg».proof.Proof.Gen.KernelIdeal
import proofs.«129686_j45792941310687_1_alg».proof.Proof.Gen.ReferenceIdeal
import proofs.«129686_j45792941310687_1_alg».proof.Proof.Gen.ReferenceIdeal.Run
import proofs.«129686_j45792941310687_1_alg».proof.Proof.Gen.ReferenceIdeal.Read
import proofs.«129686_j45792941310687_1_alg».proof.Proof.Gen.Pre_finite_inputs
import proofs.«129686_j45792941310687_1_alg».proof.Proof.K.FrameAny
import proofs.«129686_j45792941310687_1_alg».proof.Proof.KI.FrameAny
import proofs.«129686_j45792941310687_1_alg».proof.Proof.KI.Body
import proofs.«129686_j45792941310687_1_alg».proof.Proof.KI.Final
import proofs.«129686_j45792941310687_1_alg».proof.Proof.RefRow
import proofs.«129686_j45792941310687_1_alg».proof.Proof.SpecArr
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The result array is a function of the eighteen argument arrays: equal arguments, equal results. -/
theorem result_congr {y0 z0 : (⟨2, ![1000000, 9]⟩ : Shape).Idx → EReal} {y1 z1 : (⟨2, ![12, 9]⟩ : Shape).Idx → EReal} {y2 z2 : (⟨1, ![12]⟩ : Shape).Idx → EReal} {y3 z3 : (⟨2, ![12, 12]⟩ : Shape).Idx → EReal} {y4 z4 : (⟨1, ![12]⟩ : Shape).Idx → EReal} {y5 z5 : (⟨2, ![12, 12]⟩ : Shape).Idx → EReal} {y6 z6 : (⟨1, ![12]⟩ : Shape).Idx → EReal} {y7 z7 : (⟨2, ![12, 12]⟩ : Shape).Idx → EReal} {y8 z8 : (⟨1, ![12]⟩ : Shape).Idx → EReal} {y9 z9 : (⟨2, ![12, 12]⟩ : Shape).Idx → EReal} {y10 z10 : (⟨1, ![12]⟩ : Shape).Idx → EReal} {y11 z11 : (⟨2, ![12, 12]⟩ : Shape).Idx → EReal} {y12 z12 : (⟨1, ![12]⟩ : Shape).Idx → EReal} {y13 z13 : (⟨2, ![2, 12]⟩ : Shape).Idx → EReal} {y14 z14 : (⟨1, ![2]⟩ : Shape).Idx → EReal} {y15 z15 : (⟨2, ![1000000, 12]⟩ : Shape).Idx → EReal} {y16 z16 : (⟨2, ![1000000, 12]⟩ : Shape).Idx → EReal} {y17 z17 : (⟨2, ![1000000, 12]⟩ : Shape).Idx → EReal}
    (h0 : y0 = z0) (h1 : y1 = z1) (h2 : y2 = z2) (h3 : y3 = z3) (h4 : y4 = z4) (h5 : y5 = z5) (h6 : y6 = z6) (h7 : y7 = z7) (h8 : y8 = z8) (h9 : y9 = z9) (h10 : y10 = z10) (h11 : y11 = z11) (h12 : y12 = z12) (h13 : y13 = z13) (h14 : y14 = z14) (h15 : y15 = z15) (h16 : y16 = z16) (h17 : y17 = z17) :
    Cert.Spec.resultOf (Cert.Spec.argParams y1 y2 y3 y4 y5 y6 y7 y8 y9 y10 y11 y12 y13 y14) y0 y15 y16 y17 = Cert.Spec.resultOf (Cert.Spec.argParams z1 z2 z3 z4 z5 z6 z7 z8 z9 z10 z11 z12 z13 z14) z0 z15 z16 z17 := by
  subst h0 h1 h2 h3 h4 h5 h6 h7 h8 h9 h10 h11 h12 h13 h14 h15 h16 h17
  rfl

/-- The reference's result array is the row function of its arguments, row by row. -/
theorem ref_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v54 (F := Ideal) m' c
      = Cert.Spec.resultOf (Cert.Spec.argParams (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)))
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) := by
  rw [Cert.ReferenceIdeal.Read.val_main_v54_eq]
  funext i
  obtain ⟨r, q, rfl⟩ : ∃ (r : Fin 1000000) (q : Fin 2), i = ix2 r q := ⟨i 0, i 1, eq_ix2 i⟩
  rw [Cert.RefRow.ref_row]
  rfl

section Claims

variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

set_option maxHeartbeats 4000000 in
/-- Both programs end with the result array at the row function of the arguments, which agree. -/
theorem algebraic : Cert.algebraic_KernelIdeal_ReferenceIdeal := by
  intro m ρ m' ρ' _ hagree
  refine ⟨fun c => Cert.Spec.resultOf (Cert.Spec.argParams (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono (fun _ h c => ⟨((h c).1 18).trans (Cert.KernelIdeal.Hand.final_out m c),
        ((h c).1 0).trans (((Cert.KernelIdeal.Hand.dats m 0 c).arrAt_in 0 rfl _).trans ((Cert.KernelIdeal.Hand.A_eq m c 0).trans (Cert.KernelIdeal.Gen.V_main_arg0 m c))),
        ((h c).2 Cert.KernelIdeal.main_arg1 (Pipeline.mem_restRefs_of Cert.KernelIdeal.main_arg1 (by decide) (by decide))).trans (Cert.KernelIdeal.Gen.V_main_arg1 m c),
        ((h c).1 2).trans (((Cert.KernelIdeal.Hand.dats m 0 c).arrAt_in 2 rfl _).trans ((Cert.KernelIdeal.Hand.A_eq m c 2).trans (Cert.KernelIdeal.Gen.V_main_arg2 m c))),
        ((h c).2 Cert.KernelIdeal.main_arg3 (Pipeline.mem_restRefs_of Cert.KernelIdeal.main_arg3 (by decide) (by decide))).trans (Cert.KernelIdeal.Gen.V_main_arg3 m c),
        ((h c).1 4).trans (((Cert.KernelIdeal.Hand.dats m 0 c).arrAt_in 4 rfl _).trans ((Cert.KernelIdeal.Hand.A_eq m c 4).trans (Cert.KernelIdeal.Gen.V_main_arg4 m c))),
        ((h c).2 Cert.KernelIdeal.main_arg5 (Pipeline.mem_restRefs_of Cert.KernelIdeal.main_arg5 (by decide) (by decide))).trans (Cert.KernelIdeal.Gen.V_main_arg5 m c),
        ((h c).1 6).trans (((Cert.KernelIdeal.Hand.dats m 0 c).arrAt_in 6 rfl _).trans ((Cert.KernelIdeal.Hand.A_eq m c 6).trans (Cert.KernelIdeal.Gen.V_main_arg6 m c))),
        ((h c).2 Cert.KernelIdeal.main_arg7 (Pipeline.mem_restRefs_of Cert.KernelIdeal.main_arg7 (by decide) (by decide))).trans (Cert.KernelIdeal.Gen.V_main_arg7 m c),
        ((h c).1 8).trans (((Cert.KernelIdeal.Hand.dats m 0 c).arrAt_in 8 rfl _).trans ((Cert.KernelIdeal.Hand.A_eq m c 8).trans (Cert.KernelIdeal.Gen.V_main_arg8 m c))),
        ((h c).2 Cert.KernelIdeal.main_arg9 (Pipeline.mem_restRefs_of Cert.KernelIdeal.main_arg9 (by decide) (by decide))).trans (Cert.KernelIdeal.Gen.V_main_arg9 m c),
        ((h c).1 10).trans (((Cert.KernelIdeal.Hand.dats m 0 c).arrAt_in 10 rfl _).trans ((Cert.KernelIdeal.Hand.A_eq m c 10).trans (Cert.KernelIdeal.Gen.V_main_arg10 m c))),
        ((h c).2 Cert.KernelIdeal.main_arg11 (Pipeline.mem_restRefs_of Cert.KernelIdeal.main_arg11 (by decide) (by decide))).trans (Cert.KernelIdeal.Gen.V_main_arg11 m c),
        ((h c).1 12).trans (((Cert.KernelIdeal.Hand.dats m 0 c).arrAt_in 12 rfl _).trans ((Cert.KernelIdeal.Hand.A_eq m c 12).trans (Cert.KernelIdeal.Gen.V_main_arg12 m c))),
        ((h c).2 Cert.KernelIdeal.main_arg13 (Pipeline.mem_restRefs_of Cert.KernelIdeal.main_arg13 (by decide) (by decide))).trans (Cert.KernelIdeal.Gen.V_main_arg13 m c),
        ((h c).1 14).trans (((Cert.KernelIdeal.Hand.dats m 0 c).arrAt_in 14 rfl _).trans ((Cert.KernelIdeal.Hand.A_eq m c 14).trans (Cert.KernelIdeal.Gen.V_main_arg14 m c))),
        ((h c).1 15).trans (((Cert.KernelIdeal.Hand.dats m 0 c).arrAt_in 15 rfl _).trans ((Cert.KernelIdeal.Hand.A_eq m c 15).trans (Cert.KernelIdeal.Gen.V_main_arg15 m c))),
        ((h c).1 16).trans (((Cert.KernelIdeal.Hand.dats m 0 c).arrAt_in 16 rfl _).trans ((Cert.KernelIdeal.Hand.A_eq m c 16).trans (Cert.KernelIdeal.Gen.V_main_arg16 m c))),
        ((h c).1 17).trans (((Cert.KernelIdeal.Hand.dats m 0 c).arrAt_in 17 rfl _).trans ((Cert.KernelIdeal.Hand.A_eq m c 17).trans (Cert.KernelIdeal.Gen.V_main_arg17 m c)))⟩) (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17⟩ := hagree c
    exact (ref_result m' c).trans (result_congr e0 e1 e2 e3 e4 e5 e6 e7 e8 e9 e10 e11 e12 e13 e14 e15 e16 e17)

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
